-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S512x1024 .f32 .bf16
  ∧ IdealRules.truncf_extf.Statement Cert.KernelIdeal.S512x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S65536 : Shape := ⟨1, ![65536]⟩
abbrev S1x1024 : Shape := ⟨2, ![1, 1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S65536 : S_.BroadcastsInDim S65536 (![] : Fin 0 → Fin S65536.rank)
  reducesTo_S65536_S_d0 : S65536.ReducesTo [0] S_

variable [Facts]

def fn_part1 {F : FTy → Type} [FloatOps F] (main_arg1 : IVec S65536 32) (main_v13 : IVec S_ 1) (main_v15 : IVec S65536 1) (main_c_5 : IVec S_ 1) : IVec S_ 1 :=
  let main_v16 : IVec S_ 1 := (fun x v => Host.reduce IntOp.andi x v reducesTo_S65536_S_d0 h_S_) main_v15 main_c_5
  let main_v17 : IVec S_ 1 := andi main_v13 main_v16
  let main_c_6 : IVec S_ 32 := constantI S_ 32 8#32
  let main_v18 : IVec S65536 32 := broadcastInDim S65536 ![] bcast_S_S65536 main_c_6
  let main_v19 : IVec S65536 1 := cmpi .slt main_arg1 main_v18
  let main_c_7 : IVec S_ 1 := constantI S_ 1 1#1
  let main_v20 : IVec S_ 1 := (fun x v => Host.reduce IntOp.andi x v reducesTo_S65536_S_d0 h_S_) main_v19 main_c_7
  let main_v21 : IVec S_ 1 := andi main_v17 main_v20
  main_v21

def fn {F : FTy → Type} [FloatOps F] (main_arg0 : FVec F S65536x1024 .f32) (main_arg1 : IVec S65536 32) (main_arg2 : FVec F S1x1024 .f32) (main_arg3 : FVec F S1x1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S1x1024 .f32 := Host.absf main_arg2
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_c_4 : IVec S_ 32 := constantI S_ 32 0#32
  let main_v14 : IVec S65536 32 := broadcastInDim S65536 ![] bcast_S_S65536 main_c_4
  let main_v15 : IVec S65536 1 := cmpi .sge main_arg1 main_v14
  let main_c_5 : IVec S_ 1 := constantI S_ 1 1#1
  fn_part1 (F := F) main_arg1 main_v13 main_v15 main_c_5
-- ==== Kernel.lean ====
abbrev S65536x1024 : Shape := ⟨2, ![65536, 1024]⟩
abbrev S65536 : Shape := ⟨1, ![65536]⟩
abbrev S1x1024 : Shape := ⟨2, ![1, 1024]⟩
abbrev S65536x1 : Shape := ⟨2, ![65536, 1]⟩
abbrev S2x8x1024 : Shape := ⟨3, ![2, 8, 1024]⟩
abbrev S2x8x128 : Shape := ⟨3, ![2, 8, 128]⟩
abbrev S512x1024 : Shape := ⟨2, ![512, 1024]⟩
abbrev S512x1 : Shape := ⟨2, ![512, 1]⟩
abbrev S1x8x1024 : Shape := ⟨3, ![1, 8, 1024]⟩
abbrev S1x8x128 : Shape := ⟨3, ![1, 8, 128]⟩
abbrev S8x1024 : Shape := ⟨2, ![8, 1024]⟩
abbrev S8x128 : Shape := ⟨2, ![8, 128]⟩
abbrev S512x8 : Shape := ⟨2, ![512, 8]⟩
abbrev S8 : Shape := ⟨1, ![8]⟩
abbrev S8x1 : Shape := ⟨2, ![8, 1]⟩
abbrev S_ : Shape := ⟨0, ![]⟩
abbrev S1024x1024 : Shape := ⟨2, ![1024, 1024]⟩
abbrev S1024x1 : Shape := ⟨2, ![1024, 1]⟩
abbrev S1024x8 : Shape := ⟨2, ![1024, 8]⟩

abbrev nBuf : Space → Nat
  | .hbm => 80
  | .vmem => 20
  | .smem => 0
  | _ => 0

abbrev bufTy : (tb : Table) → Fin (tcTables nBuf tb) → BufTy
  | .hbm, ⟨0, _⟩ => ⟨S65536x1024, .f32⟩
  | .hbm, ⟨1, _⟩ => ⟨S65536, .i32⟩
  | .hbm, ⟨2, _⟩ => ⟨S1x1024, .f32⟩
  | .hbm, ⟨3, _⟩ => ⟨S1x1024, .f32⟩
  | .hbm, ⟨4, _⟩ => ⟨S65536x1, .i32⟩
  | .hbm, ⟨5, _⟩ => ⟨S2x8x1024, .f32⟩
  | .hbm, ⟨6, _⟩ => ⟨S2x8x1024, .f32⟩
  | .hbm, ⟨7, _⟩ => ⟨S2x8x128, .f32⟩
  | .hbm, ⟨8, _⟩ => ⟨S1x8x1024, .f32⟩
  | .hbm, ⟨9, _⟩ => ⟨S8x1024, .f32⟩
  | .hbm, ⟨10, _⟩ => ⟨S1x8x1024, .f32⟩
  | .hbm, ⟨11, _⟩ => ⟨S8x1024, .f32⟩
  | .hbm, ⟨12, _⟩ => ⟨S8x1024, .f32⟩
  | .hbm, ⟨13, _⟩ => ⟨S1x8x1024, .f32⟩
  | .hbm, ⟨14, _⟩ => ⟨S8x1024, .f32⟩
  | .hbm, ⟨15, _⟩ => ⟨S1x8x1024, .f32⟩
  | .hbm, ⟨16, _⟩ => ⟨S8x1024, .f32⟩
  | .hbm, ⟨17, _⟩ => ⟨S8x1024, .f32⟩
  | .hbm, ⟨18, _⟩ => ⟨S1x8x128, .f32⟩
  | .hbm, ⟨19, _⟩ => ⟨S8x128, .f32⟩
  | .hbm, ⟨20, _⟩ => ⟨S1x8x128, .f32⟩
  | .hbm, ⟨21, _⟩ => ⟨S8x128, .f32⟩
  | .hbm, ⟨22, _⟩ => ⟨S8x128, .f32⟩
  | .hbm, ⟨23, _⟩ => ⟨S8x1, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S8x1, .f32⟩
  | .hbm, ⟨29, _⟩ => ⟨S8x1024, .f32⟩
  | .hbm, ⟨30, _⟩ => ⟨S8x1024, .f32⟩
  | .hbm, ⟨31, _⟩ => ⟨S8x1024, .f32⟩
  | .hbm, ⟨32, _⟩ => ⟨S8x1024, .f32⟩
  | .hbm, ⟨33, _⟩ => ⟨S8x1024, .f32⟩
  | .hbm, ⟨34, _⟩ => ⟨S8x1024, .f32⟩
  | .hbm, ⟨35, _⟩ => ⟨S_, .f32⟩
  | .hbm, ⟨36, _⟩ => ⟨S8x1024, .f32⟩
  | .hbm, ⟨37, _⟩ => ⟨S8x1024, .f32⟩
  | .hbm, ⟨38, _⟩ => ⟨S_, .f32⟩
  | .hbm, ⟨39, _⟩ => ⟨S8x1024, .f32⟩
  | .hbm, ⟨40, _⟩ => ⟨S8x1024, .f32⟩
  | .hbm, ⟨41, _⟩ => ⟨S8x1024, .f32⟩
  | .hbm, ⟨42, _⟩ => ⟨S8x1, .f32⟩
  | .hbm, ⟨43, _⟩ => ⟨S_, .f32⟩
  | .hbm, ⟨44, _⟩ => ⟨S8x1, .f32⟩
  | .hbm, ⟨45, _⟩ => ⟨S8x1, .i1⟩
  | .hbm, ⟨46, _⟩ => ⟨S8x1024, .f32⟩
  | .hbm, ⟨47, _⟩ => ⟨S8x1024, .f32⟩
  | .hbm, ⟨48, _⟩ => ⟨S_, .f32⟩
  | .hbm, ⟨49, _⟩ => ⟨S8x1, .f32⟩
  | .hbm, ⟨50, _⟩ => ⟨S8x1, .i1⟩
  | .hbm, ⟨51, _⟩ => ⟨S_, .f32⟩
  | .hbm, ⟨52, _⟩ => ⟨S_, .f32⟩
  | .hbm, ⟨53, _⟩ => ⟨S8x1, .f32⟩
  | .hbm, ⟨54, _⟩ => ⟨S8x1, .f32⟩
  | .hbm, ⟨55, _⟩ => ⟨S8x1, .f32⟩
  | .hbm, ⟨56, _⟩ => ⟨S8x1, .f32⟩
  | .hbm, ⟨57, _⟩ => ⟨S8x1024, .i1⟩
  | .hbm, ⟨58, _⟩ => ⟨S8x1024, .f32⟩
  | .hbm, ⟨59, _⟩ => ⟨S8x1024, .f32⟩
  | .hbm, ⟨60, _⟩ => ⟨S_, .f32⟩
  | .hbm, ⟨61, _⟩ => ⟨S8x1, .f32⟩
  | .hbm, ⟨62, _⟩ => ⟨S8x1, .i1⟩
  | .hbm, ⟨63, _⟩ => ⟨S8x1024, .f32⟩
  | .hbm, ⟨64, _⟩ => ⟨S8x1024, .f32⟩
  | .hbm, ⟨65, _⟩ => ⟨S8x1024, .f32⟩
  | .hbm, ⟨66, _⟩ => ⟨S_, .f32⟩
  | .hbm, ⟨67, _⟩ => ⟨S_, .f32⟩
  | .hbm, ⟨68, _⟩ => ⟨S8x1024, .i1⟩
  | .hbm, ⟨69, _⟩ => ⟨S8x1024, .f32⟩
  | .hbm, ⟨70, _⟩ => ⟨S8x1024, .f32⟩
  | .hbm, ⟨71, _⟩ => ⟨S8x1024, .bf16⟩
  | .hbm, ⟨72, _⟩ => ⟨S8x1024, .f32⟩
  | .hbm, ⟨73, _⟩ => ⟨S8x1024, .f32⟩
  | .hbm, ⟨74, _⟩ => ⟨S8x1024, .bf16⟩
  | .hbm, ⟨75, _⟩ => ⟨S8x1024, .bf16⟩
  | .hbm, ⟨76, _⟩ => ⟨S8x1024, .f32⟩
  | .hbm, ⟨77, _⟩ => ⟨S8x1024, .f32⟩
  | .hbm, ⟨78, _⟩ => ⟨S8x1024, .bf16⟩
  | .hbm, ⟨79, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1, .i32⟩
  | .local _ .vmem, ⟨3, _⟩ => ⟨S512x1, .i32⟩
  | .local _ .vmem, ⟨4, _⟩ => ⟨S1x8x1024, .f32⟩
  | .local _ .vmem, ⟨5, _⟩ => ⟨S1x8x1024, .f32⟩
  | .local _ .vmem, ⟨6, _⟩ => ⟨S1x8x1024, .f32⟩
  | .local _ .vmem, ⟨7, _⟩ => ⟨S1x8x1024, .f32⟩
  | .local _ .vmem, ⟨8, _⟩ => ⟨S1x8x128, .f32⟩
  | .local _ .vmem, ⟨9, _⟩ => ⟨S1x8x128, .f32⟩
  | .local _ .vmem, ⟨10, _⟩ => ⟨S1024x1024, .f32⟩
  | .local _ .vmem, ⟨11, _⟩ => ⟨S1024x1024, .f32⟩
  | .local _ .vmem, ⟨12, _⟩ => ⟨S1024x1, .i32⟩
  | .local _ .vmem, ⟨13, _⟩ => ⟨S1024x1, .i32⟩
  | .local _ .vmem, ⟨14, _⟩ => ⟨S8x1024, .bf16⟩
  | .local _ .vmem, ⟨15, _⟩ => ⟨S8x1024, .bf16⟩
  | .local _ .vmem, ⟨16, _⟩ => ⟨S8x1024, .bf16⟩
  | .local _ .vmem, ⟨17, _⟩ => ⟨S8x1024, .bf16⟩
  | .local _ .vmem, ⟨18, _⟩ => ⟨S1024x1024, .f32⟩
  | .local _ .vmem, ⟨19, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_0 : Ref sig .tc := ⟨.hbm, 35, rfl⟩
abbrev main_v28 : Ref sig .tc := ⟨.hbm, 36, rfl⟩
abbrev main_v29 : Ref sig .tc := ⟨.hbm, 37, rfl⟩
abbrev main_cst_1 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_2 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_cst_5 : Ref sig .tc := ⟨.hbm, 52, rfl⟩
abbrev main_call0_v0 : Ref sig .tc := ⟨.hbm, 53, rfl⟩
abbrev main_call0_v1 : Ref sig .tc := ⟨.hbm, 54, rfl⟩
abbrev main_v40 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_7 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1024x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S65536_S65536x1 : S65536.ShapeCasts S65536x1
  inb_S1x8x1024_S1x8x1024_0_0_0 : ∀ a, (![0, 0, 0] : Fin 3 → Nat) a + S1x8x1024.size a ≤ S1x8x1024.size a
  h_S1x8x1024 : 0 < S1x8x1024.numel
  shapeCasts_S1x8x1024_S8x1024 : S1x8x1024.ShapeCasts S8x1024
  shapeCasts_S8x1024_S1x8x1024 : S8x1024.ShapeCasts S1x8x1024
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  inb_S512x1024_S512x1024_0_0 : ∀ a, (![0, 0] : Fin 2 → Nat) a + S512x1024.size a ≤ S512x1024.size a
  h_S512x1024 : 0 < S512x1024.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x8_d1_w32 : S512x8.Iotas .tc 32 [1]
  broadcasts_S512x1_S512x8 : S512x1.Broadcasts S512x8
  natLt_1_32 : 1 < 32
  bitsLt_bf16_f32 : FTy.bits .bf16 < FTy.bits .f32
  reduces_S512x8_S8 : S512x8.Reduces [0] S8
  shapeCasts_S8_S8x1 : S8.ShapeCasts S8x1
  shapeCasts_S8x1_S8x1 : S8x1.ShapeCasts S8x1
  broadcasts_S8x1_S8x128 : S8x1.Broadcasts S8x128
  slices_S2x8x1024_S1x8x1024_0_0_0 : S2x8x1024.Slices ![0, 0, 0] S1x8x1024
  slices_S2x8x1024_S1x8x1024_1_0_0 : S2x8x1024.Slices ![1, 0, 0] S1x8x1024
  slices_S2x8x128_S1x8x128_0_0_0 : S2x8x128.Slices ![0, 0, 0] S1x8x128
  slices_S2x8x128_S1x8x128_1_0_0 : S2x8x128.Slices ![1, 0, 0] S1x8x128
  slices_S8x128_S8x1_0_0 : S8x128.Slices ![0, 0] S8x1
  shapeCasts_S8x1_S8 : S8x1.ShapeCasts S8
  bcast_S_S8 : S_.BroadcastsInDim S8 (![] : Fin 0 → Fin S8.rank)
  bcast_S8_S8x1_0 : S8.BroadcastsInDim S8x1 (![0] : Fin 1 → Fin S8x1.rank)
  bcast_S8x1_S8x1024_0_1 : S8x1.BroadcastsInDim S8x1024 (![0, 1] : Fin 2 → Fin S8x1024.rank)
  bcast_S_S8x1024 : S_.BroadcastsInDim S8x1024 (![] : Fin 0 → Fin S8x1024.rank)
  bcast_S_S8x1 : S_.BroadcastsInDim S8x1 (![] : Fin 0 → Fin S8x1.rank)
  bcast_S1x1024_S8x1024_0_1 : S1x1024.BroadcastsInDim S8x1024 (![0, 1] : Fin 2 → Fin S8x1024.rank)
  inb_S1024x1024_S1024x1024_0_0 : ∀ a, (![0, 0] : Fin 2 → Nat) a + S1024x1024.size a ≤ S1024x1024.size a
  h_S1024x1024 : 0 < S1024x1024.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x8_d1_w32 : S1024x8.Iotas .tc 32 [1]
  broadcasts_S1024x1_S1024x8 : S1024x1.Broadcasts S1024x8
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  dot_S512x8_S512x1024_S8x1024_0_0_1_1_n_n_wf : DotDims.WF S512x8 S512x1024 S8x1024 [0] [0] [1] [1] [] []
  dot_S1024x8_S8x1024_S1024x1024_1_0_0_1_n_n_wf : DotDims.WF S1024x8 S8x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S65536x1024.size a
  hwx0_0 : ∀ i : grid0.Coords, EltTy.bits .f32 = 32 ∨ (Rect.block (s := S65536x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S65536x1.size a
  hwx0_1 : ∀ i : grid0.Coords, EltTy.bits .i32 = 32 ∨ (Rect.block (s := S65536x1) S512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x1024.size a ≤ S2x8x1024.size a
  hwx0_2 : ∀ i : grid0.Coords, EltTy.bits .f32 = 32 ∨ (Rect.block (s := S2x8x1024) S1x8x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x1024.size a ≤ S2x8x1024.size a
  hwx0_3 : ∀ i : grid0.Coords, EltTy.bits .f32 = 32 ∨ (Rect.block (s := S2x8x1024) S1x8x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S2x8x128.size a
  hwx0_4 : ∀ i : grid0.Coords, EltTy.bits .f32 = 32 ∨ (Rect.block (s := S2x8x128) S1x8x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S65536x1024.size a
  hwx1_0 : ∀ i : grid1.Coords, EltTy.bits .f32 = 32 ∨ (Rect.block (s := S65536x1024) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S65536x1.size a
  hwx1_1 : ∀ i : grid1.Coords, EltTy.bits .i32 = 32 ∨ (Rect.block (s := S65536x1) S1024x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x1024.size a ≤ S8x1024.size a
  hwx1_2 : ∀ i : grid1.Coords, EltTy.bits .bf16 = 32 ∨ (Rect.block (s := S8x1024) S8x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x1024.size a ≤ S8x1024.size a
  hwx1_3 : ∀ i : grid1.Coords, EltTy.bits .bf16 = 32 ∨ (Rect.block (s := S8x1024) S8x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8x1024.size a ≤ S8x1024.size a
  hwx1_4 : ∀ i : grid1.Coords, EltTy.bits .bf16 = 32 ∨ (Rect.block (s := S8x1024) S8x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8x1024.size a ≤ S8x1024.size a
  hwx1_5 : ∀ i : grid1.Coords, EltTy.bits .bf16 = 32 ∨ (Rect.block (s := S8x1024) S8x1024.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x1024.size a ≤ S65536x1024.size a
  hwx1_6 : ∀ i : grid1.Coords, EltTy.bits .f32 = 32 ∨ (Rect.block (s := S65536x1024) S1024x1024.size (cc1_transform_6 i) (hinb1_6 i)).WholeWords (EltTy.packing .f32)

variable [Facts₀]

def dot_S512x8_S512x1024_S8x1024_0_0_1_1_n_n : DotDims S512x8 S512x1024 S8x1024 where
  lhsContracting := [0]
  rhsContracting := [0]
  lhsNonContracting := [1]
  rhsNonContracting := [1]
  lhsBatch := []
  rhsBatch := []
  wf := dot_S512x8_S512x1024_S8x1024_0_0_1_1_n_n_wf
def dot_S1024x8_S8x1024_S1024x1024_1_0_0_1_n_n : DotDims S1024x8 S8x1024 S1024x1024 where
  lhsContracting := [1]
  rhsContracting := [0]
  lhsNonContracting := [0]
  rhsNonContracting := [1]
  lhsBatch := []
  rhsBatch := []
  wf := dot_S1024x8_S8x1024_S1024x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x8x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x8x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S8x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S8x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S8x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v55) S8x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v56) S1024x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S65536x1024 : Shape := ⟨2, ![65536, 1024]⟩
abbrev S65536 : Shape := ⟨1, ![65536]⟩
abbrev S1x1024 : Shape := ⟨2, ![1, 1024]⟩
abbrev S_ : Shape := ⟨0, ![]⟩
abbrev S8 : Shape := ⟨1, ![8]⟩
abbrev S65536x1 : Shape := ⟨2, ![65536, 1]⟩
abbrev S8x1 : Shape := ⟨2, ![8, 1]⟩
abbrev S8x1024 : Shape := ⟨2, ![8, 1024]⟩

abbrev nBuf : Space → Nat
  | .hbm => 78
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536, .i32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S65536, .f32⟩
  | .hbm, ⟨6, _⟩ => ⟨S_, .f32⟩
  | .hbm, ⟨7, _⟩ => ⟨S8, .f32⟩
  | .hbm, ⟨8, _⟩ => ⟨S65536x1, .i32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S8x1, .f32⟩
  | .hbm, ⟨14, _⟩ => ⟨S_, .f32⟩
  | .hbm, ⟨15, _⟩ => ⟨S8x1024, .f32⟩
  | .hbm, ⟨16, _⟩ => ⟨S65536x1, .i32⟩
  | .hbm, ⟨17, _⟩ => ⟨S8x1024, .f32⟩
  | .hbm, ⟨18, _⟩ => ⟨S8x1024, .f32⟩
  | .hbm, ⟨19, _⟩ => ⟨S8x1024, .f32⟩
  | .hbm, ⟨20, _⟩ => ⟨S_, .i32⟩
  | .hbm, ⟨21, _⟩ => ⟨S65536, .i32⟩
  | .hbm, ⟨22, _⟩ => ⟨S65536, .i1⟩
  | .hbm, ⟨23, _⟩ => ⟨S_, .i32⟩
  | .hbm, ⟨24, _⟩ => ⟨S65536, .i32⟩
  | .hbm, ⟨25, _⟩ => ⟨S65536, .i32⟩
  | .hbm, ⟨26, _⟩ => ⟨S65536, .i32⟩
  | .hbm, ⟨27, _⟩ => ⟨S65536x1, .i32⟩
  | .hbm, ⟨28, _⟩ => ⟨S65536x1024, .f32⟩
  | .hbm, ⟨29, _⟩ => ⟨S65536x1024, .f32⟩
  | .hbm, ⟨30, _⟩ => ⟨S65536x1024, .f32⟩
  | .hbm, ⟨31, _⟩ => ⟨S_, .f32⟩
  | .hbm, ⟨32, _⟩ => ⟨S8x1024, .f32⟩
  | .hbm, ⟨33, _⟩ => ⟨S65536x1, .i32⟩
  | .hbm, ⟨34, _⟩ => ⟨S8x1024, .f32⟩
  | .hbm, ⟨35, _⟩ => ⟨S8x1024, .f32⟩
  | .hbm, ⟨36, _⟩ => ⟨S8x1024, .f32⟩
  | .hbm, ⟨37, _⟩ => ⟨S_, .i32⟩
  | .hbm, ⟨38, _⟩ => ⟨S65536, .i32⟩
  | .hbm, ⟨39, _⟩ => ⟨S65536, .i1⟩
  | .hbm, ⟨40, _⟩ => ⟨S_, .i32⟩
  | .hbm, ⟨41, _⟩ => ⟨S65536, .i32⟩
  | .hbm, ⟨42, _⟩ => ⟨S65536, .i32⟩
  | .hbm, ⟨43, _⟩ => ⟨S65536, .i32⟩
  | .hbm, ⟨44, _⟩ => ⟨S65536x1, .i32⟩
  | .hbm, ⟨45, _⟩ => ⟨S65536x1024, .f32⟩
  | .hbm, ⟨46, _⟩ => ⟨S_, .f32⟩
  | .hbm, ⟨47, _⟩ => ⟨S65536x1024, .f32⟩
  | .hbm, ⟨48, _⟩ => ⟨S65536x1024, .f32⟩
  | .hbm, ⟨49, _⟩ => ⟨S65536x1024, .f32⟩
  | .hbm, ⟨50, _⟩ => ⟨S65536x1024, .f32⟩
  | .hbm, ⟨51, _⟩ => ⟨S65536x1024, .f32⟩
  | .hbm, ⟨52, _⟩ => ⟨S65536x1024, .f32⟩
  | .hbm, ⟨53, _⟩ => ⟨S65536x1024, .f32⟩
  | .hbm, ⟨54, _⟩ => ⟨S65536x1024, .f32⟩
  | .hbm, ⟨55, _⟩ => ⟨S_, .i32⟩
  | .hbm, ⟨56, _⟩ => ⟨S65536, .i32⟩
  | .hbm, ⟨57, _⟩ => ⟨S65536, .i1⟩
  | .hbm, ⟨58, _⟩ => ⟨S_, .i32⟩
  | .hbm, ⟨59, _⟩ => ⟨S65536, .i32⟩
  | .hbm, ⟨60, _⟩ => ⟨S65536, .i32⟩
  | .hbm, ⟨61, _⟩ => ⟨S65536, .i32⟩
  | .hbm, ⟨62, _⟩ => ⟨S65536x1, .i32⟩
  | .hbm, ⟨63, _⟩ => ⟨S65536, .f32⟩
  | .hbm, ⟨64, _⟩ => ⟨S65536x1, .f32⟩
  | .hbm, ⟨65, _⟩ => ⟨S_, .f32⟩
  | .hbm, ⟨66, _⟩ => ⟨S65536x1, .f32⟩
  | .hbm, ⟨67, _⟩ => ⟨S65536x1, .i1⟩
  | .hbm, ⟨68, _⟩ => ⟨S_, .f32⟩
  | .hbm, ⟨69, _⟩ => ⟨S65536x1, .f32⟩
  | .hbm, ⟨70, _⟩ => ⟨S65536x1, .i1⟩
  | .hbm, ⟨71, _⟩ => ⟨S_, .f32⟩
  | .hbm, ⟨72, _⟩ => ⟨S_, .f32⟩
  | .hbm, ⟨73, _⟩ => ⟨S65536x1024, .i1⟩
  | .hbm, ⟨74, _⟩ => ⟨S65536x1024, .f32⟩
  | .hbm, ⟨75, _⟩ => ⟨S65536x1024, .f32⟩
  | .hbm, ⟨76, _⟩ => ⟨S65536x1024, .i1⟩
  | .hbm, ⟨77, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_c_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_8 : Ref sig .tc := ⟨.hbm, 55, rfl⟩
abbrev main_v41 : Ref sig .tc := ⟨.hbm, 56, rfl⟩
abbrev main_v42 : Ref sig .tc := ⟨.hbm, 57, rfl⟩
abbrev main_c_9 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_10 : Ref sig .tc := ⟨.hbm, 65, rfl⟩
abbrev main_v49 : Ref sig .tc := ⟨.hbm, 66, rfl⟩
abbrev main_v50 : Ref sig .tc := ⟨.hbm, 67, rfl⟩
abbrev main_cst_11 : Ref sig .tc := ⟨.hbm, 68, rfl⟩
abbrev main_v51 : Ref sig .tc := ⟨.hbm, 69, rfl⟩
abbrev main_v52 : Ref sig .tc := ⟨.hbm, 70, rfl⟩
abbrev main_cst_12 : Ref sig .tc := ⟨.hbm, 71, rfl⟩
abbrev main_call0_v0 : Ref sig .tc := ⟨.hbm, 72, rfl⟩
abbrev main_call0_v1 : Ref sig .tc := ⟨.hbm, 73, rfl⟩
abbrev main_call0_v2 : Ref sig .tc := ⟨.hbm, 74, rfl⟩
abbrev main_v53 : Ref sig .tc := ⟨.hbm, 75, rfl⟩
abbrev main_call1_v0 : Ref sig .tc := ⟨.hbm, 76, rfl⟩
abbrev main_v54 : Ref sig .tc := ⟨.hbm, 77, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S_S8 : S_.BroadcastsInDim S8 (![] : Fin 0 → Fin S8.rank)
  bcast_S65536_S65536x1_0 : S65536.BroadcastsInDim S65536x1 (![0] : Fin 1 → Fin S65536x1.rank)
  bcast_S8_S8x1_0 : S8.BroadcastsInDim S8x1 (![0] : Fin 1 → Fin S8x1.rank)
  bcast_S_S8x1024 : S_.BroadcastsInDim S8x1024 (![] : Fin 0 → Fin S8x1024.rank)
  bcast_S8x1_S8x1024_0_1 : S8x1.BroadcastsInDim S8x1024 (![0, 1] : Fin 2 → Fin S8x1024.rank)
  bcast_S_S65536x1024 : S_.BroadcastsInDim S65536x1024 (![] : Fin 0 → Fin S65536x1024.rank)
  bcast_S1x1024_S65536x1024_0_1 : S1x1024.BroadcastsInDim S65536x1024 (![0, 1] : Fin 2 → Fin S65536x1024.rank)
  bcast_S_S65536x1 : S_.BroadcastsInDim S65536x1 (![] : Fin 0 → Fin S65536x1.rank)
  bcast_S65536x1_S65536x1024_0_1 : S65536x1.BroadcastsInDim S65536x1024 (![0, 1] : Fin 2 → Fin S65536x1024.rank)
  scatter_S8_S65536x1_S65536_n_0_0_1_wf : ScatterDims.WF S8 S65536x1 S65536 [] [0] [0] 1
  scatter_S8x1024_S65536x1_S65536x1024_1_0_0_1_wf : ScatterDims.WF S8x1024 S65536x1 S65536x1024 [1] [0] [0] 1
  gather_S8x1024_S65536x1_S65536x1024_1_0_n_n_0_1_11024_wf : GatherDims.WF S8x1024 S65536x1 S65536x1024 [1] [0] [] [0] [] 1 ![1, 1024]
  gather_S8_S65536x1_S65536_n_0_n_n_0_1_1_wf : GatherDims.WF S8 S65536x1 S65536 [] [0] [] [0] [] 1 ![1]

variable [Facts₀]

def scatter_S8_S65536x1_S65536_n_0_0_1 : ScatterDims S8 S65536x1 S65536 where
  updateWindowDims := []
  insertedWindowDims := [0]
  scatterDimsToOperandDims := [0]
  indexVectorDim := 1
  wf := scatter_S8_S65536x1_S65536_n_0_0_1_wf
def scatter_S8x1024_S65536x1_S65536x1024_1_0_0_1 : ScatterDims S8x1024 S65536x1 S65536x1024 where
  updateWindowDims := [1]
  insertedWindowDims := [0]
  scatterDimsToOperandDims := [0]
  indexVectorDim := 1
  wf := scatter_S8x1024_S65536x1_S65536x1024_1_0_0_1_wf
def gather_S8x1024_S65536x1_S65536x1024_1_0_n_n_0_1_11024 : GatherDims S8x1024 S65536x1 S65536x1024 where
  offsetDims := [1]
  collapsedSliceDims := [0]
  operandBatchingDims := []
  startIndicesBatchingDims := []
  startIndexMap := [0]
  indexVectorDim := 1
  sliceSizes := ![1, 1024]
  wf := gather_S8x1024_S65536x1_S65536x1024_1_0_n_n_0_1_11024_wf
def gather_S8_S65536x1_S65536_n_0_n_n_0_1_1 : GatherDims S8 S65536x1 S65536 where
  offsetDims := []
  collapsedSliceDims := [0]
  operandBatchingDims := []
  startIndicesBatchingDims := []
  startIndexMap := [0]
  indexVectorDim := 1
  sliceSizes := ![1]
  wf := gather_S8_S65536x1_S65536_n_0_n_n_0_1_1_wf

class Facts : Prop extends Facts₀ where

variable [Facts]
-- ==== Proof.DomainStats.lean ====
/-
  Per-domain batch normalisation, as mathematics over the extended reals, with no program in sight.

  Rows `e` carry an integer label `lab e`; a domain `d` collects the rows labelled `d`. For one feature column
  `x : rows → EReal` the statistics of a domain are its row count, the sum of its entries and the sum of their squares.
  Two formulas for the normalised entry of row `e` are stated here and proved equal where every entry is a real number:

  * `kerVal`: mean `μ = S / max(C, 1)`, second moment `q = Q / max(C, 1)`, variance `max (q − μ²) 0`,
    `scale = γ · (v + ε)^(−1/2)` and `shift = β − μ · scale` when the domain has more than one row (scale 1, shift 0 for
    a single row), and the entry `x · (scale + (scale − scale)) + (shift + (shift − shift))`: the two-term splittings are
    what is left of a value carried as a leading part and a remainder when the leading part is the value itself;
  * `refVal`: the two-pass form, variance `Σ (x − μ)² / max(C, 1)` over the domain's rows and the entry
    `γ · ((x − μ) / sqrt (v + ε)) + β` (the row itself for a single-row domain).

  The law joining them is `Σ (x − μ)² / c = Σ x² / c − μ²` for `μ = Σ x / c`, which makes the clamp at 0 the identity, and
  `a / sqrt s = a · s^(−1/2)` for `s > 0`.
-/
import Idealize.ShloMosaic.PureOps.Ideal
import Idealize.ShloMosaic.Lib.ValueIdx

noncomputable section

namespace Cert.DomainNorm

open Idealize.ShloMosaic Finset

/-- The variance floor both programs add, as the f32 word they both carry. -/
def eps : EReal := Ideal.ofBits .f32 0x3727C5AC#32

/-- The one-hot entry of a label word against domain `d`: 1 where the word is `d`, else 0. -/
def oneHot (w : BitVec 32) (d : Fin 8) : EReal := if w = BitVec.ofNat 32 d.val then 1 else 0

/-- Row `n` of tile `i` of half `k`: the 65536 rows are two halves of 64 tiles of 512 rows. -/
def rowOf (k : Fin 2) (i : Fin 64) (n : Fin 512) : Fin 65536 := ⟨(k.val * 64 + i.val) * 512 + n.val, by omega⟩

/-- One tile's contribution to a domain's sum: the one-hot column of the tile's labels against the tile's values. -/
def tileDot (g : Fin 65536 → EReal) (w : Fin 65536 → BitVec 32) (k : Fin 2) (i : Fin 64) (d : Fin 8) : EReal :=
  ∑ n : Fin 512, oneHot (w (rowOf k i n)) d * g (rowOf k i n)

/-- One tile's contribution to a domain's row count. -/
def tileCount (w : Fin 65536 → BitVec 32) (k : Fin 2) (i : Fin 64) (d : Fin 8) : EReal :=
  ∑ n : Fin 512, oneHot (w (rowOf k i n)) d

section Abstract

variable {ι : Type} [Fintype ι]

/-- How many rows carry the label `d`. -/
def cntOf (lab : ι → ℤ) (d : ℤ) : EReal := ∑ _e ∈ univ.filter (fun e => lab e = d), (1 : EReal)

/-- The sum of `v` over the rows labelled `d`. -/
def sumOf (lab : ι → ℤ) (v : ι → EReal) (d : ℤ) : EReal := ∑ e ∈ univ.filter (fun e => lab e = d), v e

/-- A domain's scale from its sum `S`, sum of squares `Q` and count `C` (one-pass variance, clamped at 0). -/
def scaleTab (ε S Q C γ : EReal) : EReal :=
  if 1 < C then
    γ * Ideal.rsqrt (max (Ideal.div Q (max C 1) - Ideal.div S (max C 1) * Ideal.div S (max C 1)) 0 + ε)
  else if C = 1 then 1 else 0

/-- A domain's shift: `β − mean · scale` for more than one row, else 0. -/
def shiftTab (ε S Q C γ β : EReal) : EReal :=
  if 1 < C then β - Ideal.div S (max C 1) * scaleTab ε S Q C γ else 0

/-- The one-pass form of row `e`'s normalised entry. -/
def kerVal (ε : EReal) (lab : ι → ℤ) (x : ι → EReal) (γ β : EReal) (e : ι) : EReal :=
  x e * (scaleTab ε (sumOf lab x (lab e)) (sumOf lab (fun e' => x e' * x e') (lab e)) (cntOf lab (lab e)) γ
        + (scaleTab ε (sumOf lab x (lab e)) (sumOf lab (fun e' => x e' * x e') (lab e)) (cntOf lab (lab e)) γ
          - scaleTab ε (sumOf lab x (lab e)) (sumOf lab (fun e' => x e' * x e') (lab e)) (cntOf lab (lab e)) γ))
    + (shiftTab ε (sumOf lab x (lab e)) (sumOf lab (fun e' => x e' * x e') (lab e)) (cntOf lab (lab e)) γ β
        + (shiftTab ε (sumOf lab x (lab e)) (sumOf lab (fun e' => x e' * x e') (lab e)) (cntOf lab (lab e)) γ β
          - shiftTab ε (sumOf lab x (lab e)) (sumOf lab (fun e' => x e' * x e') (lab e)) (cntOf lab (lab e)) γ β))

/-- The two-pass mean of domain `d` (sums started from 0, as a scatter-add into zeros leaves them). -/
def refMean (lab : ι → ℤ) (x : ι → EReal) (d : ℤ) : EReal :=
  Ideal.div (0 + sumOf lab x d) (max (0 + cntOf lab d) 1)

/-- The two-pass variance of domain `d`. -/
def refVar (lab : ι → ℤ) (x : ι → EReal) (d : ℤ) : EReal :=
  Ideal.div (0 + sumOf lab (fun e' => (x e' - refMean lab x (lab e')) * (x e' - refMean lab x (lab e'))) d)
    (max (0 + cntOf lab d) 1)

/-- The two-pass form of row `e`'s normalised entry. -/
def refVal (ε : EReal) (lab : ι → ℤ) (x : ι → EReal) (γ β : EReal) (e : ι) : EReal :=
  if 1 < 0 + cntOf lab (lab e) then
    γ * Ideal.div (x e - refMean lab x (lab e)) (Ideal.sqrt (refVar lab x (lab e) + ε)) + β
  else if 0 + cntOf lab (lab e) = 1 then x e else 0

end Abstract

end Cert.DomainNorm

end
-- ==== Proof.SumTiles.lean ====
/-
  Sums over the 65536 rows laid out as two halves of 64 tiles of 512 rows, and one-hot columns as indicator sums.
-/
import proofs.«414652_j38087769981102_3_alg».proof.Proof.DomainStats

noncomputable section

namespace Cert.DomainNorm

open Idealize.ShloMosaic Finset

/-- A non-negative 32-bit word read as an integer is its natural-number value. -/
private theorem toInt_eq_toNat_of_nonneg (w : BitVec 32) (h0 : 0 ≤ w.toInt) : w.toInt = (w.toNat : ℤ) := by
  have hlt : w.toNat < 2 ^ 32 := w.isLt
  have hc := BitVec.toInt_eq_toNat_cond w
  split at hc <;> omega

/-- For a word with integer value in the range 0 to 7, being the word of domain d is having integer value d. -/
private theorem eq_ofNat_iff (w : BitVec 32) (hw : 0 ≤ w.toInt ∧ w.toInt < 8) (d : Fin 8) :
    w = BitVec.ofNat 32 d.val ↔ w.toInt = (d.val : ℤ) := by
  have hnat := toInt_eq_toNat_of_nonneg w hw.1
  have hd : d.val < 8 := d.isLt
  have hmod : d.val % 2 ^ 32 = d.val := Nat.mod_eq_of_lt (by omega)
  rw [BitVec.toNat_eq, BitVec.toNat_ofNat, hmod, hnat]
  omega

/-- A label word in the range `0 ≤ · < 8` is the word of exactly one domain. -/
theorem oneHot_eq_ite (w : BitVec 32) (hw : 0 ≤ w.toInt ∧ w.toInt < 8) (d : Fin 8) :
    oneHot w d = if w.toInt = (d.val : ℤ) then 1 else 0 := by
  unfold oneHot
  by_cases h : w.toInt = (d.val : ℤ)
  · rw [if_pos h, if_pos ((eq_ofNat_iff w hw d).mpr h)]
  · rw [if_neg h, if_neg (fun h' => h ((eq_ofNat_iff w hw d).mp h'))]

/-- Against the one-hot row of an in-range label word, a table column sums to its entry at that label. -/
theorem sum_oneHot_mul (w : BitVec 32) (hw : 0 ≤ w.toInt ∧ w.toInt < 8) (T : Fin 8 → EReal) :
    ∑ d : Fin 8, oneHot w d * T d = T ⟨w.toInt.toNat, by omega⟩ := by
  rw [Finset.sum_eq_single (⟨w.toInt.toNat, by omega⟩ : Fin 8)]
  · rw [oneHot_eq_ite w hw, if_pos (by show w.toInt = ((w.toInt.toNat : ℕ) : ℤ); omega), one_mul]
  · intro b _ hb
    rw [oneHot_eq_ite w hw, if_neg, zero_mul]
    intro h
    apply hb
    apply Fin.ext
    show b.val = w.toInt.toNat
    omega
  · intro h
    exact absurd (Finset.mem_univ _) h

/-- A tile's contribution vanishes where the values do. -/
theorem tileDot_zero (g : Fin 65536 → EReal) (hg : ∀ e, g e = 0) (w : Fin 65536 → BitVec 32) (k : Fin 2) (i : Fin 64)
    (d : Fin 8) : tileDot g w k i d = 0 := by
  unfold tileDot
  apply Finset.sum_eq_zero
  intro n _
  rw [hg, mul_zero]

/-- The row of a (half, tile, row-in-tile) triple: distinct triples give distinct rows, and there are as many triples
as rows. -/
private theorem rowOf_bijective :
    Function.Bijective (fun p : Fin 2 × Fin 64 × Fin 512 => rowOf p.1 p.2.1 p.2.2) := by
  rw [Fintype.bijective_iff_injective_and_card]
  refine ⟨?_, ?_⟩
  · rintro ⟨k, i, n⟩ ⟨k', i', n'⟩ h
    have hv : (k.val * 64 + i.val) * 512 + n.val = (k'.val * 64 + i'.val) * 512 + n'.val :=
      congrArg Fin.val h
    have hk := k.isLt
    have hk' := k'.isLt
    have hi := i.isLt
    have hi' := i'.isLt
    have hn := n.isLt
    have hn' := n'.isLt
    have e1 : k = k' := Fin.ext (by omega)
    have e2 : i = i' := Fin.ext (by omega)
    have e3 : n = n' := Fin.ext (by omega)
    rw [e1, e2, e3]
  · simp only [Fintype.card_prod, Fintype.card_fin]

/-- Summing over the two halves, their 64 tiles and each tile's 512 rows is summing over all 65536 rows. -/
private theorem sum_halves_tiles_rows (h : Fin 65536 → EReal) :
    (∑ i : Fin 64, ∑ n : Fin 512, h (rowOf 0 i n)) + (∑ i : Fin 64, ∑ n : Fin 512, h (rowOf 1 i n))
      = ∑ e : Fin 65536, h e := by
  rw [← Fintype.sum_bijective _ rowOf_bijective (fun p => h (rowOf p.1 p.2.1 p.2.2)) h (fun _ => rfl)]
  rw [Fintype.sum_prod_type, Fin.sum_univ_two]
  simp only [Fintype.sum_prod_type]

/-- The two halves' tile sums together are the sum over the rows labelled `d` (labels in range). -/
theorem tiles_eq_sumOf (g : Fin 65536 → EReal) (w : Fin 65536 → BitVec 32)
    (hw : ∀ e, 0 ≤ (w e).toInt ∧ (w e).toInt < 8) (d : Fin 8) :
    (∑ i : Fin 64, tileDot g w 0 i d) + (∑ i : Fin 64, tileDot g w 1 i d)
      = sumOf (fun e => (w e).toInt) g (d.val : ℤ) := by
  have hre := sum_halves_tiles_rows (fun e => oneHot (w e) d * g e)
  unfold tileDot sumOf
  rw [hre, Finset.sum_filter]
  apply Finset.sum_congr rfl
  intro e _
  rw [oneHot_eq_ite (w e) (hw e) d]
  by_cases hc : (w e).toInt = (d.val : ℤ)
  · rw [if_pos hc, if_pos hc, one_mul]
  · rw [if_neg hc, if_neg hc, zero_mul]

/-- The two halves' tile counts together are the number of rows labelled `d` (labels in range). -/
theorem tileCounts_eq_cntOf (w : Fin 65536 → BitVec 32)
    (hw : ∀ e, 0 ≤ (w e).toInt ∧ (w e).toInt < 8) (d : Fin 8) :
    (∑ i : Fin 64, tileCount w 0 i d) + (∑ i : Fin 64, tileCount w 1 i d)
      = cntOf (fun e => (w e).toInt) (d.val : ℤ) := by
  have hre := sum_halves_tiles_rows (fun e => oneHot (w e) d)
  unfold tileCount cntOf
  rw [hre, Finset.sum_filter]
  apply Finset.sum_congr rfl
  intro e _
  exact oneHot_eq_ite (w e) (hw e) d

end Cert.DomainNorm

end
-- ==== Proof.StatsPayload.lean ====
/-
  What the statistics pass stores, at an index, as arithmetic on one tile of 512 rows: the previous contents plus the
  one-hot columns of the tile's label words against the tile's values (the value as a leading part `x` and a remainder
  `x − x`), against their squares, and the one-hot columns' sums; and the three zero blocks a half's first point writes.
  A matrix product into a zero accumulator is the plain sum over the contracted axis, and a change of float format is
  the identity.
-/
import proofs.«414652_j38087769981102_3_alg».proof.Proof.Gen.KernelIdeal.Skeleton
import proofs.«414652_j38087769981102_3_alg».proof.Proof.DomainStats
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.StatsPayload

open Cert.KernelIdeal Cert.KernelIdeal.Gen Cert.DomainNorm Idealize.ShloMosaic Idealize.ShloMosaic.ValueIdx Idealize.ShloMosaic.TcCoe Idealize.SL.Sem Finset

/-- The one-hot factor at row `n`, column `d`: the column number `d` as a word is compared with the row's label word, the
    one-bit answer is widened and read as a number, which is 1 where the label is `d` and 0 elsewhere. -/
private theorem onehot_apply (y : S512x1.Idx → BitVec 32) (n : Fin 512) (d : Fin 8) :
    (k0_pay6 (F := Ideal) y : S512x8.Idx → EReal) (ix2 n d) = oneHot (y (ix2 n 0)) d := by
  unfold k0_pay6
  rw [shapeCast_self]
  show ((((IntOp.cmpi .eq (iota .tc S512x8 32 [1] iota_S512x8_d1_w32 (ix2 n d))
      (broadcastTo S512x8 y broadcasts_S512x1_S512x8 (ix2 n d))).setWidth 32).toInt : ℝ) : EReal) = _
  rw [iota_single_apply, broadcastTo_apply y broadcasts_S512x1_S512x8 (ix2 n d) (ix2 n 0)
    (fun a => by match a with | ⟨0, _⟩ => rfl | ⟨1, _⟩ => rfl)]
  show ((((BitVec.ofBool (BitVec.ofNat 32 d.val == y (ix2 n 0))).setWidth 32).toInt : ℝ) : EReal) = _
  unfold oneHot
  by_cases h : y (ix2 n 0) = BitVec.ofNat 32 d.val
  · rw [if_pos h, h]; simp
  · rw [if_neg h]
    have hb : (BitVec.ofNat 32 d.val == y (ix2 n 0)) = false := by
      rw [beq_eq_false_iff_ne]; exact fun e => h e.symm
    rw [hb]; simp

/-! The product contracts axis 0 of both operands: at output index `(d, f)` and contraction position `n` the left
    operand is read at `(n, d)` and the right operand at `(n, f)`. One coordinate at a time. -/

private theorem lhs_axis0 (j : S8x1024.Idx) (k : dot_S512x8_S512x1024_S8x1024_0_0_1_1_n_n.contr.Idx) :
    (dot_S512x8_S512x1024_S8x1024_0_0_1_1_n_n.lhsIdx j k 0).val = (k ⟨0, by decide⟩).val :=
  DotDims.lhsIdx_val_of_single _ rfl j k

private theorem rhs_axis0 (j : S8x1024.Idx) (k : dot_S512x8_S512x1024_S8x1024_0_0_1_1_n_n.contr.Idx) :
    (dot_S512x8_S512x1024_S8x1024_0_0_1_1_n_n.rhsIdx j k 0).val = (k ⟨0, by decide⟩).val :=
  DotDims.rhsIdx_val_of_single _ rfl j k

private theorem lhs_axis1 (j : S8x1024.Idx) (k : dot_S512x8_S512x1024_S8x1024_0_0_1_1_n_n.contr.Idx) :
    (dot_S512x8_S512x1024_S8x1024_0_0_1_1_n_n.lhsIdx j k 1).val = (j 0).val := by
  unfold DotDims.lhsIdx
  rw [dif_neg (show ¬ (1 : Fin S512x8.rank) ∈ dot_S512x8_S512x1024_S8x1024_0_0_1_1_n_n.lhsBatch by decide),
    dif_pos (show (1 : Fin S512x8.rank) ∈ dot_S512x8_S512x1024_S8x1024_0_0_1_1_n_n.lhsNonContracting by decide)]
  rfl

private theorem rhs_axis1 (j : S8x1024.Idx) (k : dot_S512x8_S512x1024_S8x1024_0_0_1_1_n_n.contr.Idx) :
    (dot_S512x8_S512x1024_S8x1024_0_0_1_1_n_n.rhsIdx j k 1).val = (j 1).val := by
  unfold DotDims.rhsIdx
  rw [dif_neg (show ¬ (1 : Fin S512x1024.rank) ∈ dot_S512x8_S512x1024_S8x1024_0_0_1_1_n_n.rhsBatch by decide),
    dif_pos (show (1 : Fin S512x1024.rank) ∈ dot_S512x8_S512x1024_S8x1024_0_0_1_1_n_n.rhsNonContracting by decide)]
  rfl

/-- The product into a zero accumulator, at `(d, f)`: the sum over the 512 rows `n` of `A (n, d) * B (n, f)`
    (the zero word is 0 and `0 + a = a`; the contraction index is its one coordinate). -/
private theorem matmul_rows_apply {φ₁ φ₂ : FTy} (A : FVec Ideal S512x8 φ₁) (B : FVec Ideal S512x1024 φ₂)
    (d : Fin 8) (f : Fin 1024) :
    (matmul dot_S512x8_S512x1024_S8x1024_0_0_1_1_n_n none A B (constant (F := Ideal) S8x1024 .f32 0x00000000#32)
        : S8x1024.Idx → EReal) (ix2 d f)
      = ∑ n : Fin 512, A (ix2 n d) * B (ix2 n f) := by
  show FloatOps.matmul _ none A B _ (ix2 d f) = _
  rw [Ideal.matmul_constant_zero_apply,
    ← Equiv.sum_comp (contrEquiv1 dot_S512x8_S512x1024_S8x1024_0_0_1_1_n_n 512 rfl rfl).symm]
  refine Finset.sum_congr rfl fun n _ => ?_
  have c := contrEquiv1_symm_val dot_S512x8_S512x1024_S8x1024_0_0_1_1_n_n 512 rfl rfl n
  have hl : dot_S512x8_S512x1024_S8x1024_0_0_1_1_n_n.lhsIdx (ix2 d f)
      ((contrEquiv1 dot_S512x8_S512x1024_S8x1024_0_0_1_1_n_n 512 rfl rfl).symm n) = ix2 n d :=
    funext fun a => Fin.ext (by
      match a with
      | ⟨0, _⟩ => exact (lhs_axis0 _ _).trans c
      | ⟨1, _⟩ => exact lhs_axis1 _ _)
  have hr : dot_S512x8_S512x1024_S8x1024_0_0_1_1_n_n.rhsIdx (ix2 d f)
      ((contrEquiv1 dot_S512x8_S512x1024_S8x1024_0_0_1_1_n_n 512 rfl rfl).symm n) = ix2 n f :=
    funext fun a => Fin.ext (by
      match a with
      | ⟨0, _⟩ => exact (rhs_axis0 _ _).trans c
      | ⟨1, _⟩ => exact rhs_axis1 _ _)
  rw [hl, hr]

/-- The sum of the one-hot columns over the 512 rows, at column `d`: a sum over axis 0 started from the zero word, and
    the index with row `n` put back in front of `d` is `(n, d)`. -/
private theorem lane_sum_apply (y : S512x1.Idx → BitVec 32) (d : Fin 8) :
    (multiReduction (F := Ideal) .add [0] S8 (k0_pay6 (F := Ideal) y) 0x00000000#32 reduces_S512x8_S8 (.inl rfl) rfl
        : S8.Idx → EReal) (ix1 d)
      = ∑ n : Fin 512, oneHot (y (ix2 n 0)) d := by
  refine (Ideal.multiReduction_add_single (k0_pay6 (F := Ideal) y) 0x00000000#32 reduces_S512x8_S8 (.inl rfl) rfl
    (ix1 d)).trans ?_
  refine Finset.sum_congr rfl fun n _ => ?_
  have hl : reduces_S512x8_S8.lift (ix1 d) n = ix2 n d :=
    funext fun a => Fin.ext (by match a with | ⟨0, _⟩ => rfl | ⟨1, _⟩ => rfl)
  rw [hl]
  exact onehot_apply y n d

/-- The first output's stored value: the previous block plus the tile's sums of values. -/
theorem sum_store_apply (x : S512x1024.Idx → EReal) (y : S512x1.Idx → BitVec 32) (prev : S1x8x1024.Idx → EReal)
    (d : Fin 8) (f : Fin 1024) :
    (k0_pay10 (F := Ideal) x y prev : S1x8x1024.Idx → EReal) (ix3 0 d f)
      = prev (ix3 0 d f)
        + ((∑ n : Fin 512, oneHot (y (ix2 n 0)) d * x (ix2 n f))
          + (∑ n : Fin 512, oneHot (y (ix2 n 0)) d * (x (ix2 n f) - x (ix2 n f)))) := by
  -- (0, d, f) of the stored block is (d, f) of the sum; a change of float format is the identity
  unfold k0_pay10 k0_pay7
  refine (shapeCast_ab_1ab_apply _ _ 0 d f).trans ?_
  rw [addf_apply, addf_apply, shapeCast_1ab_ab_apply, matmul_rows_apply, matmul_rows_apply]
  simp only [truncf_apply, subf_apply, onehot_apply]

/-- The second output's stored value: the previous block plus the tile's sums of squares. -/
theorem square_store_apply (x : S512x1024.Idx → EReal) (y : S512x1.Idx → BitVec 32) (prev : S1x8x1024.Idx → EReal)
    (d : Fin 8) (f : Fin 1024) :
    (k0_pay1 (F := Ideal) (k0_pay8 (F := Ideal) x y) prev : S1x8x1024.Idx → EReal) (ix3 0 d f)
      = prev (ix3 0 d f)
        + ((∑ n : Fin 512, oneHot (y (ix2 n 0)) d * (x (ix2 n f) * x (ix2 n f)))
          + (∑ n : Fin 512, oneHot (y (ix2 n 0)) d * (x (ix2 n f) * x (ix2 n f) - x (ix2 n f) * x (ix2 n f)))) := by
  unfold k0_pay1 k0_pay8 k0_pay7
  refine (shapeCast_ab_1ab_apply _ _ 0 d f).trans ?_
  rw [addf_apply, addf_apply, shapeCast_1ab_ab_apply, matmul_rows_apply, matmul_rows_apply]
  simp only [truncf_apply, subf_apply, mulf_apply, onehot_apply]

/-- The third output's stored value: the previous block plus the tile's row counts, in every lane. -/
theorem count_store_apply (y : S512x1.Idx → BitVec 32) (prev : S1x8x128.Idx → EReal) (d : Fin 8) (j : Fin 128) :
    (k0_pay2 (F := Ideal) (k0_pay9 (F := Ideal) y) prev : S1x8x128.Idx → EReal) (ix3 0 d j)
      = prev (ix3 0 d j) + ∑ n : Fin 512, oneHot (y (ix2 n 0)) d := by
  unfold k0_pay2 k0_pay9
  refine (shapeCast_ab_1ab_apply _ _ 0 d j).trans ?_
  rw [addf_apply, shapeCast_1ab_ab_apply]
  refine congrArg (prev (ix3 0 d j) + ·) ?_
  -- lane j of row d is the row's one column entry (d, 0), which is entry d of the vector of column sums
  refine (broadcastTo_apply _ broadcasts_S8x1_S8x128 (ix2 d j) (ix2 d 0)
    (fun a => by match a with | ⟨0, _⟩ => rfl | ⟨1, _⟩ => rfl)).trans ?_
  rw [shapeCast_self]
  refine (shapeCast_apply _ shapeCasts_S8_S8x1 (ix2 d 0) (ix1 d) (by
    rw [Shape.rowMajor_val_two, Shape.rowMajor_val_one]
    show d.val = d.val * 1 + 0
    omega)).trans ?_
  exact lane_sum_apply y d

/-- The three blocks a half's first point writes before accumulating are zero. -/
theorem zero_sum_apply (i : S1x8x1024.Idx) : (k0_pay3 (F := Ideal) : S1x8x1024.Idx → EReal) i = 0 := by
  obtain ⟨u, d, f, rfl⟩ : ∃ (u : Fin 1) (d : Fin 8) (f : Fin 1024), i = ix3 u d f := ⟨i 0, i 1, i 2, eq_ix3 i⟩
  unfold k0_pay3
  refine (shapeCast_ab_1ab_apply _ _ u d f).trans ?_
  rw [broadcast_apply]
  exact Ideal.ofBits_zero_f32
theorem zero_square_apply (i : S1x8x1024.Idx) : (k0_pay4 (F := Ideal) : S1x8x1024.Idx → EReal) i = 0 := by
  obtain ⟨u, d, f, rfl⟩ : ∃ (u : Fin 1) (d : Fin 8) (f : Fin 1024), i = ix3 u d f := ⟨i 0, i 1, i 2, eq_ix3 i⟩
  unfold k0_pay4
  refine (shapeCast_ab_1ab_apply _ _ u d f).trans ?_
  rw [broadcast_apply]
  exact Ideal.ofBits_zero_f32
theorem zero_count_apply (i : S1x8x128.Idx) : (k0_pay5 (F := Ideal) : S1x8x128.Idx → EReal) i = 0 := by
  obtain ⟨u, d, j, rfl⟩ : ∃ (u : Fin 1) (d : Fin 8) (j : Fin 128), i = ix3 u d j := ⟨i 0, i 1, i 2, eq_ix3 i⟩
  unfold k0_pay5
  refine (shapeCast_ab_1ab_apply _ _ u d j).trans ?_
  rw [broadcast_apply]
  exact Ideal.ofBits_zero_f32

end Cert.KernelIdeal.StatsPayload

end
-- ==== Proof.StatsRegion.lean ====
/-
  The statistics pass, read as values. Each of the two halves of the rows runs 64 grid points over tiles of 512 rows;
  its three output blocks are zeroed at the half's first point and at every point gain the tile's contribution: the
  one-hot columns of the tile's labels against the tile's values (carried as a leading part and a remainder), against
  their squares, and the one-hot columns' sums. After the last point the arrays hold, half by half, the sums of the
  64 tiles' contributions.
-/
import proofs.«414652_j38087769981102_3_alg».proof.Proof.Gen.KernelIdeal.Frame
import proofs.«414652_j38087769981102_3_alg».proof.Proof.DomainStats
import proofs.«414652_j38087769981102_3_alg».proof.Proof.StatsPayload
import Idealize.ShloMosaic.Lib.ValueIdx
import Idealize.ShloMosaic.Lib.Pipeline.Value
import Idealize.ShloMosaic.PureOps.Ideal.Laws

set_option maxRecDepth 16384

noncomputable section

namespace Cert.KernelIdeal.StatsRegion

open Cert.KernelIdeal Cert.KernelIdeal.Gen Cert.DomainNorm Idealize.ShloMosaic Idealize.ShloMosaic.ValueIdx Idealize.ShloMosaic.TcCoe Idealize.SL.Sem Finset

variable (V : (c : Dev nD) → (b : Ref sig .tc) → Buf (Elt Ideal) ((c : Thread nD τ).loc b))

/-- The rows' values as the pass finds them. -/
abbrev xs (c : Dev nD) : S65536x1024.Idx → EReal := V c (Pipeline.arrRef spec0 0)
/-- The rows' label words as the pass finds them (a column). -/
abbrev ys (c : Dev nD) : S65536x1.Idx → BitVec 32 := V c (Pipeline.arrRef spec0 1)

section Stores

open Idealize.ShloMosaic.Tactic

variable {F : FTy → Type} [FloatOps F]

/-- The zero offsets of a rank-3 store, as a constant function. -/
theorem offsets_zero : (![0, 0, 0] : Fin 3 → Nat) = fun _ => 0 := funext fun a => by fin_cases a <;> rfl

/-- The rank-2 zero offsets of the two input loads. -/
theorem offsets_zero2 : (![0, 0] : Fin 2 → Nat) = fun _ => 0 := funext fun a => by fin_cases a <;> rfl

/-- Past a half's first point the first output's buffer holds the sums' update of its previous contents. -/
theorem sums_later (c : Dev nD) (i : grid0.Coords) (a2 : Memref sig .tc .vmem S512x1024 .f32) (h2 : a2.IsWhole)
    (a3 : Memref sig .tc .vmem S512x1 .i32) (h3 : a3.IsWhole) (a4 : Memref sig .tc .vmem S1x8x1024 .f32) (h4 : a4.IsWhole)
    (a5 : Memref sig .tc .vmem S1x8x1024 .f32) (h5 : a5.IsWhole) (a6 : Memref sig .tc .vmem S1x8x128 .f32) (h6 : a6.IsWhole)
    (hc : ¬cond0_0 i) (x0 : Vec F S512x1024 .f32) (x1 : Vec F S512x1 .i32) (xo2 : Vec F S1x8x1024 .f32)
    (xo3 : Vec F S1x8x1024 .f32) (xo4 : Vec F S1x8x128 .f32) :
    out0_B_2 c i a2 h2 a3 h3 a4 h4 a5 h5 a6 h6 hc x0 x1 xo2 xo3 xo4 = k0_pay10 x0 x1 xo2 := by
  unfold out0_B_2
  rw [View.read_writes_eq_canon _ _ _ (cover0_B_2 c i a2 h2 a3 h3 a4 h4 a5 h5 a6 h6 hc x0 x1 xo2 xo3 xo4)]
  unfold kernelRun0_B
  dsimp only
  sl_unfold_words
  rw [View.canon_unit_zero offsets_zero]
  simp only [View.readAt_eq_ld, h2.read_unread, h3.read_unread, h4.read_unread,
    View.ld_unit_zero (S := S512x1024) offsets_zero2, View.ld_unit_zero (S := S512x1) offsets_zero2,
    View.ld_unit_zero (S := S1x8x1024) offsets_zero]

/-- Past a half's first point the second output's buffer holds the squares' update of its previous contents. -/
theorem squares_later (c : Dev nD) (i : grid0.Coords) (a2 : Memref sig .tc .vmem S512x1024 .f32) (h2 : a2.IsWhole)
    (a3 : Memref sig .tc .vmem S512x1 .i32) (h3 : a3.IsWhole) (a4 : Memref sig .tc .vmem S1x8x1024 .f32) (h4 : a4.IsWhole)
    (a5 : Memref sig .tc .vmem S1x8x1024 .f32) (h5 : a5.IsWhole) (a6 : Memref sig .tc .vmem S1x8x128 .f32) (h6 : a6.IsWhole)
    (hc : ¬cond0_0 i) (x0 : Vec F S512x1024 .f32) (x1 : Vec F S512x1 .i32) (xo2 : Vec F S1x8x1024 .f32)
    (xo3 : Vec F S1x8x1024 .f32) (xo4 : Vec F S1x8x128 .f32) :
    out0_B_3 c i a2 h2 a3 h3 a4 h4 a5 h5 a6 h6 hc x0 x1 xo2 xo3 xo4 = k0_pay1 (k0_pay8 x0 x1) xo3 := by
  unfold out0_B_3
  rw [View.read_writes_eq_canon _ _ _ (cover0_B_3 c i a2 h2 a3 h3 a4 h4 a5 h5 a6 h6 hc x0 x1 xo2 xo3 xo4)]
  unfold kernelRun0_B
  dsimp only
  sl_unfold_words
  rw [View.canon_unit_zero offsets_zero]
  simp only [View.readAt_eq_ld, h2.read_unread, h3.read_unread, h5.read_unread,
    View.ld_unit_zero (S := S512x1024) offsets_zero2, View.ld_unit_zero (S := S512x1) offsets_zero2,
    View.ld_unit_zero (S := S1x8x1024) offsets_zero]

/-- Past a half's first point the third output's buffer holds the counts' update of its previous contents. -/
theorem counts_later (c : Dev nD) (i : grid0.Coords) (a2 : Memref sig .tc .vmem S512x1024 .f32) (h2 : a2.IsWhole)
    (a3 : Memref sig .tc .vmem S512x1 .i32) (h3 : a3.IsWhole) (a4 : Memref sig .tc .vmem S1x8x1024 .f32) (h4 : a4.IsWhole)
    (a5 : Memref sig .tc .vmem S1x8x1024 .f32) (h5 : a5.IsWhole) (a6 : Memref sig .tc .vmem S1x8x128 .f32) (h6 : a6.IsWhole)
    (hc : ¬cond0_0 i) (x0 : Vec F S512x1024 .f32) (x1 : Vec F S512x1 .i32) (xo2 : Vec F S1x8x1024 .f32)
    (xo3 : Vec F S1x8x1024 .f32) (xo4 : Vec F S1x8x128 .f32) :
    out0_B_4 c i a2 h2 a3 h3 a4 h4 a5 h5 a6 h6 hc x0 x1 xo2 xo3 xo4 = k0_pay2 (k0_pay9 x1) xo4 := by
  unfold out0_B_4
  rw [View.read_writes_eq_canon _ _ _ (cover0_B_4 c i a2 h2 a3 h3 a4 h4 a5 h5 a6 h6 hc x0 x1 xo2 xo3 xo4)]
  unfold kernelRun0_B
  dsimp only
  sl_unfold_words
  rw [View.canon_unit_zero offsets_zero]
  simp only [View.readAt_eq_ld, h2.read_unread, h3.read_unread, h6.read_unread,
    View.ld_unit_zero (S := S512x1024) offsets_zero2, View.ld_unit_zero (S := S512x1) offsets_zero2,
    View.ld_unit_zero (S := S1x8x128) offsets_zero]

/-- At a half's first point the first output's buffer holds the sums' update of the zero block. -/
theorem sums_first (c : Dev nD) (i : grid0.Coords) (a2 : Memref sig .tc .vmem S512x1024 .f32) (h2 : a2.IsWhole)
    (a3 : Memref sig .tc .vmem S512x1 .i32) (h3 : a3.IsWhole) (a4 : Memref sig .tc .vmem S1x8x1024 .f32) (h4 : a4.IsWhole)
    (a5 : Memref sig .tc .vmem S1x8x1024 .f32) (h5 : a5.IsWhole) (a6 : Memref sig .tc .vmem S1x8x128 .f32) (h6 : a6.IsWhole)
    (hc : cond0_0 i) (x0 : Vec F S512x1024 .f32) (x1 : Vec F S512x1 .i32) :
    out0_A_2 c i a2 h2 a3 h3 a4 h4 a5 h5 a6 h6 hc x0 x1 = k0_pay10 x0 x1 (k0_pay3 (F := F)) := by
  unfold out0_A_2
  rw [View.read_writes_eq_canon _ _ _ (cover0_A_2 c i a2 h2 a3 h3 a4 h4 a5 h5 a6 h6 hc x0 x1)]
  unfold kernelRun0_A
  dsimp only
  sl_unfold_words
  rw [View.canon_cons_unit_zero (S := S1x8x1024) offsets_zero, View.readCov_unit_zero (S := S1x8x1024) _ offsets_zero]
  simp only [View.readAt_eq_ld, h2.read_unread, h3.read_unread,
    View.ld_unit_zero (S := S512x1024) offsets_zero2, View.ld_unit_zero (S := S512x1) offsets_zero2]

/-- At a half's first point the second output's buffer holds the squares' update of the zero block. -/
theorem squares_first (c : Dev nD) (i : grid0.Coords) (a2 : Memref sig .tc .vmem S512x1024 .f32) (h2 : a2.IsWhole)
    (a3 : Memref sig .tc .vmem S512x1 .i32) (h3 : a3.IsWhole) (a4 : Memref sig .tc .vmem S1x8x1024 .f32) (h4 : a4.IsWhole)
    (a5 : Memref sig .tc .vmem S1x8x1024 .f32) (h5 : a5.IsWhole) (a6 : Memref sig .tc .vmem S1x8x128 .f32) (h6 : a6.IsWhole)
    (hc : cond0_0 i) (x0 : Vec F S512x1024 .f32) (x1 : Vec F S512x1 .i32) :
    out0_A_3 c i a2 h2 a3 h3 a4 h4 a5 h5 a6 h6 hc x0 x1 = k0_pay1 (k0_pay8 x0 x1) (k0_pay4 (F := F)) := by
  unfold out0_A_3
  rw [View.read_writes_eq_canon _ _ _ (cover0_A_3 c i a2 h2 a3 h3 a4 h4 a5 h5 a6 h6 hc x0 x1)]
  unfold kernelRun0_A
  dsimp only
  sl_unfold_words
  rw [View.canon_cons_unit_zero (S := S1x8x1024) offsets_zero, View.readCov_unit_zero (S := S1x8x1024) _ offsets_zero]
  simp only [View.readAt_eq_ld, h2.read_unread, h3.read_unread,
    View.ld_unit_zero (S := S512x1024) offsets_zero2, View.ld_unit_zero (S := S512x1) offsets_zero2]

/-- At a half's first point the third output's buffer holds the counts' update of the zero block. -/
theorem counts_first (c : Dev nD) (i : grid0.Coords) (a2 : Memref sig .tc .vmem S512x1024 .f32) (h2 : a2.IsWhole)
    (a3 : Memref sig .tc .vmem S512x1 .i32) (h3 : a3.IsWhole) (a4 : Memref sig .tc .vmem S1x8x1024 .f32) (h4 : a4.IsWhole)
    (a5 : Memref sig .tc .vmem S1x8x1024 .f32) (h5 : a5.IsWhole) (a6 : Memref sig .tc .vmem S1x8x128 .f32) (h6 : a6.IsWhole)
    (hc : cond0_0 i) (x0 : Vec F S512x1024 .f32) (x1 : Vec F S512x1 .i32) :
    out0_A_4 c i a2 h2 a3 h3 a4 h4 a5 h5 a6 h6 hc x0 x1 = k0_pay2 (k0_pay9 x1) (k0_pay5 (F := F)) := by
  unfold out0_A_4
  rw [View.read_writes_eq_canon _ _ _ (cover0_A_4 c i a2 h2 a3 h3 a4 h4 a5 h5 a6 h6 hc x0 x1)]
  unfold kernelRun0_A
  dsimp only
  sl_unfold_words
  rw [View.canon_cons_unit_zero (S := S1x8x128) offsets_zero, View.readCov_unit_zero (S := S1x8x128) _ offsets_zero]
  simp only [View.readAt_eq_ld, h2.read_unread, h3.read_unread,
    View.ld_unit_zero (S := S512x1024) offsets_zero2, View.ld_unit_zero (S := S512x1) offsets_zero2]

end Stores

/-- The tile of values at a grid point. -/
abbrev xblk (c : Dev nD) (t : Fin cfg0.N) : Vec Ideal S512x1024 .f32 := iblk0 (F := Ideal) V c 0 t
/-- The tile of label words at a grid point. -/
abbrev yblk (c : Dev nD) (t : Fin cfg0.N) : Vec Ideal S512x1 .i32 := iblk0 (F := Ideal) V c 1 t

/-- The block index of each window at point `t`: the inputs' row block is `t`, the outputs' leading block is the half
`t / 64`; every other block index is 0. -/
theorem block_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 64 ∧ win0_2.index t (1 : Fin 3) = 0 ∧ win0_2.index t (2 : Fin 3) = 0
    ∧ win0_3.index t (0 : Fin 3) = t.val / 64 ∧ win0_3.index t (1 : Fin 3) = 0 ∧ win0_3.index t (2 : Fin 3) = 0
    ∧ win0_4.index t (0 : Fin 3) = t.val / 64 ∧ win0_4.index t (1 : Fin 3) = 0 ∧ win0_4.index t (2 : Fin 3) = 0 :=
  (by decide +kernel : ∀ t : Fin grid0.N, _)

/-- Row `n` of the tile of grid point `p` (points counted modulo 128). -/
def rowAt (p : ℕ) (n : Fin 512) : Fin 65536 := ⟨(p % 128) * 512 + n.val, by omega⟩

/-- The tile of values at point `t` holds rows `512 t + n` of the array. -/
theorem xblk_apply (c : Dev nD) (t : Fin cfg0.N) (n : Fin 512) (f : Fin 1024) :
    (xblk V c t : S512x1024.Idx → EReal) (ix2 n f) = xs V c (ix2 (rowAt t.val n) f) := by
  have hN : t.val < 128 := lt_of_lt_of_eq t.isLt (show cfg0.N = 128 from N_0)
  obtain ⟨e0, e1, -⟩ := block_index t
  show V c (Pipeline.arrRef spec0 0) (((cfg0.win 0).blk t).view.emb (ix2 n f)) = V c (Pipeline.arrRef spec0 0) (ix2 (rowAt t.val n) f)
  refine congrArg _ (funext fun a => Fin.ext ?_)
  match a with
  | ⟨0, _⟩ => show win0_0.index t (0 : Fin 2) * 512 + 1 * n.val = (t.val % 128) * 512 + n.val; rw [e0]; omega
  | ⟨1, _⟩ => show win0_0.index t (1 : Fin 2) * 1024 + 1 * f.val = f.val; rw [e1]; omega

/-- The tile of label words at point `t` holds rows `512 t + n` of the label column. -/
theorem yblk_apply (c : Dev nD) (t : Fin cfg0.N) (n : Fin 512) :
    (yblk V c t : S512x1.Idx → BitVec 32) (ix2 n 0) = ys V c (ix2 (rowAt t.val n) 0) := by
  have hN : t.val < 128 := lt_of_lt_of_eq t.isLt (show cfg0.N = 128 from N_0)
  obtain ⟨-, -, e0, e1, -⟩ := block_index t
  show V c (Pipeline.arrRef spec0 1) (((cfg0.win 1).blk t).view.emb (ix2 n 0)) = V c (Pipeline.arrRef spec0 1) (ix2 (rowAt t.val n) 0)
  refine congrArg _ (funext fun a => Fin.ext ?_)
  match a with
  | ⟨0, _⟩ => show win0_1.index t (0 : Fin 2) * 512 + 1 * n.val = (t.val % 128) * 512 + n.val; rw [e0]; omega
  | ⟨1, _⟩ => show win0_1.index t (1 : Fin 2) * 1 + 1 * 0 = 0; rw [e1]

/-- One tile's one-hot column of the label words against the values `g`, the tile being that of grid point `p`. -/
def gain (g : Fin 65536 → EReal) (w : Fin 65536 → BitVec 32) (d : Fin 8) (p : ℕ) : EReal :=
  ∑ n : Fin 512, oneHot (w (rowAt p n)) d * g (rowAt p n)

/-- One tile's count of the rows labelled `d`, the tile being that of grid point `p`. -/
def gainCount (w : Fin 65536 → BitVec 32) (d : Fin 8) (p : ℕ) : EReal :=
  ∑ n : Fin 512, oneHot (w (rowAt p n)) d

/-- Tile `i` of half `k` is the tile of grid point `64 k + i`. -/
theorem rowOf_eq_rowAt (k : Fin 2) (i : Fin 64) (n : Fin 512) : rowOf k i n = rowAt (k.val * 64 + i.val) n := by
  have hk := k.isLt
  have hi := i.isLt
  apply Fin.ext
  show (k.val * 64 + i.val) * 512 + n.val = (k.val * 64 + i.val) % 128 * 512 + n.val
  omega

/-- A tile's one-hot sum, by half and tile, is that of its grid point. -/
theorem tileDot_eq_gain (g : Fin 65536 → EReal) (w : Fin 65536 → BitVec 32) (k : Fin 2) (i : Fin 64) (d : Fin 8) :
    tileDot g w k i d = gain g w d (k.val * 64 + i.val) := by
  unfold tileDot gain
  refine Finset.sum_congr rfl fun n _ => ?_
  rw [rowOf_eq_rowAt]

/-- A tile's row count, by half and tile, is that of its grid point. -/
theorem tileCount_eq_gainCount (w : Fin 65536 → BitVec 32) (k : Fin 2) (i : Fin 64) (d : Fin 8) :
    tileCount w k i d = gainCount w d (k.val * 64 + i.val) := by
  unfold tileCount gainCount
  refine Finset.sum_congr rfl fun n _ => ?_
  rw [rowOf_eq_rowAt]

/-- The sum of `g` over the points of point `n`'s half up to `n`: `64 (n / 64)`, …, `n`. -/
def upTo (g : ℕ → EReal) (n : ℕ) : EReal := ∑ j ∈ range (n % 64 + 1), g (n / 64 * 64 + j)

/-- At a half's first point the sum is that point's term. -/
theorem upTo_first (g : ℕ → EReal) (n : ℕ) (h : n % 64 = 0) : upTo g n = g n := by
  unfold upTo
  rw [h, zero_add, Finset.sum_range_one, Nat.add_zero]
  congr 1
  omega

/-- Past a half's first point the sum is the sum up to the point before plus the point's term. -/
theorem upTo_next (g : ℕ → EReal) (n : ℕ) (h : ¬n % 64 = 0) : upTo g n = upTo g (n - 1) + g n := by
  unfold upTo
  have e1 : n % 64 + 1 = ((n - 1) % 64 + 1) + 1 := by omega
  have e2 : (n - 1) / 64 = n / 64 := by omega
  have e3 : n / 64 * 64 + ((n - 1) % 64 + 1) = n := by omega
  rw [e1, Finset.sum_range_succ, e2, e3]

/-- At a half's last point the sum runs over the half's 64 tiles. -/
theorem upTo_last (g : ℕ → EReal) (k : Fin 2) : upTo g (k.val * 64 + 63) = ∑ i : Fin 64, g (k.val * 64 + i.val) := by
  unfold upTo
  have e1 : (k.val * 64 + 63) % 64 + 1 = 64 := by omega
  have e2 : (k.val * 64 + 63) / 64 * 64 = k.val * 64 := by omega
  rw [e1, e2]
  exact Finset.sum_range (fun j => g (k.val * 64 + j))

/-- What a tile adds to the first output at domain `d`, feature `f`: the values' one-hot sum and that of the
remainders `x − x`. -/
def sumsGain (c : Dev nD) (d : Fin 8) (f : Fin 1024) (p : ℕ) : EReal :=
  gain (fun e => xs V c (ix2 e f)) (fun e => ys V c (ix2 e 0)) d p
    + gain (fun e => xs V c (ix2 e f) - xs V c (ix2 e f)) (fun e => ys V c (ix2 e 0)) d p

/-- At a half's first point the first output's buffer holds the tile's contribution: `0 + a = a`. -/
theorem sums_at_first (c : Dev nD) (t : Fin cfg0.N) (h : t.val % 64 = 0) (d : Fin 8) (f : Fin 1024) :
    ((outsAt0 V c t.val t.isLt).1 : S1x8x1024.Idx → EReal) (ix3 0 d f) = sumsGain V c d f t.val := by
  rw [outsAt0_A V c t h]
  dsimp only
  refine (congrFun (sums_first (F := Ideal) c (grid0.coords t) (ms0_0 t) (hs0_0 t) (ms0_1 t) (hs0_1 t) (ms0_2 t) (hs0_2 t) (ms0_3 t) (hs0_3 t) (ms0_4 t) (hs0_4 t) ((hcond0_0 t).mpr h) (iblk0 V c 0 t) (iblk0 V c 1 t)) (ix3 0 d f)).trans ?_
  refine (StatsPayload.sum_store_apply (xblk V c t) (yblk V c t) (k0_pay3 (F := Ideal)) d f).trans ?_
  rw [StatsPayload.zero_sum_apply, zero_add]
  simp only [sumsGain, gain, xblk_apply, yblk_apply]

/-- Past a half's first point the first output's buffer holds what the point before left plus the tile's
contribution. -/
theorem sums_at_later (c : Dev nD) (t : Fin cfg0.N) (h : ¬t.val % 64 = 0) (d : Fin 8) (f : Fin 1024) :
    ((outsAt0 V c t.val t.isLt).1 : S1x8x1024.Idx → EReal) (ix3 0 d f)
      = ((outsAt0 V c (t.val - 1) (Nat.lt_of_le_of_lt (Nat.sub_le _ _) t.isLt)).1 : S1x8x1024.Idx → EReal) (ix3 0 d f) + sumsGain V c d f t.val := by
  rw [outsAt0_B V c t h]
  dsimp only
  refine (congrFun (sums_later (F := Ideal) c (grid0.coords t) (ms0_0 t) (hs0_0 t) (ms0_1 t) (hs0_1 t) (ms0_2 t) (hs0_2 t) (ms0_3 t) (hs0_3 t) (ms0_4 t) (hs0_4 t) (fun hh => h ((hcond0_0 t).mp hh)) (iblk0 V c 0 t) (iblk0 V c 1 t)
    (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2) (ix3 0 d f)).trans ?_
  refine (StatsPayload.sum_store_apply (xblk V c t) (yblk V c t) (outsAt0 V c (t.val - 1) (Nat.lt_of_le_of_lt (Nat.sub_le _ _) t.isLt)).1 d f).trans ?_
  simp only [sumsGain, gain, xblk_apply, yblk_apply]

/-- After point `n` the first output's buffer holds the contributions of the tiles of its half up to `n`. -/
theorem sums_upTo (c : Dev nD) (d : Fin 8) (f : Fin 1024) : ∀ (n : ℕ) (hn : n < cfg0.N),
    ((outsAt0 V c n hn).1 : S1x8x1024.Idx → EReal) (ix3 0 d f) = upTo (sumsGain V c d f) n := by
  intro n
  induction n with
  | zero =>
    intro hn
    rw [upTo_first _ 0 rfl]
    exact sums_at_first V c ⟨0, hn⟩ rfl d f
  | succ n ih =>
    intro hn
    by_cases h : (n + 1) % 64 = 0
    · rw [upTo_first _ (n + 1) h]
      exact sums_at_first V c ⟨n + 1, hn⟩ h d f
    · rw [upTo_next _ (n + 1) h]
      refine (sums_at_later V c ⟨n + 1, hn⟩ h d f).trans ?_
      exact congrArg (· + sumsGain V c d f (n + 1)) (ih (Nat.lt_of_succ_lt hn))

/-- The first output as the pass leaves it: at (half, domain, feature) the contributions of the half's 64 tiles. -/
def sumsArr (c : Dev nD) : S2x8x1024.Idx → EReal := fun j => upTo (sumsGain V c (j 1) (j 2)) ((j 0).val * 64 + 63)

/-- An index of the first output whose leading coordinate is point `t`'s half lies in the block point `t` writes back. -/
theorem mem_sums_block (t : Fin cfg0.N) (i : S2x8x1024.Idx) (h0 : (i 0).val = t.val / 64) :
    i ∈ ((cfg0.win 2).blk t).view.set := by
  obtain ⟨-, -, -, -, a0, a1, a2, b0, b1, b2, c0, c1, c2⟩ := block_index t
  show i ∈ ((View.whole main_v1_0).slice (win0_2.rect t)).set
  rw [View.set_slice_whole, Rect.mem_set_unit]
  intro a
  have h1 : (i 1).val < 8 := (i 1).isLt
  have h2 : (i 2).val < 1024 := (i 2).isLt
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 8 ≤ (i 1).val ∧ (i 1).val < win0_2.index t (1 : Fin 3) * 8 + 8
    omega
  | ⟨2, _⟩ =>
    show win0_2.index t (2 : Fin 3) * 1024 ≤ (i 2).val ∧ (i 2).val < win0_2.index t (2 : Fin 3) * 1024 + 1024
    omega

/-- What a half's last point writes back is the half's block of that array. -/
theorem sums_flushed (c : Dev nD) (t : Fin cfg0.N) (hf : (cfg0.win 2).flush t = true) :
    (dat0 V c).flushed 2 t = ((cfg0.win 2).blk t).view.read (Elt Ideal) (sumsArr V c) := by
  have hN : t.val < 128 := lt_of_lt_of_eq t.isLt (show cfg0.N = 128 from N_0)
  have h63 : t.val % 64 = 63 := (flush0_2 t).mp hf
  obtain ⟨-, -, -, -, a0, a1, a2, b0, b1, b2, c0, c1, c2⟩ := block_index t
  show (cfg0.win 2).cut (grid0.coords t) ((dat0 V c).after 2 t) = _
  rw [after0_2]
  funext y
  have hy0 : (y 0).val < 1 := (y 0).isLt
  have hy1 : (y 1).val < 8 := (y 1).isLt
  have hy2 : (y 2).val < 1024 := (y 2).isLt
  have hl : (cfg0.win 2).xinj (grid0.coords t) y = (ix3 (0 : Fin 1) ⟨(y 1).val, hy1⟩ ⟨(y 2).val, hy2⟩ : S1x8x1024.Idx) :=
    funext fun a => Fin.ext (by
      match a with
      | ⟨0, _⟩ => show (y 0).val = 0; omega
      | ⟨1, _⟩ => rfl
      | ⟨2, _⟩ => rfl)
  have hr : ((cfg0.win 2).blk t).view.emb y
      = (ix3 (⟨t.val / 64, by omega⟩ : Fin 2) ⟨(y 1).val, hy1⟩ ⟨(y 2).val, hy2⟩ : S2x8x1024.Idx) :=
    funext fun a => Fin.ext (by
      match a with
      | ⟨0, _⟩ => show win0_2.index t (0 : Fin 3) * 1 + 1 * (y 0).val = t.val / 64; omega
      | ⟨1, _⟩ => show win0_2.index t (1 : Fin 3) * 8 + 1 * (y 1).val = (y 1).val; omega
      | ⟨2, _⟩ => show win0_2.index t (2 : Fin 3) * 1024 + 1 * (y 2).val = (y 2).val; omega)
  rw [View.read_apply, hr]
  show ((outsAt0 V c t.val t.isLt).1 : S1x8x1024.Idx → EReal) ((cfg0.win 2).xinj (grid0.coords t) y) = _
  rw [hl, sums_upTo V c ⟨(y 1).val, hy1⟩ ⟨(y 2).val, hy2⟩ t.val t.isLt]
  show _ = upTo _ (t.val / 64 * 64 + 63)
  congr 1
  omega

/-- What a tile adds to the second output at domain `d`, feature `f`: the squares' one-hot sum and that of the remainders `x² − x²`. -/
def squaresGain (c : Dev nD) (d : Fin 8) (f : Fin 1024) (p : ℕ) : EReal :=
  gain (fun e => xs V c (ix2 e f) * xs V c (ix2 e f)) (fun e => ys V c (ix2 e 0)) d p
    + gain (fun e => xs V c (ix2 e f) * xs V c (ix2 e f) - xs V c (ix2 e f) * xs V c (ix2 e f)) (fun e => ys V c (ix2 e 0)) d p

/-- At a half's first point the second output's buffer holds the tile's contribution: `0 + a = a`. -/
theorem squares_at_first (c : Dev nD) (t : Fin cfg0.N) (h : t.val % 64 = 0) (d : Fin 8) (f : Fin 1024) :
    ((outsAt0 V c t.val t.isLt).2.1 : S1x8x1024.Idx → EReal) (ix3 0 d f) = squaresGain V c d f t.val := by
  rw [outsAt0_A V c t h]
  dsimp only
  refine (congrFun (squares_first (F := Ideal) c (grid0.coords t) (ms0_0 t) (hs0_0 t) (ms0_1 t) (hs0_1 t) (ms0_2 t) (hs0_2 t) (ms0_3 t) (hs0_3 t) (ms0_4 t) (hs0_4 t) ((hcond0_0 t).mpr h) (iblk0 V c 0 t) (iblk0 V c 1 t)) (ix3 0 d f)).trans ?_
  refine (StatsPayload.square_store_apply (xblk V c t) (yblk V c t) (k0_pay4 (F := Ideal)) d f).trans ?_
  rw [StatsPayload.zero_square_apply, zero_add]
  simp only [squaresGain, gain, xblk_apply, yblk_apply]

/-- Past a half's first point the second output's buffer holds what the point before left plus the tile's contribution. -/
theorem squares_at_later (c : Dev nD) (t : Fin cfg0.N) (h : ¬t.val % 64 = 0) (d : Fin 8) (f : Fin 1024) :
    ((outsAt0 V c t.val t.isLt).2.1 : S1x8x1024.Idx → EReal) (ix3 0 d f)
      = ((outsAt0 V c (t.val - 1) (Nat.lt_of_le_of_lt (Nat.sub_le _ _) t.isLt)).2.1 : S1x8x1024.Idx → EReal) (ix3 0 d f) + squaresGain V c d f t.val := by
  rw [outsAt0_B V c t h]
  dsimp only
  refine (congrFun (squares_later (F := Ideal) c (grid0.coords t) (ms0_0 t) (hs0_0 t) (ms0_1 t) (hs0_1 t) (ms0_2 t) (hs0_2 t) (ms0_3 t) (hs0_3 t) (ms0_4 t) (hs0_4 t) (fun hh => h ((hcond0_0 t).mp hh)) (iblk0 V c 0 t) (iblk0 V c 1 t)
    (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2) (ix3 0 d f)).trans ?_
  refine (StatsPayload.square_store_apply (xblk V c t) (yblk V c t) (outsAt0 V c (t.val - 1) (Nat.lt_of_le_of_lt (Nat.sub_le _ _) t.isLt)).2.1 d f).trans ?_
  simp only [squaresGain, gain, xblk_apply, yblk_apply]

/-- After point `n` the second output's buffer holds the contributions of the tiles of its half up to `n`. -/
theorem squares_upTo (c : Dev nD) (d : Fin 8) (f : Fin 1024) : ∀ (n : ℕ) (hn : n < cfg0.N),
    ((outsAt0 V c n hn).2.1 : S1x8x1024.Idx → EReal) (ix3 0 d f) = upTo (squaresGain V c d f) n := by
  intro n
  induction n with
  | zero =>
    intro hn
    rw [upTo_first _ 0 rfl]
    exact squares_at_first V c ⟨0, hn⟩ rfl d f
  | succ n ih =>
    intro hn
    by_cases h : (n + 1) % 64 = 0
    · rw [upTo_first _ (n + 1) h]
      exact squares_at_first V c ⟨n + 1, hn⟩ h d f
    · rw [upTo_next _ (n + 1) h]
      refine (squares_at_later V c ⟨n + 1, hn⟩ h d f).trans ?_
      exact congrArg (· + squaresGain V c d f (n + 1)) (ih (Nat.lt_of_succ_lt hn))

/-- The second output as the pass leaves it: at (half, domain, feature) the contributions of the half's 64 tiles. -/
def squaresArr (c : Dev nD) : S2x8x1024.Idx → EReal := fun j => upTo (squaresGain V c (j 1) (j 2)) ((j 0).val * 64 + 63)

/-- An index of the second output whose leading coordinate is point `t`'s half lies in the block point `t` writes back. -/
theorem mem_squares_block (t : Fin cfg0.N) (i : S2x8x1024.Idx) (h0 : (i 0).val = t.val / 64) :
    i ∈ ((cfg0.win 3).blk t).view.set := by
  obtain ⟨-, -, -, -, a0, a1, a2, b0, b1, b2, c0, c1, c2⟩ := block_index t
  show i ∈ ((View.whole main_v1_1).slice (win0_3.rect t)).set
  rw [View.set_slice_whole, Rect.mem_set_unit]
  intro a
  have h1 : (i 1).val < 8 := (i 1).isLt
  have h2 : (i 2).val < 1024 := (i 2).isLt
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 8 ≤ (i 1).val ∧ (i 1).val < win0_3.index t (1 : Fin 3) * 8 + 8
    omega
  | ⟨2, _⟩ =>
    show win0_3.index t (2 : Fin 3) * 1024 ≤ (i 2).val ∧ (i 2).val < win0_3.index t (2 : Fin 3) * 1024 + 1024
    omega

/-- What a half's last point writes back is the half's block of that array. -/
theorem squares_flushed (c : Dev nD) (t : Fin cfg0.N) (hf : (cfg0.win 3).flush t = true) :
    (dat0 V c).flushed 3 t = ((cfg0.win 3).blk t).view.read (Elt Ideal) (squaresArr V c) := by
  have hN : t.val < 128 := lt_of_lt_of_eq t.isLt (show cfg0.N = 128 from N_0)
  have h63 : t.val % 64 = 63 := (flush0_3 t).mp hf
  obtain ⟨-, -, -, -, a0, a1, a2, b0, b1, b2, c0, c1, c2⟩ := block_index t
  show (cfg0.win 3).cut (grid0.coords t) ((dat0 V c).after 3 t) = _
  rw [after0_3]
  funext y
  have hy0 : (y 0).val < 1 := (y 0).isLt
  have hy1 : (y 1).val < 8 := (y 1).isLt
  have hy2 : (y 2).val < 1024 := (y 2).isLt
  have hl : (cfg0.win 3).xinj (grid0.coords t) y = (ix3 (0 : Fin 1) ⟨(y 1).val, hy1⟩ ⟨(y 2).val, hy2⟩ : S1x8x1024.Idx) :=
    funext fun a => Fin.ext (by
      match a with
      | ⟨0, _⟩ => show (y 0).val = 0; omega
      | ⟨1, _⟩ => rfl
      | ⟨2, _⟩ => rfl)
  have hr : ((cfg0.win 3).blk t).view.emb y
      = (ix3 (⟨t.val / 64, by omega⟩ : Fin 2) ⟨(y 1).val, hy1⟩ ⟨(y 2).val, hy2⟩ : S2x8x1024.Idx) :=
    funext fun a => Fin.ext (by
      match a with
      | ⟨0, _⟩ => show win0_3.index t (0 : Fin 3) * 1 + 1 * (y 0).val = t.val / 64; omega
      | ⟨1, _⟩ => show win0_3.index t (1 : Fin 3) * 8 + 1 * (y 1).val = (y 1).val; omega
      | ⟨2, _⟩ => show win0_3.index t (2 : Fin 3) * 1024 + 1 * (y 2).val = (y 2).val; omega)
  rw [View.read_apply, hr]
  show ((outsAt0 V c t.val t.isLt).2.1 : S1x8x1024.Idx → EReal) ((cfg0.win 3).xinj (grid0.coords t) y) = _
  rw [hl, squares_upTo V c ⟨(y 1).val, hy1⟩ ⟨(y 2).val, hy2⟩ t.val t.isLt]
  show _ = upTo _ (t.val / 64 * 64 + 63)
  congr 1
  omega

/-- What a tile adds to the third output at domain `d`, in every lane: the tile's count of the rows labelled `d`. -/
def countsGain (c : Dev nD) (d : Fin 8) (j : Fin 128) (p : ℕ) : EReal :=
  gainCount (fun e => ys V c (ix2 e 0)) d p

/-- At a half's first point the third output's buffer holds the tile's count: `0 + a = a`. -/
theorem counts_at_first (c : Dev nD) (t : Fin cfg0.N) (h : t.val % 64 = 0) (d : Fin 8) (j : Fin 128) :
    ((outsAt0 V c t.val t.isLt).2.2 : S1x8x128.Idx → EReal) (ix3 0 d j) = countsGain V c d j t.val := by
  rw [outsAt0_A V c t h]
  dsimp only
  refine (congrFun (counts_first (F := Ideal) c (grid0.coords t) (ms0_0 t) (hs0_0 t) (ms0_1 t) (hs0_1 t) (ms0_2 t) (hs0_2 t) (ms0_3 t) (hs0_3 t) (ms0_4 t) (hs0_4 t) ((hcond0_0 t).mpr h) (iblk0 V c 0 t) (iblk0 V c 1 t)) (ix3 0 d j)).trans ?_
  refine (StatsPayload.count_store_apply (yblk V c t) (k0_pay5 (F := Ideal)) d j).trans ?_
  rw [StatsPayload.zero_count_apply, zero_add]
  simp only [countsGain, gainCount, yblk_apply]

/-- Past a half's first point the third output's buffer holds what the point before left plus the tile's count. -/
theorem counts_at_later (c : Dev nD) (t : Fin cfg0.N) (h : ¬t.val % 64 = 0) (d : Fin 8) (j : Fin 128) :
    ((outsAt0 V c t.val t.isLt).2.2 : S1x8x128.Idx → EReal) (ix3 0 d j)
      = ((outsAt0 V c (t.val - 1) (Nat.lt_of_le_of_lt (Nat.sub_le _ _) t.isLt)).2.2 : S1x8x128.Idx → EReal) (ix3 0 d j) + countsGain V c d j t.val := by
  rw [outsAt0_B V c t h]
  dsimp only
  refine (congrFun (counts_later (F := Ideal) c (grid0.coords t) (ms0_0 t) (hs0_0 t) (ms0_1 t) (hs0_1 t) (ms0_2 t) (hs0_2 t) (ms0_3 t) (hs0_3 t) (ms0_4 t) (hs0_4 t) (fun hh => h ((hcond0_0 t).mp hh)) (iblk0 V c 0 t) (iblk0 V c 1 t)
    (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2) (ix3 0 d j)).trans ?_
  refine (StatsPayload.count_store_apply (yblk V c t) (outsAt0 V c (t.val - 1) (Nat.lt_of_le_of_lt (Nat.sub_le _ _) t.isLt)).2.2 d j).trans ?_
  simp only [countsGain, gainCount, yblk_apply]

/-- After point `n` the third output's buffer holds the counts of the tiles of its half up to `n`. -/
theorem counts_upTo (c : Dev nD) (d : Fin 8) (j : Fin 128) : ∀ (n : ℕ) (hn : n < cfg0.N),
    ((outsAt0 V c n hn).2.2 : S1x8x128.Idx → EReal) (ix3 0 d j) = upTo (countsGain V c d j) n := by
  intro n
  induction n with
  | zero =>
    intro hn
    rw [upTo_first _ 0 rfl]
    exact counts_at_first V c ⟨0, hn⟩ rfl d j
  | succ n ih =>
    intro hn
    by_cases h : (n + 1) % 64 = 0
    · rw [upTo_first _ (n + 1) h]
      exact counts_at_first V c ⟨n + 1, hn⟩ h d j
    · rw [upTo_next _ (n + 1) h]
      refine (counts_at_later V c ⟨n + 1, hn⟩ h d j).trans ?_
      exact congrArg (· + countsGain V c d j (n + 1)) (ih (Nat.lt_of_succ_lt hn))

/-- The third output as the pass leaves it: at (half, domain, lane) the row counts of the half's 64 tiles. -/
def countsArr (c : Dev nD) : S2x8x128.Idx → EReal := fun j => upTo (countsGain V c (j 1) (j 2)) ((j 0).val * 64 + 63)

/-- An index of the third output whose leading coordinate is point `t`'s half lies in the block point `t` writes back. -/
theorem mem_counts_block (t : Fin cfg0.N) (i : S2x8x128.Idx) (h0 : (i 0).val = t.val / 64) :
    i ∈ ((cfg0.win 4).blk t).view.set := by
  obtain ⟨-, -, -, -, a0, a1, a2, b0, b1, b2, c0, c1, c2⟩ := block_index t
  show i ∈ ((View.whole main_v1_2).slice (win0_4.rect t)).set
  rw [View.set_slice_whole, Rect.mem_set_unit]
  intro a
  have h1 : (i 1).val < 8 := (i 1).isLt
  have h2 : (i 2).val < 128 := (i 2).isLt
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 8 ≤ (i 1).val ∧ (i 1).val < win0_4.index t (1 : Fin 3) * 8 + 8
    omega
  | ⟨2, _⟩ =>
    show win0_4.index t (2 : Fin 3) * 128 ≤ (i 2).val ∧ (i 2).val < win0_4.index t (2 : Fin 3) * 128 + 128
    omega

/-- What a half's last point writes back is the half's block of that array. -/
theorem counts_flushed (c : Dev nD) (t : Fin cfg0.N) (hf : (cfg0.win 4).flush t = true) :
    (dat0 V c).flushed 4 t = ((cfg0.win 4).blk t).view.read (Elt Ideal) (countsArr V c) := by
  have hN : t.val < 128 := lt_of_lt_of_eq t.isLt (show cfg0.N = 128 from N_0)
  have h63 : t.val % 64 = 63 := (flush0_4 t).mp hf
  obtain ⟨-, -, -, -, a0, a1, a2, b0, b1, b2, c0, c1, c2⟩ := block_index t
  show (cfg0.win 4).cut (grid0.coords t) ((dat0 V c).after 4 t) = _
  rw [after0_4]
  funext y
  have hy0 : (y 0).val < 1 := (y 0).isLt
  have hy1 : (y 1).val < 8 := (y 1).isLt
  have hy2 : (y 2).val < 128 := (y 2).isLt
  have hl : (cfg0.win 4).xinj (grid0.coords t) y = (ix3 (0 : Fin 1) ⟨(y 1).val, hy1⟩ ⟨(y 2).val, hy2⟩ : S1x8x128.Idx) :=
    funext fun a => Fin.ext (by
      match a with
      | ⟨0, _⟩ => show (y 0).val = 0; omega
      | ⟨1, _⟩ => rfl
      | ⟨2, _⟩ => rfl)
  have hr : ((cfg0.win 4).blk t).view.emb y
      = (ix3 (⟨t.val / 64, by omega⟩ : Fin 2) ⟨(y 1).val, hy1⟩ ⟨(y 2).val, hy2⟩ : S2x8x128.Idx) :=
    funext fun a => Fin.ext (by
      match a with
      | ⟨0, _⟩ => show win0_4.index t (0 : Fin 3) * 1 + 1 * (y 0).val = t.val / 64; omega
      | ⟨1, _⟩ => show win0_4.index t (1 : Fin 3) * 8 + 1 * (y 1).val = (y 1).val; omega
      | ⟨2, _⟩ => show win0_4.index t (2 : Fin 3) * 128 + 1 * (y 2).val = (y 2).val; omega)
  rw [View.read_apply, hr]
  show ((outsAt0 V c t.val t.isLt).2.2 : S1x8x128.Idx → EReal) ((cfg0.win 4).xinj (grid0.coords t) y) = _
  rw [hl, counts_upTo V c ⟨(y 1).val, hy1⟩ ⟨(y 2).val, hy2⟩ t.val t.isLt]
  show _ = upTo _ (t.val / 64 * 64 + 63)
  congr 1
  omega

/-- Half `k`'s block of the first output after the pass: the 64 tiles' sums of values of domain `d`, feature `f`. -/
theorem sums_after (c : Dev nD) (k : Fin 2) (d : Fin 8) (f : Fin 1024) :
    ((dat0 (F := Ideal) V c).arrAt 2 cfg0.N : S2x8x1024.Idx → EReal) (ix3 k d f)
      = ∑ i : Fin 64, (tileDot (fun e => xs V c (ix2 e f)) (fun e => ys V c (ix2 e 0)) k i d
          + tileDot (fun e => xs V c (ix2 e f) - xs V c (ix2 e f)) (fun e => ys V c (ix2 e 0)) k i d) := by
  have hN : cfg0.N = 128 := N_0
  have hk := k.isLt
  have ht : k.val * 64 + 63 < cfg0.N := by omega
  refine ((dat0 V c).arrAt_apply_of_mem 2 (sumsArr V c) (fun t hf => sums_flushed V c t hf) cfg0.N ⟨k.val * 64 + 63, ht⟩
    (ix3 k d f) ht ((flush0_2 _).mpr (by show (k.val * 64 + 63) % 64 = 63; omega))
    (mem_sums_block ⟨k.val * 64 + 63, ht⟩ (ix3 k d f) (by show k.val = (k.val * 64 + 63) / 64; omega))).trans ?_
  show upTo (sumsGain V c d f) (k.val * 64 + 63) = _
  rw [upTo_last]
  refine Finset.sum_congr rfl fun i _ => ?_
  rw [tileDot_eq_gain, tileDot_eq_gain]
  rfl

/-- Half `k`'s block of the second output after the pass: the same with the squares. -/
theorem squares_after (c : Dev nD) (k : Fin 2) (d : Fin 8) (f : Fin 1024) :
    ((dat0 (F := Ideal) V c).arrAt 3 cfg0.N : S2x8x1024.Idx → EReal) (ix3 k d f)
      = ∑ i : Fin 64, (tileDot (fun e => xs V c (ix2 e f) * xs V c (ix2 e f)) (fun e => ys V c (ix2 e 0)) k i d
          + tileDot (fun e => xs V c (ix2 e f) * xs V c (ix2 e f) - xs V c (ix2 e f) * xs V c (ix2 e f))
              (fun e => ys V c (ix2 e 0)) k i d) := by
  have hN : cfg0.N = 128 := N_0
  have hk := k.isLt
  have ht : k.val * 64 + 63 < cfg0.N := by omega
  refine ((dat0 V c).arrAt_apply_of_mem 3 (squaresArr V c) (fun t hf => squares_flushed V c t hf) cfg0.N ⟨k.val * 64 + 63, ht⟩
    (ix3 k d f) ht ((flush0_3 _).mpr (by show (k.val * 64 + 63) % 64 = 63; omega))
    (mem_squares_block ⟨k.val * 64 + 63, ht⟩ (ix3 k d f) (by show k.val = (k.val * 64 + 63) / 64; omega))).trans ?_
  show upTo (squaresGain V c d f) (k.val * 64 + 63) = _
  rw [upTo_last]
  refine Finset.sum_congr rfl fun i _ => ?_
  rw [tileDot_eq_gain, tileDot_eq_gain]
  rfl

/-- Half `k`'s block of the third output after the pass: the 64 tiles' row counts of domain `d`, in every lane `j`. -/
theorem counts_after (c : Dev nD) (k : Fin 2) (d : Fin 8) (j : Fin 128) :
    ((dat0 (F := Ideal) V c).arrAt 4 cfg0.N : S2x8x128.Idx → EReal) (ix3 k d j)
      = ∑ i : Fin 64, tileCount (fun e => ys V c (ix2 e 0)) k i d := by
  have hN : cfg0.N = 128 := N_0
  have hk := k.isLt
  have ht : k.val * 64 + 63 < cfg0.N := by omega
  refine ((dat0 V c).arrAt_apply_of_mem 4 (countsArr V c) (fun t hf => counts_flushed V c t hf) cfg0.N ⟨k.val * 64 + 63, ht⟩
    (ix3 k d j) ht ((flush0_4 _).mpr (by show (k.val * 64 + 63) % 64 = 63; omega))
    (mem_counts_block ⟨k.val * 64 + 63, ht⟩ (ix3 k d j) (by show k.val = (k.val * 64 + 63) / 64; omega))).trans ?_
  show upTo (countsGain V c d j) (k.val * 64 + 63) = _
  rw [upTo_last]
  refine Finset.sum_congr rfl fun i _ => ?_
  rw [tileCount_eq_gainCount]
  rfl

end Cert.KernelIdeal.StatsRegion

end
-- ==== Proof.NormalizeRegion.lean ====
/-
  The normalising pass, read as values: every row's entry is its value times the row's scale plus the row's shift, the
  row's scale and shift picked out of four small tables (a leading part and a remainder each) by the one-hot row of its
  label word.
-/
import proofs.«414652_j38087769981102_3_alg».proof.Proof.Gen.KernelIdeal.Frame
import proofs.«414652_j38087769981102_3_alg».proof.Proof.DomainStats
import Idealize.ShloMosaic.Lib.ValueIdx
import Idealize.ShloMosaic.Lib.Pipeline.Value
import Idealize.ShloMosaic.PureOps.Ideal.Laws

set_option maxRecDepth 16384

noncomputable section

namespace Cert.KernelIdeal.NormalizeRegion

open Cert.KernelIdeal Cert.KernelIdeal.Gen Cert.DomainNorm Idealize.ShloMosaic Idealize.ShloMosaic.ValueIdx Idealize.ShloMosaic.TcCoe Idealize.SL.Sem Finset

variable (V : (c : Dev nD) → (b : Ref sig .tc) → Buf (Elt Ideal) ((c : Thread nD τ).loc b))

/-- The rows' values, the rows' label words and the four tables as the pass finds them. -/
abbrev xs (c : Dev nD) : S65536x1024.Idx → EReal := V c (Pipeline.arrRef spec1 0)
abbrev ys (c : Dev nD) : S65536x1.Idx → BitVec 32 := V c (Pipeline.arrRef spec1 1)
abbrev scaleHi (c : Dev nD) : S8x1024.Idx → EReal := V c (Pipeline.arrRef spec1 2)
abbrev scaleLo (c : Dev nD) : S8x1024.Idx → EReal := V c (Pipeline.arrRef spec1 3)
abbrev shiftHi (c : Dev nD) : S8x1024.Idx → EReal := V c (Pipeline.arrRef spec1 4)
abbrev shiftLo (c : Dev nD) : S8x1024.Idx → EReal := V c (Pipeline.arrRef spec1 5)

/-! ## The block product: out (r, f) = ∑ d, lhs (r, d) * rhs (d, f) -/

/-- The left operand is read at the output's row … -/
theorem lhs_row (i : S1024x1024.Idx) (q : dot_S1024x8_S8x1024_S1024x1024_1_0_0_1_n_n.contr.Idx) :
    (dot_S1024x8_S8x1024_S1024x1024_1_0_0_1_n_n.lhsIdx i q 0).val = (i 0).val := by
  unfold DotDims.lhsIdx
  rw [dif_neg (show ¬(0 : Fin S1024x8.rank) ∈ dot_S1024x8_S8x1024_S1024x1024_1_0_0_1_n_n.lhsBatch by decide),
    dif_pos (show (0 : Fin S1024x8.rank) ∈ dot_S1024x8_S8x1024_S1024x1024_1_0_0_1_n_n.lhsNonContracting by decide)]
  rfl
/-- … and at the contracted position on its second axis; -/
theorem lhs_contr (i : S1024x1024.Idx) (q : dot_S1024x8_S8x1024_S1024x1024_1_0_0_1_n_n.contr.Idx) :
    (dot_S1024x8_S8x1024_S1024x1024_1_0_0_1_n_n.lhsIdx i q 1).val = (q ⟨0, by decide⟩).val :=
  dot_S1024x8_S8x1024_S1024x1024_1_0_0_1_n_n.lhsIdx_val_of_single rfl i q
/-- the right operand at the contracted position on its first axis … -/
theorem rhs_contr (i : S1024x1024.Idx) (q : dot_S1024x8_S8x1024_S1024x1024_1_0_0_1_n_n.contr.Idx) :
    (dot_S1024x8_S8x1024_S1024x1024_1_0_0_1_n_n.rhsIdx i q 0).val = (q ⟨0, by decide⟩).val :=
  dot_S1024x8_S8x1024_S1024x1024_1_0_0_1_n_n.rhsIdx_val_of_single rfl i q
/-- … and at the output's column. -/
theorem rhs_col (i : S1024x1024.Idx) (q : dot_S1024x8_S8x1024_S1024x1024_1_0_0_1_n_n.contr.Idx) :
    (dot_S1024x8_S8x1024_S1024x1024_1_0_0_1_n_n.rhsIdx i q 1).val = (i 1).val := by
  unfold DotDims.rhsIdx
  rw [dif_neg (show ¬(1 : Fin S8x1024.rank) ∈ dot_S1024x8_S8x1024_S1024x1024_1_0_0_1_n_n.rhsBatch by decide),
    dif_pos (show (1 : Fin S8x1024.rank) ∈ dot_S1024x8_S8x1024_S1024x1024_1_0_0_1_n_n.rhsNonContracting by decide)]
  rfl

/-- The product into a zero block, at row `r`, column `f`: the sum over the eight contracted positions. -/
theorem matmul_at (L : FVec Ideal S1024x8 .bf16) (R : FVec Ideal S8x1024 .bf16) (r f : Fin 1024) :
    FloatOps.matmul dot_S1024x8_S8x1024_S1024x1024_1_0_0_1_n_n none L R (constant (F := Ideal) S1024x1024 .f32 0x00000000#32) (ix2 r f)
      = ∑ d : Fin 8, L (ix2 r d) * R (ix2 d f) := by
  rw [Ideal.matmul_constant_zero_apply, ← Equiv.sum_comp (contrEquiv1 dot_S1024x8_S8x1024_S1024x1024_1_0_0_1_n_n 8 rfl rfl).symm]
  refine Finset.sum_congr rfl fun k _ => ?_
  have hk := contrEquiv1_symm_val dot_S1024x8_S8x1024_S1024x1024_1_0_0_1_n_n 8 rfl rfl k
  have el : dot_S1024x8_S8x1024_S1024x1024_1_0_0_1_n_n.lhsIdx (ix2 r f) ((contrEquiv1 dot_S1024x8_S8x1024_S1024x1024_1_0_0_1_n_n 8 rfl rfl).symm k) = ix2 r k :=
    funext fun a => Fin.ext (by
      match a with
      | ⟨0, _⟩ => exact lhs_row _ _
      | ⟨1, _⟩ => exact (lhs_contr _ _).trans hk)
  have er : dot_S1024x8_S8x1024_S1024x1024_1_0_0_1_n_n.rhsIdx (ix2 r f) ((contrEquiv1 dot_S1024x8_S8x1024_S1024x1024_1_0_0_1_n_n 8 rfl rfl).symm k) = ix2 k f :=
    funext fun a => Fin.ext (by
      match a with
      | ⟨0, _⟩ => exact (rhs_contr _ _).trans hk
      | ⟨1, _⟩ => exact rhs_col _ _)
  rw [el, er]

/-! ## The one-hot factor -/

/-- The comparison of the lane number with the row's label word, widened and converted, is the one-hot entry. -/
theorem oneHot_at (y : IVec S1024x1 32) (r : Fin 1024) (d : Fin 8) :
    (truncf .bf16 (sitofp (F := Ideal) .f32 (extui 32 (cmpi .eq (iota .tc S1024x8 32 [1] iota_S1024x8_d1_w32)
        (broadcastTo S1024x8 y broadcasts_S1024x1_S1024x8)) natLt_1_32)) bitsLt_bf16_f32 : FVec Ideal S1024x8 .bf16) (ix2 r d)
      = oneHot (y (ix2 r 0)) d := by
  rw [truncf_apply, sitofp_apply, extui_apply]
  have hb : broadcastTo S1024x8 y broadcasts_S1024x1_S1024x8 (ix2 r d) = y (ix2 r 0) :=
    broadcastTo_apply y broadcasts_S1024x1_S1024x8 (ix2 r d) (ix2 r 0) (fun a => by
      match a with
      | ⟨0, _⟩ => rfl
      | ⟨1, _⟩ => rfl)
  show FloatOps.sitofp (F := Ideal) FTy.f32 (BitVec.setWidth 32 (IntOp.cmpi .eq (iota .tc S1024x8 32 [1] iota_S1024x8_d1_w32 (ix2 r d))
      (broadcastTo S1024x8 y broadcasts_S1024x1_S1024x8 (ix2 r d)))) = _
  rw [hb]
  have hi : iota .tc S1024x8 32 [1] iota_S1024x8_d1_w32 (ix2 r d) = BitVec.ofNat 32 d.val := by
    show BitVec.ofNat 32 (0 * 8 + d.val) = _
    rw [Nat.zero_mul, Nat.zero_add]
  rw [hi]
  unfold oneHot IntOp.cmpi
  by_cases h : y (ix2 r 0) = BitVec.ofNat 32 d.val
  · rw [if_pos h, h]
    simp [FloatOps.sitofp]
  · rw [if_neg h]
    have hne : (BitVec.ofNat 32 d.val == y (ix2 r 0)) = false := by
      rw [beq_eq_false_iff_ne]; exact fun e => h e.symm
    simp [FloatOps.sitofp, hne]

/-- The block product of the one-hot rows with a table, at row `r`, feature `f`: the table's entry of the row's label. -/
theorem pick_at (y : IVec S1024x1 32) (R : FVec Ideal S8x1024 .bf16) (r f : Fin 1024) :
    FloatOps.matmul dot_S1024x8_S8x1024_S1024x1024_1_0_0_1_n_n none
        (truncf .bf16 (sitofp (F := Ideal) .f32 (extui 32 (cmpi .eq (iota .tc S1024x8 32 [1] iota_S1024x8_d1_w32)
          (broadcastTo S1024x8 y broadcasts_S1024x1_S1024x8)) natLt_1_32)) bitsLt_bf16_f32 : FVec Ideal S1024x8 .bf16)
        R (constant (F := Ideal) S1024x1024 .f32 0x00000000#32) (ix2 r f)
      = ∑ d : Fin 8, oneHot (y (ix2 r 0)) d * R (ix2 d f) := by
  rw [matmul_at]
  exact Finset.sum_congr rfl fun d _ => congrArg (· * R (ix2 d f)) (oneHot_at y r d)

/-! ## The body's stored value at an entry of the block -/

/-- Entry `(r, f)` of the stored block: the row's value times the sum of the two scale tables' entries of its label plus
    the sum of the two shift tables' entries of its label, each entry as the one-hot row's product with the table's column. -/
theorem payload_at (x : Vec Ideal S1024x1024 .f32) (y : Vec Ideal S1024x1 .i32) (t2 t3 t4 t5 : Vec Ideal S8x1024 .bf16)
    (r f : Fin 1024) :
    k1_pay1 x y t2 t3 t4 t5 (ix2 r f)
      = x (ix2 r f)
          * ((∑ d : Fin 8, oneHot (y (ix2 r 0)) d * t2 (ix2 d f)) + (∑ d : Fin 8, oneHot (y (ix2 r 0)) d * t3 (ix2 d f)))
        + ((∑ d : Fin 8, oneHot (y (ix2 r 0)) d * t4 (ix2 d f)) + (∑ d : Fin 8, oneHot (y (ix2 r 0)) d * t5 (ix2 d f))) := by
  unfold k1_pay1
  dsimp only
  rw [addf_apply, mulf_apply, addf_apply, addf_apply]
  simp only [matmul, shapeCast_self]
  rw [pick_at, pick_at, pick_at, pick_at]

/-! ## The whole output array as one function of the rows, the label words and the four tables -/

/-- Row `e`'s entry at feature `f`: the row's value times its label's scale plus its label's shift, each picked out
    of a leading table and a remainder table by the one-hot row of the label word. -/
def normRow (x : S65536x1024.Idx → EReal) (y : S65536x1.Idx → BitVec 32) (t2 t3 t4 t5 : S8x1024.Idx → EReal)
    (e : Fin 65536) (f : Fin 1024) : EReal :=
  x (ix2 e f)
      * ((∑ d : Fin 8, oneHot (y (ix2 e 0)) d * t2 (ix2 d f)) + (∑ d : Fin 8, oneHot (y (ix2 e 0)) d * t3 (ix2 d f)))
    + ((∑ d : Fin 8, oneHot (y (ix2 e 0)) d * t4 (ix2 d f)) + (∑ d : Fin 8, oneHot (y (ix2 e 0)) d * t5 (ix2 d f)))

/-- The array of all rows' entries. -/
def normalized (x : S65536x1024.Idx → EReal) (y : S65536x1.Idx → BitVec 32) (t2 t3 t4 t5 : S8x1024.Idx → EReal) :
    S65536x1024.Idx → EReal :=
  fun i => normRow x y t2 t3 t4 t5 (i 0) (i 1)

theorem zero_offsets : (![0, 0] : Fin 2 → Nat) = fun _ => 0 := funext fun a => by fin_cases a <;> rfl

/-- The block index maps over the 64 grid points: the rows' and the label words' blocks and the output's move with the
    point along the rows (block `t` on the row axis, block 0 on the other), the four tables are read whole (block 0, 0). -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Point `t`'s block of the rows' values is rows `1024 t … 1024 t + 1023`. -/
theorem rows_block (c : Dev nD) (t : Fin cfg1.N) (r f : Fin 1024) (e : Fin 65536) (he : e.val = t.val * 1024 + r.val) :
    (iblk1 (F := Ideal) V c 0 t : Vec Ideal S1024x1024 .f32) (ix2 r f) = xs V c (ix2 e f) := by
  obtain ⟨h00, h01, -⟩ := index_facts t
  show V c (Pipeline.arrRef spec1 0) (((cfg1.win 0).blk t).view.emb (ix2 r f)) = V c (Pipeline.arrRef spec1 0) (ix2 e f)
  refine congrArg _ (funext fun a => Fin.ext ?_)
  match a with
  | ⟨0, _⟩ => show win1_0.index t (0 : Fin 2) * 1024 + 1 * r.val = e.val; omega
  | ⟨1, _⟩ => show win1_0.index t (1 : Fin 2) * 1024 + 1 * f.val = f.val; omega

/-- Point `t`'s block of the label words is rows `1024 t … 1024 t + 1023` of their one column. -/
theorem labels_block (c : Dev nD) (t : Fin cfg1.N) (r : Fin 1024) (e : Fin 65536) (he : e.val = t.val * 1024 + r.val) :
    (iblk1 (F := Ideal) V c 1 t : Vec Ideal S1024x1 .i32) (ix2 r 0) = ys V c (ix2 e 0) := by
  obtain ⟨-, -, h10, h11, -⟩ := index_facts t
  show V c (Pipeline.arrRef spec1 1) (((cfg1.win 1).blk t).view.emb (ix2 r 0)) = V c (Pipeline.arrRef spec1 1) (ix2 e 0)
  refine congrArg _ (funext fun a => Fin.ext ?_)
  match a with
  | ⟨0, _⟩ => show win1_1.index t (0 : Fin 2) * 1024 + 1 * r.val = e.val; omega
  | ⟨1, _⟩ => show win1_1.index t (1 : Fin 2) * 1 + 1 * 0 = 0; omega

/-- Every point reads the scales' leading table whole. -/
theorem scaleHi_block (c : Dev nD) (t : Fin cfg1.N) (d : Fin 8) (f : Fin 1024) :
    (iblk1 (F := Ideal) V c 2 t : Vec Ideal S8x1024 .bf16) (ix2 d f) = scaleHi V c (ix2 d f) := by
  obtain ⟨-, -, -, -, h20, h21, h30, h31, h40, h41, h50, h51, -⟩ := index_facts t
  show V c (Pipeline.arrRef spec1 2) (((cfg1.win 2).blk t).view.emb (ix2 d f)) = V c (Pipeline.arrRef spec1 2) (ix2 d f)
  refine congrArg _ (funext fun a => Fin.ext ?_)
  match a with
  | ⟨0, _⟩ => show win1_2.index t (0 : Fin 2) * 8 + 1 * d.val = d.val; omega
  | ⟨1, _⟩ => show win1_2.index t (1 : Fin 2) * 1024 + 1 * f.val = f.val; omega

/-- Every point reads the scales' remainder table whole. -/
theorem scaleLo_block (c : Dev nD) (t : Fin cfg1.N) (d : Fin 8) (f : Fin 1024) :
    (iblk1 (F := Ideal) V c 3 t : Vec Ideal S8x1024 .bf16) (ix2 d f) = scaleLo V c (ix2 d f) := by
  obtain ⟨-, -, -, -, h20, h21, h30, h31, h40, h41, h50, h51, -⟩ := index_facts t
  show V c (Pipeline.arrRef spec1 3) (((cfg1.win 3).blk t).view.emb (ix2 d f)) = V c (Pipeline.arrRef spec1 3) (ix2 d f)
  refine congrArg _ (funext fun a => Fin.ext ?_)
  match a with
  | ⟨0, _⟩ => show win1_3.index t (0 : Fin 2) * 8 + 1 * d.val = d.val; omega
  | ⟨1, _⟩ => show win1_3.index t (1 : Fin 2) * 1024 + 1 * f.val = f.val; omega

/-- Every point reads the shifts' leading table whole. -/
theorem shiftHi_block (c : Dev nD) (t : Fin cfg1.N) (d : Fin 8) (f : Fin 1024) :
    (iblk1 (F := Ideal) V c 4 t : Vec Ideal S8x1024 .bf16) (ix2 d f) = shiftHi V c (ix2 d f) := by
  obtain ⟨-, -, -, -, h20, h21, h30, h31, h40, h41, h50, h51, -⟩ := index_facts t
  show V c (Pipeline.arrRef spec1 4) (((cfg1.win 4).blk t).view.emb (ix2 d f)) = V c (Pipeline.arrRef spec1 4) (ix2 d f)
  refine congrArg _ (funext fun a => Fin.ext ?_)
  match a with
  | ⟨0, _⟩ => show win1_4.index t (0 : Fin 2) * 8 + 1 * d.val = d.val; omega
  | ⟨1, _⟩ => show win1_4.index t (1 : Fin 2) * 1024 + 1 * f.val = f.val; omega

/-- Every point reads the shifts' remainder table whole. -/
theorem shiftLo_block (c : Dev nD) (t : Fin cfg1.N) (d : Fin 8) (f : Fin 1024) :
    (iblk1 (F := Ideal) V c 5 t : Vec Ideal S8x1024 .bf16) (ix2 d f) = shiftLo V c (ix2 d f) := by
  obtain ⟨-, -, -, -, h20, h21, h30, h31, h40, h41, h50, h51, -⟩ := index_facts t
  show V c (Pipeline.arrRef spec1 5) (((cfg1.win 5).blk t).view.emb (ix2 d f)) = V c (Pipeline.arrRef spec1 5) (ix2 d f)
  refine congrArg _ (funext fun a => Fin.ext ?_)
  match a with
  | ⟨0, _⟩ => show win1_5.index t (0 : Fin 2) * 8 + 1 * d.val = d.val; omega
  | ⟨1, _⟩ => show win1_5.index t (1 : Fin 2) * 1024 + 1 * f.val = f.val; omega

/-- Entry `(r, f)` of point `t`'s output block sits at row `1024 t + r`, feature `f` of the array. -/
theorem out_emb (t : Fin cfg1.N) (r f : Fin 1024) (e : Fin 65536) (he : e.val = t.val * 1024 + r.val) :
    ((cfg1.win 6).blk t).view.emb (ix2 r f) = (ix2 e f : S65536x1024.Idx) := by
  obtain ⟨-, -, -, -, -, -, -, -, -, -, -, -, h60, h61⟩ := index_facts t
  refine funext fun a => Fin.ext ?_
  match a with
  | ⟨0, _⟩ => show win1_6.index t (0 : Fin 2) * 1024 + 1 * r.val = e.val; omega
  | ⟨1, _⟩ => show win1_6.index t (1 : Fin 2) * 1024 + 1 * f.val = f.val; omega

/-- WHAT POINT `t` WRITES BACK is its block of the array of all rows' entries. -/
theorem flushed_eq (c : Dev nD) (t : Fin cfg1.N) :
    (dat1 (F := Ideal) V c).flushed 6 t
      = ((cfg1.win 6).blk t).view.read (Elt Ideal)
          (normalized (xs V c) (ys V c) (scaleHi V c) (scaleLo V c) (shiftHi V c) (shiftLo V c)) := by
  show (cfg1.win 6).cut (grid1.coords t) ((dat1 (F := Ideal) V c).after 6 t) = _
  rw [after1_6]
  unfold out1_6
  rw [View.canon_unit_zero zero_offsets]
  simp only [View.ld_unit_zero (S := S1024x1024) zero_offsets, View.ld_unit_zero (S := S1024x1) zero_offsets,
    View.ld_unit_zero (S := S8x1024) zero_offsets]
  have key : ∀ j : S1024x1024.Idx,
      k1_pay1 (F := Ideal) (iblk1 V c 0 t) (iblk1 V c 1 t) (iblk1 V c 2 t) (iblk1 V c 3 t) (iblk1 V c 4 t) (iblk1 V c 5 t) j
        = normalized (xs V c) (ys V c) (scaleHi V c) (scaleLo V c) (shiftHi V c) (shiftLo V c)
            (((cfg1.win 6).blk t).view.emb j) := by
    intro j
    obtain ⟨r, f, rfl⟩ : ∃ (r f : Fin 1024), j = ix2 r f := ⟨j 0, j 1, eq_ix2 j⟩
    have hN : grid1.N = 64 := N_1
    have ht : t.val < grid1.N := t.isLt
    obtain ⟨e, he⟩ : ∃ e : Fin 65536, e.val = t.val * 1024 + r.val := ⟨⟨t.val * 1024 + r.val, by omega⟩, rfl⟩
    refine (payload_at (iblk1 V c 0 t) (iblk1 V c 1 t) (iblk1 V c 2 t) (iblk1 V c 3 t) (iblk1 V c 4 t) (iblk1 V c 5 t) r f).trans ?_
    rw [out_emb t r f e he]
    show _ = normRow (xs V c) (ys V c) (scaleHi V c) (scaleLo V c) (shiftHi V c) (shiftLo V c) e f
    unfold normRow
    rw [rows_block V c t r f e he, labels_block V c t r e he]
    simp only [scaleHi_block, scaleLo_block, shiftHi_block, shiftLo_block]
  funext j
  exact key j

/-- An index of the array is in point `t`'s block iff each coordinate is in the block's range on its axis. -/
theorem mem_block (t : Fin cfg1.N) (i : S65536x1024.Idx) :
    i ∈ ((cfg1.win 6).blk t).view.set
      ↔ ∀ a : Fin 2, win1_6.index t a * S1024x1024.size a ≤ (i a).val
          ∧ (i a).val < win1_6.index t a * S1024x1024.size a + S1024x1024.size a := by
  show i ∈ ((View.whole main_v56).slice (win1_6.rect t)).set ↔ _
  rw [View.set_slice_whole, Rect.mem_set_unit]
  exact Iff.rfl

/-- Row `e` lies in the block of point `e / 1024`: the 64 row blocks fill the array. -/
theorem covered (i : S65536x1024.Idx) :
    ∃ t : Fin cfg1.N, (cfg1.win 6).flush t = true ∧ i ∈ ((cfg1.win 6).blk t).view.set := by
  have hi0 : (i 0).val < 65536 := idx2_lt0 i
  have hi1 : (i 1).val < 1024 := idx2_lt1 i
  have hN : grid1.N = 64 := N_1
  obtain ⟨t, ht⟩ : ∃ t : Fin cfg1.N, t.val = (i 0).val / 1024 :=
    ⟨⟨(i 0).val / 1024, by show _ < grid1.N; omega⟩, rfl⟩
  obtain ⟨-, -, -, -, -, -, -, -, -, -, -, -, h60, h61⟩ := index_facts t
  refine ⟨t, flush1_6 t, ?_⟩
  rw [mem_block]
  intro a
  match a with
  | ⟨0, _⟩ =>
    show win1_6.index t (0 : Fin 2) * 1024 ≤ (i 0).val ∧ (i 0).val < win1_6.index t (0 : Fin 2) * 1024 + 1024
    omega
  | ⟨1, _⟩ =>
    show win1_6.index t (1 : Fin 2) * 1024 ≤ (i 1).val ∧ (i 1).val < win1_6.index t (1 : Fin 2) * 1024 + 1024
    omega

/-- THE OUTPUT ARRAY after the pass is the array of all rows' entries. -/
theorem after_eq (c : Dev nD) :
    (dat1 (F := Ideal) V c).arrAt 6 cfg1.N
      = normalized (xs V c) (ys V c) (scaleHi V c) (scaleLo V c) (shiftHi V c) (shiftLo V c) :=
  (dat1 (F := Ideal) V c).arrAt_eq_of_cover 6 _ (fun t _ => flushed_eq V c t) covered

/-- The output array after the pass, at row `e`, feature `f`. -/
theorem normalized_after (c : Dev nD) (e : Fin 65536) (f : Fin 1024) :
    ((dat1 (F := Ideal) V c).arrAt 6 cfg1.N : S65536x1024.Idx → EReal) (ix2 e f)
      = xs V c (ix2 e f)
          * ((∑ d : Fin 8, oneHot (ys V c (ix2 e 0)) d * scaleHi V c (ix2 d f))
            + (∑ d : Fin 8, oneHot (ys V c (ix2 e 0)) d * scaleLo V c (ix2 d f)))
        + ((∑ d : Fin 8, oneHot (ys V c (ix2 e 0)) d * shiftHi V c (ix2 d f))
            + (∑ d : Fin 8, oneHot (ys V c (ix2 e 0)) d * shiftLo V c (ix2 d f))) := by
  rw [after_eq]
  rfl

end Cert.KernelIdeal.NormalizeRegion

end
-- ==== Proof.HostTables.lean ====
/-
  The host operations around the two passes, read as values. Before the first pass the label vector is reshaped to a
  column. Between the passes the two halves' sums, sums of squares and counts are added, and from them each domain's
  mean, one-pass variance (clamped at 0), scale and shift are computed, each table then split into itself and the
  remainder `t − t`. Neither pass nor any host operation writes the rows' values or labels.
-/
import proofs.«414652_j38087769981102_3_alg».proof.Proof.Gen.KernelIdeal.Frame
import proofs.«414652_j38087769981102_3_alg».proof.Proof.DomainStats
import Idealize.ShloMosaic.Lib.ValueIdx
import Idealize.ShloMosaic.Lib.Pipeline.Value
import Idealize.ShloMosaic.Lib.ValueLayout
import Idealize.ShloMosaic.Lib.StableHlo.Run
import Idealize.ShloMosaic.Lib.IdealHost

set_option maxRecDepth 16384

noncomputable section

namespace Cert.KernelIdeal.HostTables

open Cert.KernelIdeal Cert.KernelIdeal.Gen Cert.DomainNorm Idealize.ShloMosaic Idealize.ShloMosaic.ValueIdx Idealize.ShloMosaic.TcCoe Idealize.SL.Sem Finset

variable (m : (ℓ : Loc nD τ sig) → Buf (Elt Ideal) ℓ) (ρ : Dev nD → PrngReg)

/-- Which array each window of the two passes is. -/
private theorem arr0_0 : Pipeline.arrRef spec0 0 = main_arg0 := rfl
private theorem arr0_1 : Pipeline.arrRef spec0 1 = main_v0 := rfl
private theorem arr0_2 : Pipeline.arrRef spec0 2 = main_v1_0 := rfl
private theorem arr0_3 : Pipeline.arrRef spec0 3 = main_v1_1 := rfl
private theorem arr0_4 : Pipeline.arrRef spec0 4 = main_v1_2 := rfl
private theorem arr1_0 : Pipeline.arrRef spec1 0 = main_arg0 := rfl
private theorem arr1_1 : Pipeline.arrRef spec1 1 = main_v0 := rfl
private theorem arr1_2 : Pipeline.arrRef spec1 2 = main_v48 := rfl
private theorem arr1_3 : Pipeline.arrRef spec1 3 = main_v51 := rfl
private theorem arr1_4 : Pipeline.arrRef spec1 4 = main_v52 := rfl
private theorem arr1_5 : Pipeline.arrRef spec1 5 = main_v55 := rfl

/-- The rows' values at the first pass's entry are the launch's: the one reshape before it writes the label column only. -/
private theorem W1_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))).trans rfl

/-- The first pass finds the rows' values as launched. -/
theorem entry0_x (c : Dev nD) :
    (V1 m ρ c (Pipeline.arrRef spec0 0) : S65536x1024.Idx → EReal) = m ((c.tc : Thread nD τ).loc main_arg0) :=
  W1_arg0 m ρ c

/-- The label column at the first pass's entry: the launch's label vector, reshaped; row e of the column is entry e. -/
private theorem W1_v0 (c : Dev nD) (e : Fin 65536) :
    (W1 m ρ c (Proc.devRef .tc main_v0) : S65536x1.Idx → BitVec 32) (ix2 e 0)
      = (m ((c : Thread nD τ).loc main_arg1) : S65536.Idx → BitVec 32) (ix1 e) := by
  have h : (W1 m ρ c (Proc.devRef .tc main_v0) : S65536x1.Idx → BitVec 32)
      = shapeCast S65536x1 (m ((c : Thread nD τ).loc main_arg1) : S65536.Idx → BitVec 32) shapeCasts_S65536_S65536x1 := by
    show StableHlo.after hostOps0 (W0 m ρ c) (Proc.devRef .tc main_v0) = _
    after_results; rfl
  rw [h]
  exact shapeCast_apply _ _ _ (ix1 e) (by
    rw [Shape.rowMajor_val_one, Shape.rowMajor_val_two]
    show e.val = e.val * 1 + 0
    omega)

/-- The first pass finds the label vector as a column. -/
theorem entry0_y (c : Dev nD) (e : Fin 65536) :
    (V1 m ρ c (Pipeline.arrRef spec0 1) : S65536x1.Idx → BitVec 32) (ix2 e 0)
      = (m ((c.tc : Thread nD τ).loc main_arg1) : S65536.Idx → BitVec 32) (ix1 e) :=
  W1_v0 m ρ c e

/-- No host operation between the passes writes the rows' values, and the first pass reads them through an input window. -/
private theorem W8_arg0 (c : Dev nD) : W8 m ρ c (Proc.devRef .tc main_arg0) = W1 m ρ c (Proc.devRef .tc main_arg0) :=
  calc W8 m ρ c (Proc.devRef .tc main_arg0)
    _ = W7 m ρ c (Proc.devRef .tc main_arg0) := StableHlo.after_of_forall_not_mem (b := Proc.devRef .tc main_arg0) _ _ (List.forall_iff_forall_mem.mp (by
          simp only [hostOps1_5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg0) := StableHlo.after_of_forall_not_mem (b := Proc.devRef .tc main_arg0) _ _ (List.forall_iff_forall_mem.mp (by
          simp only [hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg0) := StableHlo.after_of_forall_not_mem (b := Proc.devRef .tc main_arg0) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg0) := StableHlo.after_of_forall_not_mem (b := Proc.devRef .tc main_arg0) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := StableHlo.after_of_forall_not_mem (b := Proc.devRef .tc main_arg0) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))

/-- The second pass finds the rows' values as launched. -/
theorem entry1_x (c : Dev nD) :
    (V8 m ρ c (Pipeline.arrRef spec1 0) : S65536x1024.Idx → EReal) = m ((c.tc : Thread nD τ).loc main_arg0) :=
  (W8_arg0 m ρ c).trans (W1_arg0 m ρ c)

/-- Nor does any of them write the label column, which the first pass also only reads. -/
private theorem W8_v0 (c : Dev nD) : W8 m ρ c (Proc.devRef .tc main_v0) = W1 m ρ c (Proc.devRef .tc main_v0) :=
  calc W8 m ρ c (Proc.devRef .tc main_v0)
    _ = W7 m ρ c (Proc.devRef .tc main_v0) := StableHlo.after_of_forall_not_mem (b := Proc.devRef .tc main_v0) _ _ (List.forall_iff_forall_mem.mp (by
          simp only [hostOps1_5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v0) := StableHlo.after_of_forall_not_mem (b := Proc.devRef .tc main_v0) _ _ (List.forall_iff_forall_mem.mp (by
          simp only [hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v0) := StableHlo.after_of_forall_not_mem (b := Proc.devRef .tc main_v0) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v0) := StableHlo.after_of_forall_not_mem (b := Proc.devRef .tc main_v0) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v0) := StableHlo.after_of_forall_not_mem (b := Proc.devRef .tc main_v0) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v0) := StableHlo.after_of_forall_not_mem (b := Proc.devRef .tc main_v0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v0) := (W2_arr m ρ c 1).trans (((dat0 (V1 m ρ) c).arrAt_in 1 rfl _).trans (A_eq0 (V1 m ρ) c 1))

/-- The second pass finds the label vector as a column. -/
theorem entry1_y (c : Dev nD) (e : Fin 65536) :
    (V8 m ρ c (Pipeline.arrRef spec1 1) : S65536x1.Idx → BitVec 32) (ix2 e 0)
      = (m ((c.tc : Thread nD τ).loc main_arg1) : S65536.Idx → BitVec 32) (ix1 e) := by
  have h : (V8 m ρ c (Pipeline.arrRef spec1 1) : S65536x1.Idx → BitVec 32) = W1 m ρ c (Proc.devRef .tc main_v0) := W8_v0 m ρ c
  rw [h]
  exact W1_v0 m ρ c e

/-- The first pass's three output arrays after it: two halves' blocks of sums, of sums of squares, of counts. -/
abbrev sumsArr (c : Dev nD) : S2x8x1024.Idx → EReal := V2 m ρ c (Pipeline.arrRef spec0 2)
abbrev squaresArr (c : Dev nD) : S2x8x1024.Idx → EReal := V2 m ρ c (Pipeline.arrRef spec0 3)
abbrev countsArr (c : Dev nD) : S2x8x128.Idx → EReal := V2 m ρ c (Pipeline.arrRef spec0 4)

/-- Domain `d`'s sum, sum of squares and count at feature `f`: the two halves' blocks, added. -/
def sumAll (c : Dev nD) (d : Fin 8) (f : Fin 1024) : EReal :=
  sumsArr m ρ c (ix3 (0 : Fin 2) d f) + sumsArr m ρ c (ix3 (1 : Fin 2) d f)
def sqAll (c : Dev nD) (d : Fin 8) (f : Fin 1024) : EReal :=
  squaresArr m ρ c (ix3 (0 : Fin 2) d f) + squaresArr m ρ c (ix3 (1 : Fin 2) d f)
def cntAll (c : Dev nD) (d : Fin 8) : EReal :=
  countsArr m ρ c (ix3 (0 : Fin 2) d (0 : Fin 128)) + countsArr m ρ c (ix3 (1 : Fin 2) d (0 : Fin 128))

/-! ### The layout operations of the host code, read at an index -/
section Layout
variable {α : Type}

/-- Block 0 of a (2, 8, 1024) array, as an (8, 1024) array, at (d, f). -/
private theorem half0_1024 (X : S2x8x1024.Idx → α) (d : Fin 8) (f : Fin 1024) :
    shapeCast S8x1024 (extractStridedSlice S1x8x1024 ![0, 0, 0] X slices_S2x8x1024_S1x8x1024_0_0_0)
        shapeCasts_S1x8x1024_S8x1024 (ix2 d f) = X (ix3 (0 : Fin 2) d f) :=
  (shapeCast_1ab_ab_apply _ _ d f).trans
    (extractStridedSlice_apply _ X _ _ (ix3 (0 : Fin 2) d f) fun a => match a with
      | ⟨0, _⟩ => rfl
      | ⟨1, _⟩ => by show d.val = 0 + d.val; omega
      | ⟨2, _⟩ => by show f.val = 0 + f.val; omega)

/-- Block 1 of a (2, 8, 1024) array at (d, f). -/
private theorem half1_1024 (X : S2x8x1024.Idx → α) (d : Fin 8) (f : Fin 1024) :
    shapeCast S8x1024 (extractStridedSlice S1x8x1024 ![1, 0, 0] X slices_S2x8x1024_S1x8x1024_1_0_0)
        shapeCasts_S1x8x1024_S8x1024 (ix2 d f) = X (ix3 (1 : Fin 2) d f) :=
  (shapeCast_1ab_ab_apply _ _ d f).trans
    (extractStridedSlice_apply _ X _ _ (ix3 (1 : Fin 2) d f) fun a => match a with
      | ⟨0, _⟩ => rfl
      | ⟨1, _⟩ => by show d.val = 0 + d.val; omega
      | ⟨2, _⟩ => by show f.val = 0 + f.val; omega)

/-- Block 0 of a (2, 8, 128) array at (d, j). -/
private theorem half0_128 (X : S2x8x128.Idx → α) (d : Fin 8) (j : Fin 128) :
    shapeCast S8x128 (extractStridedSlice S1x8x128 ![0, 0, 0] X slices_S2x8x128_S1x8x128_0_0_0)
        shapeCasts_S1x8x128_S8x128 (ix2 d j) = X (ix3 (0 : Fin 2) d j) :=
  (shapeCast_1ab_ab_apply _ _ d j).trans
    (extractStridedSlice_apply _ X _ _ (ix3 (0 : Fin 2) d j) fun a => match a with
      | ⟨0, _⟩ => rfl
      | ⟨1, _⟩ => by show d.val = 0 + d.val; omega
      | ⟨2, _⟩ => by show j.val = 0 + j.val; omega)

/-- Block 1 of a (2, 8, 128) array at (d, j). -/
private theorem half1_128 (X : S2x8x128.Idx → α) (d : Fin 8) (j : Fin 128) :
    shapeCast S8x128 (extractStridedSlice S1x8x128 ![1, 0, 0] X slices_S2x8x128_S1x8x128_1_0_0)
        shapeCasts_S1x8x128_S8x128 (ix2 d j) = X (ix3 (1 : Fin 2) d j) :=
  (shapeCast_1ab_ab_apply _ _ d j).trans
    (extractStridedSlice_apply _ X _ _ (ix3 (1 : Fin 2) d j) fun a => match a with
      | ⟨0, _⟩ => rfl
      | ⟨1, _⟩ => by show d.val = 0 + d.val; omega
      | ⟨2, _⟩ => by show j.val = 0 + j.val; omega)

/-- Column 0 of an (8, 128) array, as a vector of 8, at d. -/
private theorem col0_128 (Z : S8x128.Idx → α) (d : Fin 8) :
    shapeCast S8 (extractStridedSlice S8x1 ![0, 0] Z slices_S8x128_S8x1_0_0) shapeCasts_S8x1_S8 (ix1 d)
      = Z (ix2 d (0 : Fin 128)) :=
  (shapeCast_apply _ _ (ix1 d) (ix2 d (0 : Fin 1)) (by
      rw [Shape.rowMajor_val_one, Shape.rowMajor_val_two]
      show d.val * 1 + 0 = d.val
      omega)).trans
    (extractStridedSlice_apply _ Z _ _ (ix2 d (0 : Fin 128)) fun a => match a with
      | ⟨0, _⟩ => by show d.val = 0 + d.val; omega
      | ⟨1, _⟩ => rfl)

/-- A vector of 8 as a column, at (d, 0). -/
private theorem col_of_vec (v : S8.Idx → α) (d : Fin 8) :
    broadcastInDim S8x1 ![0] bcast_S8_S8x1_0 v (ix2 d (0 : Fin 1)) = v (ix1 d) :=
  broadcastInDim_apply _ _ v _ (ix1 d) fun a => match a with
    | ⟨0, _⟩ => by show d.val = if (8 : ℕ) = 1 then 0 else d.val; rw [if_neg (by decide)]

/-- A column of 8 spread over 1024 features, at (d, f). -/
private theorem spread_col (w : S8x1.Idx → α) (d : Fin 8) (f : Fin 1024) :
    broadcastInDim S8x1024 ![0, 1] bcast_S8x1_S8x1024_0_1 w (ix2 d f) = w (ix2 d (0 : Fin 1)) :=
  broadcastInDim_apply _ _ w _ (ix2 d (0 : Fin 1)) fun a => match a with
    | ⟨0, _⟩ => by show d.val = if (8 : ℕ) = 1 then 0 else d.val; rw [if_neg (by decide)]
    | ⟨1, _⟩ => by show (0 : ℕ) = if (1 : ℕ) = 1 then 0 else f.val; rw [if_pos rfl]

/-- A row of 1024 features spread over the 8 domains, at (d, f). -/
private theorem spread_row (g : S1x1024.Idx → α) (d : Fin 8) (f : Fin 1024) :
    broadcastInDim S8x1024 ![0, 1] bcast_S1x1024_S8x1024_0_1 g (ix2 d f) = g (ix2 (0 : Fin 1) f) :=
  broadcastInDim_apply _ _ g _ (ix2 (0 : Fin 1) f) fun a => match a with
    | ⟨0, _⟩ => by show (0 : ℕ) = if (1 : ℕ) = 1 then 0 else d.val; rw [if_pos rfl]
    | ⟨1, _⟩ => by show f.val = if (1024 : ℕ) = 1 then 0 else f.val; rw [if_neg (by decide)]

end Layout

/-! ### The host code between the passes as functions of the arrays it reads

`X`, `Q`, `Y` are the first pass's sums, sums of squares and counts (two blocks each); `G`, `B` the rows γ and β. -/
section Chain

/-- A select on the bit of a strict comparison is the conditional on the comparison. -/
private theorem select_cmp_ogt {α : Type} (x y : EReal) (a b : α) :
    Scalar.select (Ideal.cmp .ogt x y) a b = if y < x then a else b := by
  unfold Ideal.cmp Scalar.select
  by_cases h : y < x <;> simp [h]

/-- A select on the bit of an equality test is the conditional on the equality. -/
private theorem select_cmp_oeq {α : Type} (x y : EReal) (a b : α) :
    Scalar.select (Ideal.cmp .oeq x y) a b = if x = y then a else b := by
  unfold Ideal.cmp Scalar.select
  by_cases h : x = y <;> simp [h]

private theorem hostRsqrt_apply {s : Shape} {φ : FTy} (a : FVec Ideal s φ) (i : s.Idx) :
    Host.rsqrt a i = Ideal.rsqrt (a i) := rfl

/-- The two blocks of a (2, 8, 1024) array, added. -/
private def addHalves (X : FVec Ideal S2x8x1024 .f32) : FVec Ideal S8x1024 .f32 :=
  addf (shapeCast S8x1024 (extractStridedSlice S1x8x1024 ![0, 0, 0] X slices_S2x8x1024_S1x8x1024_0_0_0) shapeCasts_S1x8x1024_S8x1024)
    (shapeCast S8x1024 (extractStridedSlice S1x8x1024 ![1, 0, 0] X slices_S2x8x1024_S1x8x1024_1_0_0) shapeCasts_S1x8x1024_S8x1024)

private theorem addHalves_apply (X : FVec Ideal S2x8x1024 .f32) (d : Fin 8) (f : Fin 1024) :
    addHalves X (ix2 d f) = X (ix3 (0 : Fin 2) d f) + X (ix3 (1 : Fin 2) d f) := by
  unfold addHalves
  rw [addf_apply, half0_1024, half1_1024]

/-- The count vector: column 0 of the two count blocks, added. -/
private def cntVec (Y : FVec Ideal S2x8x128 .f32) : FVec Ideal S8 .f32 :=
  shapeCast S8 (extractStridedSlice S8x1 ![0, 0]
    (addf (shapeCast S8x128 (extractStridedSlice S1x8x128 ![0, 0, 0] Y slices_S2x8x128_S1x8x128_0_0_0) shapeCasts_S1x8x128_S8x128)
      (shapeCast S8x128 (extractStridedSlice S1x8x128 ![1, 0, 0] Y slices_S2x8x128_S1x8x128_1_0_0) shapeCasts_S1x8x128_S8x128))
    slices_S8x128_S8x1_0_0) shapeCasts_S8x1_S8

private theorem cntVec_apply (Y : FVec Ideal S2x8x128 .f32) (d : Fin 8) :
    cntVec Y (ix1 d) = Y (ix3 (0 : Fin 2) d (0 : Fin 128)) + Y (ix3 (1 : Fin 2) d (0 : Fin 128)) := by
  unfold cntVec
  rw [col0_128, addf_apply, half0_128, half1_128]

/-- The divisor max(count, 1), spread over the features. -/
private def denTab (Y : FVec Ideal S2x8x128 .f32) : FVec Ideal S8x1024 .f32 :=
  broadcastInDim S8x1024 ![0, 1] bcast_S8x1_S8x1024_0_1
    (broadcastInDim S8x1 ![0] bcast_S8_S8x1_0
      (maximumf (cntVec Y) (broadcastInDim S8 ![] bcast_S_S8 (constant (F := Ideal) S_ .f32 0x3F800000#32))))

private theorem denTab_apply (Y : FVec Ideal S2x8x128 .f32) (d : Fin 8) (f : Fin 1024) :
    denTab Y (ix2 d f) = max (cntVec Y (ix1 d)) 1 := by
  unfold denTab
  rw [spread_col, col_of_vec, maximumf_apply, broadcastInDim_scalar_apply, constant_apply, Ideal.ofBits_one_f32]

/-- The mean table: the sums over the divisor. -/
private def meanTab (X : FVec Ideal S2x8x1024 .f32) (Y : FVec Ideal S2x8x128 .f32) : FVec Ideal S8x1024 .f32 :=
  Host.divf (addHalves X) (denTab Y)

private theorem meanTab_apply (X : FVec Ideal S2x8x1024 .f32) (Y : FVec Ideal S2x8x128 .f32) (d : Fin 8) (f : Fin 1024) :
    meanTab X Y (ix2 d f) = Ideal.div (addHalves X (ix2 d f)) (max (cntVec Y (ix1 d)) 1) := by
  unfold meanTab
  rw [hostDivf_apply, denTab_apply]

/-- The one-pass variance before the clamp: second moment minus the mean's square. -/
private def varTab (X Q : FVec Ideal S2x8x1024 .f32) (Y : FVec Ideal S2x8x128 .f32) : FVec Ideal S8x1024 .f32 :=
  subf (Host.divf (addHalves Q) (denTab Y)) (mulf (meanTab X Y) (meanTab X Y))

/-- The reciprocal root of the clamped variance plus the floor. -/
private def rsTab (X Q : FVec Ideal S2x8x1024 .f32) (Y : FVec Ideal S2x8x128 .f32) : FVec Ideal S8x1024 .f32 :=
  Host.rsqrt (addf (maximumf (varTab X Q Y) (broadcastInDim S8x1024 ![] bcast_S_S8x1024 (constant (F := Ideal) S_ .f32 0x00000000#32)))
    (broadcastInDim S8x1024 ![] bcast_S_S8x1024 (constant (F := Ideal) S_ .f32 0x3727C5AC#32)))

private theorem rsTab_apply (X Q : FVec Ideal S2x8x1024 .f32) (Y : FVec Ideal S2x8x128 .f32) (d : Fin 8) (f : Fin 1024) :
    rsTab X Q Y (ix2 d f)
      = Ideal.rsqrt (max (Ideal.div (addHalves Q (ix2 d f)) (max (cntVec Y (ix1 d)) 1)
            - Ideal.div (addHalves X (ix2 d f)) (max (cntVec Y (ix1 d)) 1) * Ideal.div (addHalves X (ix2 d f)) (max (cntVec Y (ix1 d)) 1)) 0
          + eps) := by
  unfold rsTab varTab
  rw [hostRsqrt_apply, addf_apply, maximumf_apply, subf_apply, mulf_apply, hostDivf_apply, denTab_apply, meanTab_apply,
    broadcastInDim_scalar_apply, broadcastInDim_scalar_apply, constant_apply, constant_apply, Ideal.ofBits_zero_f32]
  rfl

/-- The counts as a column, and the column of ones they are compared with. -/
private def cntCol (Y : FVec Ideal S2x8x128 .f32) : FVec Ideal S8x1 .f32 := broadcastInDim S8x1 ![0] bcast_S8_S8x1_0 (cntVec Y)
private def oneCol : FVec Ideal S8x1 .f32 := broadcastInDim S8x1 ![] bcast_S_S8x1 (constant (F := Ideal) S_ .f32 0x3F800000#32)
private def zeroCol : FVec Ideal S8x1 .f32 := broadcastInDim S8x1 ![] bcast_S_S8x1 (constant (F := Ideal) S_ .f32 0x00000000#32)

private theorem oneCol_apply (j : S8x1.Idx) : oneCol j = 1 := by
  unfold oneCol; rw [broadcastInDim_scalar_apply, constant_apply, Ideal.ofBits_one_f32]
private theorem zeroCol_apply (j : S8x1.Idx) : zeroCol j = 0 := by
  unfold zeroCol; rw [broadcastInDim_scalar_apply, constant_apply, Ideal.ofBits_zero_f32]

/-- The bits "more than one row" and "exactly one row". -/
private def gtBit (Y : FVec Ideal S2x8x128 .f32) : IVec S8x1 1 := cmpf .ogt (cntCol Y) oneCol
private def eqBit (Y : FVec Ideal S2x8x128 .f32) : IVec S8x1 1 := cmpf .oeq (cntCol Y) oneCol

/-- γ times the reciprocal root. -/
private def gamRs (X Q : FVec Ideal S2x8x1024 .f32) (Y : FVec Ideal S2x8x128 .f32) (G : FVec Ideal S1x1024 .f32) : FVec Ideal S8x1024 .f32 :=
  mulf (broadcastInDim S8x1024 ![0, 1] bcast_S1x1024_S8x1024_0_1 G) (rsTab X Q Y)

/-- The scale of a domain with at most one row: 1 for exactly one, else 0. -/
private def loneCol (Y : FVec Ideal S2x8x128 .f32) : FVec Ideal S8x1 .f32 := select (eqBit Y) oneCol zeroCol

/-- The scale table. -/
private def scaleT (X Q : FVec Ideal S2x8x1024 .f32) (Y : FVec Ideal S2x8x128 .f32) (G : FVec Ideal S1x1024 .f32) : FVec Ideal S8x1024 .f32 :=
  select (broadcastInDim S8x1024 ![0, 1] bcast_S8x1_S8x1024_0_1 (gtBit Y)) (gamRs X Q Y G)
    (broadcastInDim S8x1024 ![0, 1] bcast_S8x1_S8x1024_0_1 (loneCol Y))

private theorem scaleT_apply (X Q : FVec Ideal S2x8x1024 .f32) (Y : FVec Ideal S2x8x128 .f32) (G : FVec Ideal S1x1024 .f32)
    (d : Fin 8) (f : Fin 1024) :
    scaleT X Q Y G (ix2 d f)
      = scaleTab eps (addHalves X (ix2 d f)) (addHalves Q (ix2 d f)) (cntVec Y (ix1 d)) (G (ix2 (0 : Fin 1) f)) := by
  unfold scaleT gamRs loneCol gtBit eqBit cntCol
  rw [select_apply, spread_col, spread_col, cmpf_apply, mulf_apply, spread_row, rsTab_apply, select_apply, cmpf_apply,
    col_of_vec, oneCol_apply, zeroCol_apply]
  show Scalar.select (Ideal.cmp .ogt _ _) _ (Scalar.select (Ideal.cmp .oeq _ _) _ _) = _
  rw [select_cmp_ogt, select_cmp_oeq]
  rfl

/-- The shift table. -/
private def shiftT (X Q : FVec Ideal S2x8x1024 .f32) (Y : FVec Ideal S2x8x128 .f32) (G B : FVec Ideal S1x1024 .f32) : FVec Ideal S8x1024 .f32 :=
  select (broadcastInDim S8x1024 ![0, 1] bcast_S8x1_S8x1024_0_1 (gtBit Y))
    (subf (broadcastInDim S8x1024 ![0, 1] bcast_S1x1024_S8x1024_0_1 B) (mulf (meanTab X Y) (scaleT X Q Y G)))
    (broadcastInDim S8x1024 ![] bcast_S_S8x1024 (constant (F := Ideal) S_ .f32 0x00000000#32))

private theorem shiftT_apply (X Q : FVec Ideal S2x8x1024 .f32) (Y : FVec Ideal S2x8x128 .f32) (G B : FVec Ideal S1x1024 .f32)
    (d : Fin 8) (f : Fin 1024) :
    shiftT X Q Y G B (ix2 d f)
      = shiftTab eps (addHalves X (ix2 d f)) (addHalves Q (ix2 d f)) (cntVec Y (ix1 d)) (G (ix2 (0 : Fin 1) f))
          (B (ix2 (0 : Fin 1) f)) := by
  unfold shiftT gtBit cntCol
  rw [select_apply, spread_col, cmpf_apply, subf_apply, mulf_apply, spread_row, meanTab_apply, scaleT_apply,
    col_of_vec, oneCol_apply, broadcastInDim_scalar_apply, constant_apply, Ideal.ofBits_zero_f32]
  show Scalar.select (Ideal.cmp .ogt _ _) _ _ = _
  rw [select_cmp_ogt]
  rfl

end Chain

/-- A table's leading part and remainder: narrowed, and the table minus the leading part widened again. -/
private def splitHi (T : FVec Ideal S8x1024 .f32) : FVec Ideal S8x1024 .bf16 := truncf .bf16 T bitsLt_bf16_f32
private def splitLo (T : FVec Ideal S8x1024 .f32) : FVec Ideal S8x1024 .bf16 :=
  truncf .bf16 (subf T (extf .f32 (truncf .bf16 T bitsLt_bf16_f32 : FVec Ideal S8x1024 .bf16) bitsLt_bf16_f32)) bitsLt_bf16_f32

/-- On extended reals narrowing and widening change nothing: the leading part is the table, the remainder t − t. -/
private theorem splitHi_apply (T : FVec Ideal S8x1024 .f32) (i : S8x1024.Idx) : splitHi T i = T i := rfl
private theorem splitLo_apply (T : FVec Ideal S8x1024 .f32) (i : S8x1024.Idx) : splitLo T i = T i - T i := rfl

/-- β's row spread over the domains, minus a mean table times a scale table. -/
private def preShift (B : FVec Ideal S1x1024 .f32) (M T : FVec Ideal S8x1024 .f32) : FVec Ideal S8x1024 .f32 :=
  subf (broadcastInDim S8x1024 ![0, 1] bcast_S1x1024_S8x1024_0_1 B) (mulf M T)

/-! ### The buffers the host code leaves, stretch by stretch -/

/-- γ after the first pass is the launch's: neither the reshape nor the pass writes it. -/
private theorem W2_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- After the long stretch: the mean table, the counts as a column, the two count bits, γ times the reciprocal root. -/
private theorem W3_v23 (c : Dev nD) :
    (W3 m ρ c (Proc.devRef .tc main_v23) : FVec Ideal S8x1024 .f32) = meanTab (sumsArr m ρ c) (countsArr m ρ c) := by
  show StableHlo.after hostOps1 (W2 m ρ c) (Proc.devRef .tc main_v23) = _
  after_results_simp; rfl
private theorem W3_v33 (c : Dev nD) :
    (W3 m ρ c (Proc.devRef .tc main_v33) : FVec Ideal S8x1 .f32) = cntCol (countsArr m ρ c) := by
  show StableHlo.after hostOps1 (W2 m ρ c) (Proc.devRef .tc main_v33) = _
  after_results_simp; rfl
private theorem W3_v35 (c : Dev nD) :
    (W3 m ρ c (Proc.devRef .tc main_v35) : IVec S8x1 1) = gtBit (countsArr m ρ c) := by
  show StableHlo.after hostOps1 (W2 m ρ c) (Proc.devRef .tc main_v35) = _
  after_results_simp; rfl
private theorem W3_v37 (c : Dev nD) :
    (W3 m ρ c (Proc.devRef .tc main_v37) : FVec Ideal S8x1024 .f32)
      = gamRs (sumsArr m ρ c) (squaresArr m ρ c) (countsArr m ρ c) (W2 m ρ c (Proc.devRef .tc main_arg2)) := by
  show StableHlo.after hostOps1 (W2 m ρ c) (Proc.devRef .tc main_v37) = _
  after_results_simp; rfl
private theorem W3_v39 (c : Dev nD) :
    (W3 m ρ c (Proc.devRef .tc main_v39) : IVec S8x1 1) = eqBit (countsArr m ρ c) := by
  show StableHlo.after hostOps1 (W2 m ρ c) (Proc.devRef .tc main_v39) = _
  after_results_simp; rfl
private theorem W3_cst4 (c : Dev nD) :
    (W3 m ρ c (Proc.devRef .tc main_cst_4) : FVec Ideal S_ .f32) = constant (F := Ideal) S_ .f32 0x3F800000#32 := by
  show StableHlo.after hostOps1 (W2 m ρ c) (Proc.devRef .tc main_cst_4) = _
  after_results_simp
private theorem W3_cst5 (c : Dev nD) :
    (W3 m ρ c (Proc.devRef .tc main_cst_5) : FVec Ideal S_ .f32) = constant (F := Ideal) S_ .f32 0x00000000#32 := by
  show StableHlo.after hostOps1 (W2 m ρ c) (Proc.devRef .tc main_cst_5) = _
  after_results_simp

/-! ### Each later stretch, from any contents `V` before it -/
section Stretches
variable (V : Valuation τ sig (Elt Ideal))

/-- The first outlined choice: its bit's column chooses between two constants spread to columns. -/
private theorem choice0_v40 :
    (StableHlo.after hostOps1_1 V (Proc.devRef .tc main_v40) : FVec Ideal S8x1 .f32)
      = select (V (Proc.devRef .tc main_v39) : IVec S8x1 1)
          (broadcastInDim S8x1 ![] bcast_S_S8x1 (V (Proc.devRef .tc main_cst_4) : FVec Ideal S_ .f32))
          (broadcastInDim S8x1 ![] bcast_S_S8x1 (V (Proc.devRef .tc main_cst_5) : FVec Ideal S_ .f32)) := by
  after_results
  rfl
private theorem choice0_keep_v23 : StableHlo.after hostOps1_1 V (Proc.devRef .tc main_v23) = V (Proc.devRef .tc main_v23) := by
  after_results
private theorem choice0_keep_v33 : StableHlo.after hostOps1_1 V (Proc.devRef .tc main_v33) = V (Proc.devRef .tc main_v33) := by
  after_results
private theorem choice0_keep_v35 : StableHlo.after hostOps1_1 V (Proc.devRef .tc main_v35) = V (Proc.devRef .tc main_v35) := by
  after_results
private theorem choice0_keep_v37 : StableHlo.after hostOps1_1 V (Proc.devRef .tc main_v37) = V (Proc.devRef .tc main_v37) := by
  after_results

/-- The second outlined choice: the bit column spread over the features chooses between a table and a column spread likewise. -/
private theorem choice1_v41 :
    (StableHlo.after hostOps1_2 V (Proc.devRef .tc main_v41) : FVec Ideal S8x1024 .f32)
      = select (broadcastInDim S8x1024 ![0, 1] bcast_S8x1_S8x1024_0_1 (V (Proc.devRef .tc main_v35) : IVec S8x1 1))
          (V (Proc.devRef .tc main_v37) : FVec Ideal S8x1024 .f32)
          (broadcastInDim S8x1024 ![0, 1] bcast_S8x1_S8x1024_0_1 (V (Proc.devRef .tc main_v40) : FVec Ideal S8x1 .f32)) := by
  after_results
  rfl
private theorem choice1_keep_v23 : StableHlo.after hostOps1_2 V (Proc.devRef .tc main_v23) = V (Proc.devRef .tc main_v23) := by
  after_results
private theorem choice1_keep_v33 : StableHlo.after hostOps1_2 V (Proc.devRef .tc main_v33) = V (Proc.devRef .tc main_v33) := by
  after_results

/-- The stretch after it: β's row spread over the domains minus mean times scale; the count column against ones; a zero. -/
private theorem mid_v46 :
    (StableHlo.after hostOps1_3 V (Proc.devRef .tc main_v46) : FVec Ideal S8x1024 .f32)
      = preShift (V (Proc.devRef .tc main_arg3)) (V (Proc.devRef .tc main_v23)) (V (Proc.devRef .tc main_v41)) := by
  after_results
  rfl
private theorem mid_v43 :
    (StableHlo.after hostOps1_3 V (Proc.devRef .tc main_v43) : IVec S8x1 1)
      = cmpf .ogt (V (Proc.devRef .tc main_v33) : FVec Ideal S8x1 .f32) oneCol := by
  after_results
  rfl
private theorem mid_cst7 :
    (StableHlo.after hostOps1_3 V (Proc.devRef .tc main_cst_7) : FVec Ideal S_ .f32)
      = constant (F := Ideal) S_ .f32 0x00000000#32 := by
  after_results
private theorem mid_keep_v41 : StableHlo.after hostOps1_3 V (Proc.devRef .tc main_v41) = V (Proc.devRef .tc main_v41) := by
  after_results

/-- The third outlined choice: the bit column spread over the features chooses between a table and a constant spread likewise. -/
private theorem choice2_v47 :
    (StableHlo.after hostOps1_4 V (Proc.devRef .tc main_v47) : FVec Ideal S8x1024 .f32)
      = select (broadcastInDim S8x1024 ![0, 1] bcast_S8x1_S8x1024_0_1 (V (Proc.devRef .tc main_v43) : IVec S8x1 1))
          (V (Proc.devRef .tc main_v46) : FVec Ideal S8x1024 .f32)
          (broadcastInDim S8x1024 ![] bcast_S_S8x1024 (V (Proc.devRef .tc main_cst_7) : FVec Ideal S_ .f32)) := by
  after_results
  rfl
private theorem choice2_keep_v41 : StableHlo.after hostOps1_4 V (Proc.devRef .tc main_v41) = V (Proc.devRef .tc main_v41) := by
  after_results

/-- The last stretch: each table's leading part and remainder. -/
private theorem last_v48 :
    (StableHlo.after hostOps1_5 V (Proc.devRef .tc main_v48) : FVec Ideal S8x1024 .bf16) = splitHi (V (Proc.devRef .tc main_v41)) := by
  after_results
  rfl
private theorem last_v51 :
    (StableHlo.after hostOps1_5 V (Proc.devRef .tc main_v51) : FVec Ideal S8x1024 .bf16) = splitLo (V (Proc.devRef .tc main_v41)) := by
  after_results
  rfl
private theorem last_v52 :
    (StableHlo.after hostOps1_5 V (Proc.devRef .tc main_v52) : FVec Ideal S8x1024 .bf16) = splitHi (V (Proc.devRef .tc main_v47)) := by
  after_results
  rfl
private theorem last_v55 :
    (StableHlo.after hostOps1_5 V (Proc.devRef .tc main_v55) : FVec Ideal S8x1024 .bf16) = splitLo (V (Proc.devRef .tc main_v47)) := by
  after_results
  rfl

end Stretches

/-- The first outlined choice: a domain with exactly one row gets scale 1, any other 0. -/
private theorem W4_v40 (c : Dev nD) :
    (W4 m ρ c (Proc.devRef .tc main_v40) : FVec Ideal S8x1 .f32) = loneCol (countsArr m ρ c) :=
  (choice0_v40 (W3 m ρ c)).trans (by rw [W3_v39, W3_cst4, W3_cst5]; rfl)
private theorem W4_v23 (c : Dev nD) : W4 m ρ c (Proc.devRef .tc main_v23) = W3 m ρ c (Proc.devRef .tc main_v23) :=
  choice0_keep_v23 (W3 m ρ c)
private theorem W4_v33 (c : Dev nD) : W4 m ρ c (Proc.devRef .tc main_v33) = W3 m ρ c (Proc.devRef .tc main_v33) :=
  choice0_keep_v33 (W3 m ρ c)
private theorem W4_v35 (c : Dev nD) : W4 m ρ c (Proc.devRef .tc main_v35) = W3 m ρ c (Proc.devRef .tc main_v35) :=
  choice0_keep_v35 (W3 m ρ c)
private theorem W4_v37 (c : Dev nD) : W4 m ρ c (Proc.devRef .tc main_v37) = W3 m ρ c (Proc.devRef .tc main_v37) :=
  choice0_keep_v37 (W3 m ρ c)

/-- The second outlined choice: the scale table. -/
private theorem W5_v41 (c : Dev nD) :
    (W5 m ρ c (Proc.devRef .tc main_v41) : FVec Ideal S8x1024 .f32)
      = scaleT (sumsArr m ρ c) (squaresArr m ρ c) (countsArr m ρ c) (W2 m ρ c (Proc.devRef .tc main_arg2)) :=
  (choice1_v41 (W4 m ρ c)).trans (by rw [W4_v35, W4_v37, W4_v40, W3_v35, W3_v37]; rfl)
private theorem W5_v23 (c : Dev nD) : W5 m ρ c (Proc.devRef .tc main_v23) = W4 m ρ c (Proc.devRef .tc main_v23) :=
  choice1_keep_v23 (W4 m ρ c)
private theorem W5_v33 (c : Dev nD) : W5 m ρ c (Proc.devRef .tc main_v33) = W4 m ρ c (Proc.devRef .tc main_v33) :=
  choice1_keep_v33 (W4 m ρ c)

/-- β reaches the stretch that reads it as launched. -/
private theorem W5_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_forall_not_mem (b := Proc.devRef .tc main_arg3) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := StableHlo.after_of_forall_not_mem (b := Proc.devRef .tc main_arg3) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The stretch after it: β minus mean times scale, and the "more than one row" bit again. -/
private theorem W6_v46 (c : Dev nD) :
    (W6 m ρ c (Proc.devRef .tc main_v46) : FVec Ideal S8x1024 .f32)
      = preShift (W5 m ρ c (Proc.devRef .tc main_arg3)) (meanTab (sumsArr m ρ c) (countsArr m ρ c))
          (scaleT (sumsArr m ρ c) (squaresArr m ρ c) (countsArr m ρ c) (W2 m ρ c (Proc.devRef .tc main_arg2))) :=
  (mid_v46 (W5 m ρ c)).trans (by rw [W5_v23, W4_v23, W3_v23, W5_v41])
private theorem W6_v43 (c : Dev nD) :
    (W6 m ρ c (Proc.devRef .tc main_v43) : IVec S8x1 1) = gtBit (countsArr m ρ c) :=
  (mid_v43 (W5 m ρ c)).trans (by rw [W5_v33, W4_v33, W3_v33]; rfl)
private theorem W6_cst7 (c : Dev nD) :
    (W6 m ρ c (Proc.devRef .tc main_cst_7) : FVec Ideal S_ .f32) = constant (F := Ideal) S_ .f32 0x00000000#32 :=
  mid_cst7 (W5 m ρ c)
private theorem W6_v41 (c : Dev nD) : W6 m ρ c (Proc.devRef .tc main_v41) = W5 m ρ c (Proc.devRef .tc main_v41) :=
  mid_keep_v41 (W5 m ρ c)

/-- The third outlined choice: the shift table. -/
private theorem W7_v47 (c : Dev nD) :
    (W7 m ρ c (Proc.devRef .tc main_v47) : FVec Ideal S8x1024 .f32)
      = shiftT (sumsArr m ρ c) (squaresArr m ρ c) (countsArr m ρ c) (W2 m ρ c (Proc.devRef .tc main_arg2))
          (W5 m ρ c (Proc.devRef .tc main_arg3)) :=
  (choice2_v47 (W6 m ρ c)).trans (by rw [W6_v43, W6_v46, W6_cst7]; rfl)
private theorem W7_v41 (c : Dev nD) : W7 m ρ c (Proc.devRef .tc main_v41) = W6 m ρ c (Proc.devRef .tc main_v41) :=
  choice2_keep_v41 (W6 m ρ c)

/-! ### The four tables as the second pass finds them -/

/-- The scale table's leading part as the second pass finds it. -/
theorem scale_hi (c : Dev nD) (d : Fin 8) (f : Fin 1024) :
    (V8 m ρ c (Pipeline.arrRef spec1 2) : S8x1024.Idx → EReal) (ix2 d f)
      = scaleTab eps (sumAll m ρ c d f) (sqAll m ρ c d f) (cntAll m ρ c d)
          ((m ((c.tc : Thread nD τ).loc main_arg2) : S1x1024.Idx → EReal) (ix2 0 f)) := by
  have h : (V8 m ρ c (Pipeline.arrRef spec1 2) : S8x1024.Idx → EReal) = splitHi (W7 m ρ c (Proc.devRef .tc main_v41)) :=
    last_v48 (W7 m ρ c)
  rw [h, splitHi_apply, W7_v41, W6_v41, W5_v41, scaleT_apply, addHalves_apply, addHalves_apply, cntVec_apply, W2_arg2]
  rfl

/-- The scale table's remainder. -/
theorem scale_lo (c : Dev nD) (d : Fin 8) (f : Fin 1024) :
    (V8 m ρ c (Pipeline.arrRef spec1 3) : S8x1024.Idx → EReal) (ix2 d f)
      = scaleTab eps (sumAll m ρ c d f) (sqAll m ρ c d f) (cntAll m ρ c d)
          ((m ((c.tc : Thread nD τ).loc main_arg2) : S1x1024.Idx → EReal) (ix2 0 f))
        - scaleTab eps (sumAll m ρ c d f) (sqAll m ρ c d f) (cntAll m ρ c d)
          ((m ((c.tc : Thread nD τ).loc main_arg2) : S1x1024.Idx → EReal) (ix2 0 f)) := by
  have h : (V8 m ρ c (Pipeline.arrRef spec1 3) : S8x1024.Idx → EReal) = splitLo (W7 m ρ c (Proc.devRef .tc main_v41)) :=
    last_v51 (W7 m ρ c)
  rw [h, splitLo_apply, W7_v41, W6_v41, W5_v41, scaleT_apply, addHalves_apply, addHalves_apply, cntVec_apply, W2_arg2]
  rfl

/-- The shift table's leading part. -/
theorem shift_hi (c : Dev nD) (d : Fin 8) (f : Fin 1024) :
    (V8 m ρ c (Pipeline.arrRef spec1 4) : S8x1024.Idx → EReal) (ix2 d f)
      = shiftTab eps (sumAll m ρ c d f) (sqAll m ρ c d f) (cntAll m ρ c d)
          ((m ((c.tc : Thread nD τ).loc main_arg2) : S1x1024.Idx → EReal) (ix2 0 f))
          ((m ((c.tc : Thread nD τ).loc main_arg3) : S1x1024.Idx → EReal) (ix2 0 f)) := by
  have h : (V8 m ρ c (Pipeline.arrRef spec1 4) : S8x1024.Idx → EReal) = splitHi (W7 m ρ c (Proc.devRef .tc main_v47)) :=
    last_v52 (W7 m ρ c)
  rw [h, splitHi_apply, W7_v47, shiftT_apply, addHalves_apply, addHalves_apply, cntVec_apply, W2_arg2, W5_arg3]
  rfl

/-- The shift table's remainder. -/
theorem shift_lo (c : Dev nD) (d : Fin 8) (f : Fin 1024) :
    (V8 m ρ c (Pipeline.arrRef spec1 5) : S8x1024.Idx → EReal) (ix2 d f)
      = shiftTab eps (sumAll m ρ c d f) (sqAll m ρ c d f) (cntAll m ρ c d)
          ((m ((c.tc : Thread nD τ).loc main_arg2) : S1x1024.Idx → EReal) (ix2 0 f))
          ((m ((c.tc : Thread nD τ).loc main_arg3) : S1x1024.Idx → EReal) (ix2 0 f))
        - shiftTab eps (sumAll m ρ c d f) (sqAll m ρ c d f) (cntAll m ρ c d)
          ((m ((c.tc : Thread nD τ).loc main_arg2) : S1x1024.Idx → EReal) (ix2 0 f))
          ((m ((c.tc : Thread nD τ).loc main_arg3) : S1x1024.Idx → EReal) (ix2 0 f)) := by
  have h : (V8 m ρ c (Pipeline.arrRef spec1 5) : S8x1024.Idx → EReal) = splitLo (W7 m ρ c (Proc.devRef .tc main_v47)) :=
    last_v55 (W7 m ρ c)
  rw [h, splitLo_apply, W7_v47, shiftT_apply, addHalves_apply, addHalves_apply, cntVec_apply, W2_arg2, W5_arg3]
  rfl

end Cert.KernelIdeal.HostTables

end
-- ==== Proof.KernelValue.lean ====
/-
  The kernel's result array, entry by entry, is the one-pass normalised entry of its column.

  The normalising pass leaves at row `e`, feature `f`: the value times (the one-hot row of the label against the scale
  table + against its remainder) plus the same for the shift table. A label in range picks exactly its own domain's
  entries. The tables are `scaleTab` / `shiftTab` of the domain's sum, sum of squares and count, each the two halves'
  blocks of the statistics pass added; a half's block is the sum of its 64 tiles' contributions, the remainder part
  `x − x` of every real value being 0; and the two halves' tiles together are all the rows, so the one-hot tile sums are
  the sums over the rows of the domain.
-/
import proofs.«414652_j38087769981102_3_alg».proof.Proof.Gen.KernelIdeal.Frame
import proofs.«414652_j38087769981102_3_alg».proof.Proof.DomainStats
import proofs.«414652_j38087769981102_3_alg».proof.Proof.SumTiles
import proofs.«414652_j38087769981102_3_alg».proof.Proof.StatsRegion
import proofs.«414652_j38087769981102_3_alg».proof.Proof.NormalizeRegion
import proofs.«414652_j38087769981102_3_alg».proof.Proof.HostTables
import Idealize.ShloMosaic.Lib.ValueIdx

set_option maxRecDepth 16384

noncomputable section

namespace Cert.KernelIdeal.KernelValue

open Cert.KernelIdeal Cert.KernelIdeal.Gen Cert.DomainNorm Idealize.ShloMosaic Idealize.ShloMosaic.ValueIdx Idealize.ShloMosaic.TcCoe Idealize.SL.Sem Finset

variable (m : (ℓ : Loc nD τ sig) → Buf (Elt Ideal) ℓ) (ρ : Dev nD → PrngReg)

/-- The launched arrays under their literal types. -/
abbrev xArr (c : Dev nD) : S65536x1024.Idx → EReal := m ((c.tc : Thread nD τ).loc main_arg0)
abbrev yArr (c : Dev nD) : S65536.Idx → BitVec 32 := m ((c.tc : Thread nD τ).loc main_arg1)
abbrev gArr (c : Dev nD) : S1x1024.Idx → EReal := m ((c.tc : Thread nD τ).loc main_arg2)
abbrev bArr (c : Dev nD) : S1x1024.Idx → EReal := m ((c.tc : Thread nD τ).loc main_arg3)

/-- A real number minus itself is 0 on the extended reals. -/
theorem coe_sub_self (a : EReal) (h : ∃ r : ℝ, a = (r : EReal)) : a - a = 0 := by
  obtain ⟨r, rfl⟩ := h
  rw [← EReal.coe_sub, sub_self, EReal.coe_zero]

section Stats

variable (c : Dev nD) (hx : ∀ i : S65536x1024.Idx, ∃ r : ℝ, xArr m c i = (r : EReal))
  (hy : ∀ e : Fin 65536, 0 ≤ (yArr m c (ix1 e)).toInt ∧ (yArr m c (ix1 e)).toInt < 8)

/-- A half's block of sums: its 64 tiles' sums of the launched values (the remainders vanish). -/
theorem half_sums (hx : ∀ i : S65536x1024.Idx, ∃ r : ℝ, xArr m c i = (r : EReal)) (k : Fin 2) (d : Fin 8) (f : Fin 1024) :
    HostTables.sumsArr m ρ c (ix3 k d f)
      = ∑ i : Fin 64, tileDot (fun e => xArr m c (ix2 e f)) (fun e => yArr m c (ix1 e)) k i d := by
  have h0 : HostTables.sumsArr m ρ c (ix3 k d f)
      = ((dat0 (F := Ideal) (V1 m ρ) c).arrAt 2 cfg0.N : S2x8x1024.Idx → EReal) (ix3 k d f) :=
    (congrFun (hF0 m ρ c 2) (ix3 k d f)).symm
  rw [h0, StatsRegion.sums_after (V1 m ρ) c k d f]
  refine Finset.sum_congr rfl fun i _ => ?_
  have hxs : (StatsRegion.xs (V1 m ρ) c : S65536x1024.Idx → EReal) = xArr m c := HostTables.entry0_x m ρ c
  have hys : (fun e : Fin 65536 => StatsRegion.ys (V1 m ρ) c (ix2 e 0)) = fun e => yArr m c (ix1 e) :=
    funext fun e => HostTables.entry0_y m ρ c e
  rw [hys, hxs, tileDot_zero (fun e => xArr m c (ix2 e f) - xArr m c (ix2 e f))
    (fun e => coe_sub_self _ (hx _)), add_zero]

/-- A half's block of sums of squares. -/
theorem half_squares (hx : ∀ i : S65536x1024.Idx, ∃ r : ℝ, xArr m c i = (r : EReal)) (k : Fin 2) (d : Fin 8) (f : Fin 1024) :
    HostTables.squaresArr m ρ c (ix3 k d f)
      = ∑ i : Fin 64, tileDot (fun e => xArr m c (ix2 e f) * xArr m c (ix2 e f)) (fun e => yArr m c (ix1 e)) k i d := by
  have h0 : HostTables.squaresArr m ρ c (ix3 k d f)
      = ((dat0 (F := Ideal) (V1 m ρ) c).arrAt 3 cfg0.N : S2x8x1024.Idx → EReal) (ix3 k d f) :=
    (congrFun (hF0 m ρ c 3) (ix3 k d f)).symm
  rw [h0, StatsRegion.squares_after (V1 m ρ) c k d f]
  refine Finset.sum_congr rfl fun i _ => ?_
  have hxs : (StatsRegion.xs (V1 m ρ) c : S65536x1024.Idx → EReal) = xArr m c := HostTables.entry0_x m ρ c
  have hys : (fun e : Fin 65536 => StatsRegion.ys (V1 m ρ) c (ix2 e 0)) = fun e => yArr m c (ix1 e) :=
    funext fun e => HostTables.entry0_y m ρ c e
  have hsq : ∀ i : S65536x1024.Idx, ∃ r : ℝ, xArr m c i * xArr m c i = (r : EReal) := fun i => by
    obtain ⟨r, hr⟩ := hx i
    exact ⟨r * r, by rw [hr, ← EReal.coe_mul]⟩
  rw [hys, hxs, tileDot_zero (fun e => xArr m c (ix2 e f) * xArr m c (ix2 e f) - xArr m c (ix2 e f) * xArr m c (ix2 e f))
    (fun e => coe_sub_self _ (hsq _)), add_zero]

/-- A half's block of counts. -/
theorem half_counts (k : Fin 2) (d : Fin 8) (j : Fin 128) :
    HostTables.countsArr m ρ c (ix3 k d j) = ∑ i : Fin 64, tileCount (fun e => yArr m c (ix1 e)) k i d := by
  have h0 : HostTables.countsArr m ρ c (ix3 k d j)
      = ((dat0 (F := Ideal) (V1 m ρ) c).arrAt 4 cfg0.N : S2x8x128.Idx → EReal) (ix3 k d j) :=
    (congrFun (hF0 m ρ c 4) (ix3 k d j)).symm
  rw [h0, StatsRegion.counts_after (V1 m ρ) c k d j]
  have hys : (fun e : Fin 65536 => StatsRegion.ys (V1 m ρ) c (ix2 e 0)) = fun e => yArr m c (ix1 e) :=
    funext fun e => HostTables.entry0_y m ρ c e
  rw [hys]

/-- The signed label of a row. -/
abbrev lab (c : Dev nD) (e : Fin 65536) : ℤ := (yArr m c (ix1 e)).toInt

/-- Domain `d`'s sum over both halves is the sum over the rows labelled `d`. -/
theorem sumAll_eq (hx : ∀ i : S65536x1024.Idx, ∃ r : ℝ, xArr m c i = (r : EReal))
    (hy : ∀ e : Fin 65536, 0 ≤ (yArr m c (ix1 e)).toInt ∧ (yArr m c (ix1 e)).toInt < 8) (d : Fin 8) (f : Fin 1024) :
    HostTables.sumAll m ρ c d f = sumOf (lab m c) (fun e => xArr m c (ix2 e f)) (d.val : ℤ) := by
  unfold HostTables.sumAll
  rw [half_sums m ρ c hx, half_sums m ρ c hx]
  exact tiles_eq_sumOf _ (fun e => yArr m c (ix1 e)) hy d

theorem sqAll_eq (hx : ∀ i : S65536x1024.Idx, ∃ r : ℝ, xArr m c i = (r : EReal))
    (hy : ∀ e : Fin 65536, 0 ≤ (yArr m c (ix1 e)).toInt ∧ (yArr m c (ix1 e)).toInt < 8) (d : Fin 8) (f : Fin 1024) :
    HostTables.sqAll m ρ c d f
      = sumOf (lab m c) (fun e => xArr m c (ix2 e f) * xArr m c (ix2 e f)) (d.val : ℤ) := by
  unfold HostTables.sqAll
  rw [half_squares m ρ c hx, half_squares m ρ c hx]
  exact tiles_eq_sumOf _ (fun e => yArr m c (ix1 e)) hy d

theorem cntAll_eq (hy : ∀ e : Fin 65536, 0 ≤ (yArr m c (ix1 e)).toInt ∧ (yArr m c (ix1 e)).toInt < 8) (d : Fin 8) :
    HostTables.cntAll m ρ c d = cntOf (lab m c) (d.val : ℤ) := by
  unfold HostTables.cntAll
  rw [half_counts m ρ c, half_counts m ρ c]
  exact tileCounts_eq_cntOf (fun e => yArr m c (ix1 e)) hy d

end Stats

/-- THE KERNEL'S VALUE: the result array at row `e`, feature `f`. -/
theorem kernel_value (c : Dev nD) (hx : ∀ i : S65536x1024.Idx, ∃ r : ℝ, xArr m c i = (r : EReal))
    (hy : ∀ e : Fin 65536, 0 ≤ (yArr m c (ix1 e)).toInt ∧ (yArr m c (ix1 e)).toInt < 8)
    (e : Fin 65536) (f : Fin 1024) :
    (W9 m ρ c (Proc.devRef .tc main_v56) : S65536x1024.Idx → EReal) (ix2 e f)
      = kerVal eps (lab m c) (fun e' => xArr m c (ix2 e' f)) (gArr m c (ix2 0 f)) (bArr m c (ix2 0 f)) e := by
  -- the domain of row e
  have hd : ((⟨(yArr m c (ix1 e)).toInt.toNat, by have := hy e; omega⟩ : Fin 8).val : ℤ) = lab m c e := by
    have := hy e
    show ((yArr m c (ix1 e)).toInt.toNat : ℤ) = (yArr m c (ix1 e)).toInt
    omega
  have hW : (W9 m ρ c (Proc.devRef .tc main_v56) : S65536x1024.Idx → EReal) (ix2 e f)
      = ((dat1 (F := Ideal) (V8 m ρ) c).arrAt 6 cfg1.N : S65536x1024.Idx → EReal) (ix2 e f) :=
    congrFun (W9_arr m ρ c 6) (ix2 e f)
  rw [hW, NormalizeRegion.normalized_after (V8 m ρ) c e f]
  have hxs : (NormalizeRegion.xs (V8 m ρ) c : S65536x1024.Idx → EReal) = xArr m c := HostTables.entry1_x m ρ c
  have hys : NormalizeRegion.ys (V8 m ρ) c (ix2 e 0) = yArr m c (ix1 e) := HostTables.entry1_y m ρ c e
  rw [hxs, hys,
    sum_oneHot_mul (yArr m c (ix1 e)) (hy e) (fun d => NormalizeRegion.scaleHi (V8 m ρ) c (ix2 d f)),
    sum_oneHot_mul (yArr m c (ix1 e)) (hy e) (fun d => NormalizeRegion.scaleLo (V8 m ρ) c (ix2 d f)),
    sum_oneHot_mul (yArr m c (ix1 e)) (hy e) (fun d => NormalizeRegion.shiftHi (V8 m ρ) c (ix2 d f)),
    sum_oneHot_mul (yArr m c (ix1 e)) (hy e) (fun d => NormalizeRegion.shiftLo (V8 m ρ) c (ix2 d f))]
  -- the row's domain, named
  generalize (⟨(yArr m c (ix1 e)).toInt.toNat, _⟩ : Fin 8) = d₀ at hd ⊢
  have h2 : NormalizeRegion.scaleHi (V8 m ρ) c (ix2 d₀ f) = _ := HostTables.scale_hi m ρ c d₀ f
  have h3 : NormalizeRegion.scaleLo (V8 m ρ) c (ix2 d₀ f) = _ := HostTables.scale_lo m ρ c d₀ f
  have h4 : NormalizeRegion.shiftHi (V8 m ρ) c (ix2 d₀ f) = _ := HostTables.shift_hi m ρ c d₀ f
  have h5 : NormalizeRegion.shiftLo (V8 m ρ) c (ix2 d₀ f) = _ := HostTables.shift_lo m ρ c d₀ f
  rw [h2, h3, h4, h5, sumAll_eq m ρ c hx hy, sqAll_eq m ρ c hx hy, cntAll_eq m ρ c hy, hd]
  rfl

end Cert.KernelIdeal.KernelValue

end
-- ==== Proof.LibIndexed.lean ====
/-
  Row lookups and accumulating scatters read at an index, and the counting identity that joins them.

  A row lookup `x[idx]` of a table `x : [N, K]` at start words `idx : [R, 1]` reads, at `(e, k)`, column `k` of
  the row the word `idx[e, 0]` names: read signed and clamped into `[0, N − 1]`. An accumulating scatter into a
  vector `[N]`, or into the rows of a table `[N, K]`, at start words `idx : [E, 1]`, lands update `e` at the
  position its word names, read signed and NOT clamped: a word outside `[0, N)` lands nowhere. At the exact
  values such a scatter is the operand plus the sum of the updates that land on the element. Last, a sum of
  counts times values is the sum of the values over the counted things: on the extended reals too, since a
  count is a sum of ones and `(a + b) · x = a · x + b · x` holds for non-negative `a`, `b`.
-/
import Idealize.ShloMosaic.Lib.ValueIdx
import Idealize.ShloMosaic.Lib.ValueIdxRank1
import Idealize.ShloMosaic.PureOps.Ideal
import Idealize.ShloMosaic.PureOps.Ideal.Laws

noncomputable section

namespace Cert.Rgcn.Lib

open Idealize.ShloMosaic Idealize.ShloMosaic.ValueIdx

/-- THE ROW LOOKUP READ AT `(e, k)`. -/
theorem gather_rows_apply {α : Type} {N K R w : Nat} (hN : 0 < N)
    (d : GatherDims ⟨2, ![N, K]⟩ ⟨2, ![R, 1]⟩ ⟨2, ![R, K]⟩)
    (wf : GatherDims.WF ⟨2, ![N, K]⟩ ⟨2, ![R, 1]⟩ ⟨2, ![R, K]⟩ [1] [0] [] [0] [] 1 ![1, K])
    (hd : d = { offsetDims := [1], collapsedSliceDims := [0], operandBatchingDims := [], startIndicesBatchingDims := [], startIndexMap := [0], indexVectorDim := 1, sliceSizes := ![1, K], wf := wf })
    (x : (⟨2, ![N, K]⟩ : Shape).Idx → α) (idx : IVec ⟨2, ![R, 1]⟩ w) (e : Fin R) (k : Fin K) :
    Host.gather d x idx (ix2 e k) = x (ix2 ⟨min (idx (ix2 e (0 : Fin 1))).toInt.toNat (N - 1), by omega⟩ k) := by
  subst hd
  unfold Host.gather
  congr 1
  funext a
  refine Fin.ext ?_
  match a with
  | ⟨0, h0⟩ =>
    -- the row axis: collapsed and named by the start index map, so the coordinate is the clamped start alone
    show GatherDims.start _ (ix2 e k) idx ⟨0, h0⟩ + GatherDims.batchCoord _ (ix2 e k) ⟨0, h0⟩ + GatherDims.offCoord _ (ix2 e k) ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    have hmem : (⟨0, h0⟩ : Fin 2) ∈ ([0] : List (Fin 2)) := List.mem_singleton.mpr rfl
    unfold GatherDims.start
    rw [dif_pos hmem]
    -- the start's word is read at `(e, 0)`
    have hsi : GatherDims.siIdx ({ offsetDims := [1], collapsedSliceDims := [0], operandBatchingDims := [], startIndicesBatchingDims := [], startIndexMap := [0], indexVectorDim := 1, sliceSizes := ![1, K], wf := wf } : GatherDims ⟨2, ![N, K]⟩ ⟨2, ![R, 1]⟩ ⟨2, ![R, K]⟩) (ix2 e k)
        ⟨List.idxOf (⟨0, h0⟩ : Fin 2) ([0] : List (Fin 2)), List.idxOf_lt_length_iff.2 hmem⟩ = ix2 e (0 : Fin 1) := by
      funext b; refine Fin.ext ?_
      match b with
      | ⟨0, _⟩ => rfl
      | ⟨1, _⟩ => rfl
    rw [hsi]
    rfl
  | ⟨1, h1⟩ =>
    -- the column axis: not named by the start index map (start 0), kept as the one offset axis (offset `k`)
    show GatherDims.start _ (ix2 e k) idx ⟨1, h1⟩ + GatherDims.batchCoord _ (ix2 e k) ⟨1, h1⟩ + GatherDims.offCoord _ (ix2 e k) ⟨1, h1⟩ = _
    have hne : (⟨1, h1⟩ : Fin 2) ∉ ([0] : List (Fin 2)) := fun h =>
      absurd (Fin.ext_iff.mp (List.mem_singleton.mp h)) Nat.one_ne_zero
    have hkept : (⟨1, h1⟩ : Fin 2) ∈ GatherDims.sKept ({ offsetDims := [1], collapsedSliceDims := [0], operandBatchingDims := [], startIndicesBatchingDims := [], startIndexMap := [0], indexVectorDim := 1, sliceSizes := ![1, K], wf := wf } : GatherDims ⟨2, ![N, K]⟩ ⟨2, ![R, 1]⟩ ⟨2, ![R, K]⟩) :=
      (GatherDims.mem_sKept _ _).mpr ⟨hne, List.not_mem_nil⟩
    rw [GatherDims.batchCoord_eq_zero _ _ _ List.not_mem_nil]
    unfold GatherDims.start
    rw [dif_neg hne]
    unfold GatherDims.offCoord
    rw [dif_pos hkept]
    simp only [Nat.add_zero, Nat.zero_add]
    rfl

/-- Where update `e` of a scatter into a vector lands: at the position its start word names. -/
theorem scatter_vec_resultIdx {N E w : Nat}
    (d : ScatterDims ⟨1, ![N]⟩ ⟨2, ![E, 1]⟩ ⟨1, ![E]⟩)
    (wf : ScatterDims.WF ⟨1, ![N]⟩ ⟨2, ![E, 1]⟩ ⟨1, ![E]⟩ [] [0] [0] 1)
    (hd : d = { updateWindowDims := [], insertedWindowDims := [0], scatterDimsToOperandDims := [0], indexVectorDim := 1, wf := wf })
    (idx : IVec ⟨2, ![E, 1]⟩ w) (e : Fin E) (n : Fin N) :
    d.resultIdx? (ix1 e) idx = some (ix1 n) ↔ (idx (ix2 e (0 : Fin 1))).toInt = (n.val : ℤ) := by
  -- the start on the one operand axis is the start word read signed
  have hstart : ∀ a, d.start (ix1 e) idx a = (idx (ix2 e (0 : Fin 1))).toInt := by
    intro a
    obtain rfl : a = 0 := Subsingleton.elim _ _
    subst hd
    unfold ScatterDims.start
    rw [dif_pos (List.mem_singleton.mpr rfl)]
    congr 2
    funext b; refine Fin.ext ?_
    match b with
    | ⟨0, _⟩ => rfl
    | ⟨1, _⟩ => rfl
  -- the one operand axis is an inserted axis: its window coordinate is 0
  have hwin : ∀ a, d.window (ix1 e) a = 0 := by
    intro a
    obtain rfl : a = 0 := Subsingleton.elim _ _
    subst hd
    unfold ScatterDims.window
    rw [dif_neg]
    simp [ScatterDims.sKept, Shape.kept]
  have hsz : ∀ a, (⟨1, ![N]⟩ : Shape).size a = N := by
    intro a
    obtain rfl : a = 0 := Subsingleton.elim _ _
    rfl
  have hn := n.isLt
  unfold ScatterDims.resultIdx?
  split
  · rename_i h
    rw [Option.some.injEq]
    constructor
    · intro heq
      have h0 : (d.start (ix1 e) idx 0 + (d.window (ix1 e) 0 : ℤ)).toNat = n.val :=
        congrArg Fin.val (congrFun heq 0)
      have h1 := h 0
      rw [hstart, hwin] at h0 h1
      omega
    · intro heq
      funext a
      obtain rfl : a = 0 := Subsingleton.elim _ _
      refine Fin.ext ?_
      show (d.start (ix1 e) idx 0 + (d.window (ix1 e) 0 : ℤ)).toNat = n.val
      rw [hstart, hwin, heq]
      simp
  · rename_i h
    constructor
    · intro h'; cases h'
    · intro heq
      exfalso; apply h
      intro a
      rw [hstart, hwin, hsz, heq]
      omega

/-- Where update `(e, k')` of a scatter into the rows of a table lands: in the row its start word names, at column `k'`. -/
theorem scatter_rows_resultIdx {N K E w : Nat}
    (d : ScatterDims ⟨2, ![N, K]⟩ ⟨2, ![E, 1]⟩ ⟨2, ![E, K]⟩)
    (wf : ScatterDims.WF ⟨2, ![N, K]⟩ ⟨2, ![E, 1]⟩ ⟨2, ![E, K]⟩ [1] [0] [0] 1)
    (hd : d = { updateWindowDims := [1], insertedWindowDims := [0], scatterDimsToOperandDims := [0], indexVectorDim := 1, wf := wf })
    (idx : IVec ⟨2, ![E, 1]⟩ w) (e : Fin E) (k' : Fin K) (n : Fin N) (k : Fin K) :
    d.resultIdx? (ix2 e k') idx = some (ix2 n k) ↔ (idx (ix2 e (0 : Fin 1))).toInt = (n.val : ℤ) ∧ k' = k := by
  -- on the row axis the start is the start word read signed, on the column axis it is 0
  have hstart0 : d.start (ix2 e k') idx 0 = (idx (ix2 e (0 : Fin 1))).toInt := by
    subst hd
    unfold ScatterDims.start
    rw [dif_pos (List.mem_singleton.mpr rfl)]
    congr 2
    funext b; refine Fin.ext ?_
    match b with
    | ⟨0, _⟩ => rfl
    | ⟨1, _⟩ => rfl
  have hstart1 : d.start (ix2 e k') idx 1 = 0 := by
    subst hd
    unfold ScatterDims.start
    rw [dif_neg]
    simp
  -- the row axis is an inserted axis (window coordinate 0); the column axis is the one window axis
  have hwin0 : d.window (ix2 e k') 0 = 0 := by
    subst hd
    unfold ScatterDims.window
    rw [dif_neg]
    simp [ScatterDims.sKept, Shape.kept]
  have hwin1 : d.window (ix2 e k') 1 = k'.val := by
    subst hd
    unfold ScatterDims.window
    rw [dif_pos (by simp [ScatterDims.sKept, Shape.kept])]
    rfl
  have hn := n.isLt
  have hk := k.isLt
  have hk' := k'.isLt
  unfold ScatterDims.resultIdx?
  split
  · rename_i h
    rw [Option.some.injEq]
    constructor
    · intro heq
      have h0 : (d.start (ix2 e k') idx 0 + (d.window (ix2 e k') 0 : ℤ)).toNat = n.val :=
        congrArg Fin.val (congrFun heq 0)
      have h1 : (d.start (ix2 e k') idx 1 + (d.window (ix2 e k') 1 : ℤ)).toNat = k.val :=
        congrArg Fin.val (congrFun heq 1)
      have g0 := h 0
      rw [hstart0, hwin0] at h0 g0
      rw [hstart1, hwin1] at h1
      refine ⟨by omega, Fin.ext (by omega)⟩
    · rintro ⟨heq, rfl⟩
      funext a
      refine Fin.ext ?_
      match a with
      | ⟨0, _⟩ =>
        show (d.start (ix2 e k') idx 0 + (d.window (ix2 e k') 0 : ℤ)).toNat = n.val
        rw [hstart0, hwin0, heq]
        simp
      | ⟨1, _⟩ =>
        show (d.start (ix2 e k') idx 1 + (d.window (ix2 e k') 1 : ℤ)).toNat = k'.val
        rw [hstart1, hwin1]
        simp
  · rename_i h
    constructor
    · intro h'; cases h'
    · rintro ⟨heq, rfl⟩
      exfalso; apply h
      intro a
      match a with
      | ⟨0, _⟩ =>
        show 0 ≤ d.start (ix2 e k') idx 0 + (d.window (ix2 e k') 0 : ℤ) ∧ d.start (ix2 e k') idx 0 + (d.window (ix2 e k') 0 : ℤ) < (N : ℤ)
        rw [hstart0, hwin0, heq]
        omega
      | ⟨1, _⟩ =>
        show 0 ≤ d.start (ix2 e k') idx 1 + (d.window (ix2 e k') 1 : ℤ) ∧ d.start (ix2 e k') idx 1 + (d.window (ix2 e k') 1 : ℤ) < (K : ℤ)
        rw [hstart1, hwin1]
        omega

/-- THE ACCUMULATING SCATTER INTO A VECTOR, at the exact values, read at `n`. -/
theorem scatterAdd_vec_apply {N E w : Nat}
    (d : ScatterDims ⟨1, ![N]⟩ ⟨2, ![E, 1]⟩ ⟨1, ![E]⟩)
    (wf : ScatterDims.WF ⟨1, ![N]⟩ ⟨2, ![E, 1]⟩ ⟨1, ![E]⟩ [] [0] [0] 1)
    (hd : d = { updateWindowDims := [], insertedWindowDims := [0], scatterDimsToOperandDims := [0], indexVectorDim := 1, wf := wf })
    (x : FVec Ideal ⟨1, ![N]⟩ .f32) (idx : IVec ⟨2, ![E, 1]⟩ w) (upd : FVec Ideal ⟨1, ![E]⟩ .f32) (n : Fin N) :
    Host.scatterAdd (F := Ideal) d x idx upd (ix1 n)
      = x (ix1 n) + ∑ e ∈ Finset.univ.filter (fun e : Fin E => (idx (ix2 e (0 : Fin 1))).toInt = (n.val : ℤ)), upd (ix1 e) := by
  unfold Host.scatterAdd
  rw [Ideal.hostScatterAdd_def]
  unfold Ideal.hostScatterAdd
  congr 1
  -- both sums as sums of indicator terms, the left one re-indexed by the update's one coordinate
  rw [Finset.sum_filter, Finset.sum_filter, ← Equiv.sum_comp (idxEquiv1 (n := E)).symm]
  refine Finset.sum_congr rfl (fun e _ => ?_)
  show (if d.resultIdx? (ix1 e) idx = some (ix1 n) then upd (ix1 e) else 0) = _
  simp only [scatter_vec_resultIdx d wf hd idx e n]

/-- THE ACCUMULATING SCATTER INTO THE ROWS OF A TABLE, at the exact values, read at `(n, k)`. -/
theorem scatterAdd_rows_apply {N K E w : Nat}
    (d : ScatterDims ⟨2, ![N, K]⟩ ⟨2, ![E, 1]⟩ ⟨2, ![E, K]⟩)
    (wf : ScatterDims.WF ⟨2, ![N, K]⟩ ⟨2, ![E, 1]⟩ ⟨2, ![E, K]⟩ [1] [0] [0] 1)
    (hd : d = { updateWindowDims := [1], insertedWindowDims := [0], scatterDimsToOperandDims := [0], indexVectorDim := 1, wf := wf })
    (x : FVec Ideal ⟨2, ![N, K]⟩ .f32) (idx : IVec ⟨2, ![E, 1]⟩ w) (upd : FVec Ideal ⟨2, ![E, K]⟩ .f32) (n : Fin N) (k : Fin K) :
    Host.scatterAdd (F := Ideal) d x idx upd (ix2 n k)
      = x (ix2 n k) + ∑ e ∈ Finset.univ.filter (fun e : Fin E => (idx (ix2 e (0 : Fin 1))).toInt = (n.val : ℤ)), upd (ix2 e k) := by
  unfold Host.scatterAdd
  rw [Ideal.hostScatterAdd_def]
  unfold Ideal.hostScatterAdd
  congr 1
  -- both sums as sums of indicator terms, the left one as a double sum over the update's two coordinates
  rw [Finset.sum_filter, Finset.sum_filter, sum_idx2]
  refine Finset.sum_congr rfl (fun e _ => ?_)
  simp only [scatter_rows_resultIdx d wf hd idx e _ n k]
  -- the inner sum over the columns keeps the term at column k alone
  by_cases h : (idx (ix2 e (0 : Fin 1))).toInt = (n.val : ℤ)
  · simp only [h, true_and, if_true]
    rw [Finset.sum_ite_eq' Finset.univ k (fun b => upd (ix2 e b))]
    simp
  · simp only [h, false_and, if_false, Finset.sum_const_zero]

/-- COUNTS TIMES VALUES: the sum over `s` of (the number of `e` with `P e` and `src e = s`) times `f s` is the
    sum of `f (src e)` over the `e` with `P e`; on the extended reals, with no finiteness. -/
theorem sum_count_mul {ι σ : Type} [Fintype ι] [Fintype σ] [DecidableEq σ] (P : ι → Prop) [DecidablePred P]
    (src : ι → σ) (f : σ → EReal) :
    (∑ s : σ, (∑ _e ∈ Finset.univ.filter (fun e : ι => P e ∧ src e = s), (1 : EReal)) * f s)
      = ∑ e ∈ Finset.univ.filter P, f (src e) := by
  classical
  -- a count (a sum of ones) times `x` is the sum of `x` over the counted set: the count is non-negative
  have hcount : ∀ (A : Finset ι) (x : EReal), (∑ _e ∈ A, (1 : EReal)) * x = ∑ _e ∈ A, x := by
    intro A x
    induction A using Finset.induction_on with
    | empty => simp
    | insert a s ha ih =>
      rw [Finset.sum_insert ha, Finset.sum_insert ha,
        EReal.right_distrib_of_nonneg zero_le_one (Finset.sum_nonneg (fun _ _ => zero_le_one)), one_mul, ih]
  -- each summand as a sum over all `e` of an indicator, then exchange the two sums
  have h1 : ∀ s : σ, (∑ _e ∈ Finset.univ.filter (fun e : ι => P e ∧ src e = s), (1 : EReal)) * f s
      = ∑ e : ι, if P e ∧ src e = s then f s else 0 := by
    intro s
    rw [hcount, Finset.sum_filter]
  rw [Finset.sum_congr rfl (fun s _ => h1 s), Finset.sum_comm, Finset.sum_filter]
  refine Finset.sum_congr rfl (fun e _ => ?_)
  by_cases hP : P e
  · simp [hP]
  · simp [hP]

end Cert.Rgcn.Lib

end
-- ==== Proof.LibGatherElem.lean ====
/-
  A `stablehlo.gather` that picks single ELEMENTS, read at an index.

  Two shapes of it, both with every operand axis collapsed (slice sizes all 1, no offset axis, no batching axis) and
  the index vector on the last axis of the start indices.  From a vector `[N]` at start indices `[R, 1]`: result
  element `r` is the vector at the start index `idx[r, 0]`, read as a signed integer and clamped into `[0, N - 1]`.
  From a table `[N, K]` at start indices `[R, 2]`: result element `r` is the table at row `idx[r, 0]` and column
  `idx[r, 1]`, each read signed and clamped into its axis.  (StableHLO clamps every start index so that the slice
  lies inside the operand; with slices of one element that is the clamp of the index itself.)
-/
import Idealize.ShloMosaic.Lib.ValueIdx

noncomputable section

namespace Cert.LibGatherElem

open Idealize.ShloMosaic Idealize.ShloMosaic.ValueIdx

variable {α : Type}

/-- The dimension numbers of an element gather from a vector `[N]` at start indices `[R, 1]` into `[R]`. -/
abbrev vecDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Result element `r` of the vector gather: the vector at the clamped signed start index `idx[r, 0]`. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecDims N R wf) x idx (ix1 r)
      = x (ix1 ⟨min (idx (ix2 r ⟨0, Nat.one_pos⟩)).toInt.toNat (N - 1), by omega⟩) := by
  -- the gather reads the operand at its operand index; compare the two indices on the operand's one axis
  show x ((vecDims N R wf).operandIdx (ix1 r) idx) = _
  refine congrArg x (funext fun a => ?_)
  have ha : a = (0 : Fin 1) := Subsingleton.elim _ _
  subst ha
  apply Fin.ext
  show (vecDims N R wf).start (ix1 r) idx 0 + (vecDims N R wf).batchCoord (ix1 r) 0
      + (vecDims N R wf).offCoord (ix1 r) 0 = _
  -- no batching axis, and axis 0 is collapsed: only the clamped start is left
  have hb : (vecDims N R wf).batchCoord (ix1 r) 0 = 0 :=
    GatherDims.batchCoord_eq_zero _ _ _ List.not_mem_nil
  have ho : (vecDims N R wf).offCoord (ix1 r) 0 = 0 :=
    GatherDims.offCoord_eq_zero _ _ _ fun h =>
      ((GatherDims.mem_sKept _ _).mp h).1 (List.mem_singleton.mpr rfl)
  simp only [hb, ho, Nat.add_zero]
  -- axis 0 is the start index map's entry 0, so its start index is read at `(r, 0)`
  have hm : (0 : Fin 1) ∈ (vecDims N R wf).startIndexMap := List.mem_singleton.mpr rfl
  have hsi : (vecDims N R wf).siIdx (ix1 r)
      ⟨List.idxOf (0 : Fin 1) (vecDims N R wf).startIndexMap, List.idxOf_lt_length_iff.2 hm⟩
        = ix2 r ⟨0, Nat.one_pos⟩ := by
    funext b
    apply Fin.ext
    match b with
    | ⟨0, _⟩ => rfl
    | ⟨1, _⟩ => rfl
  unfold GatherDims.start
  rw [dif_pos hm, hsi]
  -- the clamp's upper end is the extent `N` less the slice size `1`
  rfl

/-- The dimension numbers of an element gather from a table `[N, K]` at start indices `[R, 2]` into `[R]`. -/
abbrev pairDims (N K R : Nat) (wf : GatherDims.WF ⟨2, ![N, K]⟩ ⟨2, ![R, 2]⟩ ⟨1, ![R]⟩ [] [0, 1] [] [0, 1] [] 1 ![1, 1]) :
    GatherDims ⟨2, ![N, K]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

/-- Result element `r` of the table gather: the table at the clamped signed start indices `idx[r, 0]`, `idx[r, 1]`. -/
theorem gather_pair_apply {N K R w : Nat} (hN : 0 < N) (hK : 0 < K)
    (wf : GatherDims.WF ⟨2, ![N, K]⟩ ⟨2, ![R, 2]⟩ ⟨1, ![R]⟩ [] [0, 1] [] [0, 1] [] 1 ![1, 1])
    (x : (⟨2, ![N, K]⟩ : Shape).Idx → α) (idx : IVec ⟨2, ![R, 2]⟩ w) (r : Fin R) :
    Host.gather (pairDims N K R wf) x idx (ix1 r)
      = x (ix2 ⟨min (idx (ix2 r ⟨0, by omega⟩)).toInt.toNat (N - 1), by omega⟩
               ⟨min (idx (ix2 r ⟨1, by omega⟩)).toInt.toNat (K - 1), by omega⟩) := by
  -- the gather reads the operand at its operand index; compare the two indices axis by axis
  show x ((pairDims N K R wf).operandIdx (ix1 r) idx) = _
  refine congrArg x (funext fun a => ?_)
  apply Fin.ext
  show (pairDims N K R wf).start (ix1 r) idx a + (pairDims N K R wf).batchCoord (ix1 r) a
      + (pairDims N K R wf).offCoord (ix1 r) a = _
  -- no batching axis, and both axes are collapsed: only the clamped start is left
  have hb : (pairDims N K R wf).batchCoord (ix1 r) a = 0 :=
    GatherDims.batchCoord_eq_zero _ _ _ List.not_mem_nil
  have hc : a ∈ (pairDims N K R wf).collapsedSliceDims := by
    match a with
    | ⟨0, _⟩ => exact List.mem_cons_self
    | ⟨1, _⟩ => exact List.mem_cons_of_mem _ List.mem_cons_self
  have ho : (pairDims N K R wf).offCoord (ix1 r) a = 0 :=
    GatherDims.offCoord_eq_zero _ _ _ fun h => ((GatherDims.mem_sKept _ _).mp h).1 hc
  simp only [hb, ho, Nat.add_zero]
  -- axis `a` is the start index map's entry `a`, so its start index is read at `(r, a)`
  have hm : a ∈ (pairDims N K R wf).startIndexMap := hc
  unfold GatherDims.start
  rw [dif_pos hm]
  match a, hm with
  | ⟨0, _⟩, hm =>
    have hsi : (pairDims N K R wf).siIdx (ix1 r)
        ⟨List.idxOf (⟨0, by omega⟩ : Fin 2) (pairDims N K R wf).startIndexMap, List.idxOf_lt_length_iff.2 hm⟩
          = ix2 r ⟨0, by omega⟩ := by
      funext b
      apply Fin.ext
      match b with
      | ⟨0, _⟩ => rfl
      | ⟨1, _⟩ => rfl
    rw [hsi]
    rfl
  | ⟨1, _⟩, hm =>
    have hsi : (pairDims N K R wf).siIdx (ix1 r)
        ⟨List.idxOf (⟨1, by omega⟩ : Fin 2) (pairDims N K R wf).startIndexMap, List.idxOf_lt_length_iff.2 hm⟩
          = ix2 r ⟨1, by omega⟩ := by
      funext b
      apply Fin.ext
      match b with
      | ⟨0, _⟩ => rfl
      | ⟨1, _⟩ => rfl
    rw [hsi]
    rfl

end Cert.LibGatherElem

end
-- ==== Proof.RefValue.lean ====
/-
  The reference, read as values. Its three scatter-adds into zeros are the sums over the rows whose label word names
  the domain; its three row lookups read a table at the row's label (labels in range: the wrap of negatives does not
  fire and the clamp at the last row does not bind); the rest is pointwise.
-/
import proofs.«414652_j38087769981102_3_alg».proof.Proof.RefRun
import proofs.«414652_j38087769981102_3_alg».proof.Proof.RefRead
import proofs.«414652_j38087769981102_3_alg».proof.Proof.DomainStats
import proofs.«414652_j38087769981102_3_alg».proof.Proof.LibIndexed
import proofs.«414652_j38087769981102_3_alg».proof.Proof.LibGatherElem
import Idealize.ShloMosaic.Lib.ValueIdx
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.Gen Cert.DomainNorm Idealize.ShloMosaic Idealize.ShloMosaic.ValueIdx Idealize.ShloMosaic.TcCoe Idealize.SL.Sem Finset

/-! ## Words and indices -/

/-- A label word that is not negative is its own lookup word: the wrap of negatives does not fire. -/
private theorem select_label (w : BitVec 32) (h0 : 0 ≤ w.toInt) :
    Scalar.select (IntOp.cmpi .slt w 0#32) (IntOp.addi w 8#32) w = w := by
  have hlt : w.slt 0#32 = false := by
    simp only [BitVec.slt, BitVec.toInt_zero, decide_eq_false_iff_not, Int.not_lt]
    exact h0
  show (if BitVec.ofBool (w.slt 0#32) = 1 then _ else _) = _
  rw [hlt]
  rfl

/-- A select on the bit of a decidable proposition is the `if` on the proposition. -/
private theorem select_decide {α : Type} (P : Prop) [Decidable P] (a b : α) :
    Scalar.select (BitVec.ofBool (decide P)) a b = if P then a else b := by
  unfold Scalar.select
  by_cases h : P
  · simp [h]
  · simp [h]

/-- The f32 word of one is the number one. -/
private theorem ofBits_one_f32 : Ideal.ofBits .f32 0x3F800000#32 = 1 := by
  simp [Ideal.ofBits, Ideal.ieee, -EReal.coe_mul]; norm_num

/-- A column `[65536, 1]` broadcast from a vector `[65536]`, read at `(e, 0)`, is the vector at `e`. -/
private theorem col_v2 (e : Fin 65536) : ReadP.idx_main_v2 (ix2 e (0 : Fin 1)) = ix1 e :=
  funext fun a => Fin.ext (by match a with | ⟨0, _⟩ => rfl)
private theorem col_v8 (e : Fin 65536) : ReadP.idx_main_v8 (ix2 e (0 : Fin 1)) = ix1 e :=
  funext fun a => Fin.ext (by match a with | ⟨0, _⟩ => rfl)
private theorem col_v17 (e : Fin 65536) : ReadP.idx_main_v17 (ix2 e (0 : Fin 1)) = ix1 e :=
  funext fun a => Fin.ext (by match a with | ⟨0, _⟩ => rfl)
private theorem col_v22 (e : Fin 65536) : ReadP.idx_main_v22 (ix2 e (0 : Fin 1)) = ix1 e :=
  funext fun a => Fin.ext (by match a with | ⟨0, _⟩ => rfl)
private theorem col_v31 (e : Fin 65536) : ReadP.idx_main_v31 (ix2 e (0 : Fin 1)) = ix1 e :=
  funext fun a => Fin.ext (by match a with | ⟨0, _⟩ => rfl)
private theorem col_v46 (e : Fin 65536) : ReadP.idx_main_v46 (ix2 e (0 : Fin 1)) = ix1 e :=
  funext fun a => Fin.ext (by match a with | ⟨0, _⟩ => rfl)
private theorem col_v48 (e : Fin 65536) : ReadP.idx_main_v48 (ix2 e (0 : Fin 1)) = ix1 e :=
  funext fun a => Fin.ext (by match a with | ⟨0, _⟩ => rfl)

/-- A table `[8, 1024]` broadcast from a column `[8, 1]`, read at `(n, f)`, is the column at `(n, 0)`. -/
private theorem tab_v10 (n : Fin 8) (f : Fin 1024) : ReadP.idx_main_v10 (ix2 n f) = ix2 n (0 : Fin 1) :=
  funext fun a => Fin.ext (by match a with | ⟨0, _⟩ => rfl | ⟨1, _⟩ => rfl)
private theorem tab_v24 (n : Fin 8) (f : Fin 1024) : ReadP.idx_main_v24 (ix2 n f) = ix2 n (0 : Fin 1) :=
  funext fun a => Fin.ext (by match a with | ⟨0, _⟩ => rfl | ⟨1, _⟩ => rfl)
/-- A column `[8, 1]` broadcast from a vector `[8]`, read at `(n, 0)`, is the vector at `n`. -/
private theorem col_v6 (n : Fin 8) : ReadP.idx_main_v6 (ix2 n (0 : Fin 1)) = ix1 n :=
  funext fun a => Fin.ext (by match a with | ⟨0, _⟩ => rfl)
/-- A row `[1, 1024]` broadcast along the rows, read at `(e, f)`, is the row at `(0, f)`. -/
private theorem row_v37 (e : Fin 65536) (f : Fin 1024) : ReadP.idx_main_v37 (ix2 e f) = ix2 (0 : Fin 1) f :=
  funext fun a => Fin.ext (by match a with | ⟨0, _⟩ => rfl | ⟨1, _⟩ => rfl)
private theorem row_v39 (e : Fin 65536) (f : Fin 1024) : ReadP.idx_main_v39 (ix2 e f) = ix2 (0 : Fin 1) f :=
  funext fun a => Fin.ext (by match a with | ⟨0, _⟩ => rfl | ⟨1, _⟩ => rfl)
/-- A column `[65536, 1]` broadcast along the features, read at `(e, f)`, is the column at `(e, 0)`. -/
private theorem feat_call0_v1 (e : Fin 65536) (f : Fin 1024) : ReadP.idx_main_call0_v1 (ix2 e f) = ix2 e (0 : Fin 1) :=
  funext fun a => Fin.ext (by match a with | ⟨0, _⟩ => rfl | ⟨1, _⟩ => rfl)
private theorem feat_call1_v0 (e : Fin 65536) (f : Fin 1024) : ReadP.idx_main_call1_v0 (ix2 e f) = ix2 e (0 : Fin 1) :=
  funext fun a => Fin.ext (by match a with | ⟨0, _⟩ => rfl | ⟨1, _⟩ => rfl)

/-! ## The three lookups read a table at the row's label -/

/-- A lookup of rows of a table `[8, 1024]` at a word naming domain `d` reads row `d`: the clamp at row 7 does not bind. -/
private theorem lookup_rows {α : Type} (T : S8x1024.Idx → α) (idx : IVec S65536x1 32) (e : Fin 65536) (f : Fin 1024) (d : Fin 8)
    (h : (idx (ix2 e (0 : Fin 1))).toInt = (d.val : ℤ)) :
    Host.gather gather_S8x1024_S65536x1_S65536x1024_1_0_n_n_0_1_11024 T idx (ix2 e f) = T (ix2 d f) := by
  rw [Cert.Rgcn.Lib.gather_rows_apply (by decide) gather_S8x1024_S65536x1_S65536x1024_1_0_n_n_0_1_11024
    Cert.ReferenceIdeal.Facts₀.gather_S8x1024_S65536x1_S65536x1024_1_0_n_n_0_1_11024_wf
    (by unfold gather_S8x1024_S65536x1_S65536x1024_1_0_n_n_0_1_11024; rfl)]
  congr 2
  refine Fin.ext ?_
  show min (idx (ix2 e (0 : Fin 1))).toInt.toNat (8 - 1) = d.val
  rw [h]
  have := d.isLt
  omega

/-- A lookup of elements of a vector `[8]` at a word naming domain `d` reads element `d`. -/
private theorem lookup_vec {α : Type} (T : S8.Idx → α) (idx : IVec S65536x1 32) (e : Fin 65536) (d : Fin 8)
    (h : (idx (ix2 e (0 : Fin 1))).toInt = (d.val : ℤ)) :
    Host.gather gather_S8_S65536x1_S65536_n_0_n_n_0_1_1 T idx (ix1 e) = T (ix1 d) := by
  have hrec : gather_S8_S65536x1_S65536_n_0_n_n_0_1_1
      = Cert.LibGatherElem.vecDims 8 65536 Cert.ReferenceIdeal.Facts₀.gather_S8_S65536x1_S65536_n_0_n_n_0_1_1_wf := by
    unfold gather_S8_S65536x1_S65536_n_0_n_n_0_1_1; rfl
  rw [hrec, Cert.LibGatherElem.gather_vec_apply (by decide)]
  congr 2
  refine Fin.ext ?_
  show min (idx (ix2 e (0 : Fin 1))).toInt.toNat (8 - 1) = d.val
  rw [h]
  have := d.isLt
  omega

/-- Under the range hypothesis the lookup word of row `e` is its label word (first lookup). -/
private theorem word_v17 (y : (⟨S65536, .i32⟩ : BufTy).Contents (Elt Ideal)) (e : Fin 65536) (h0 : 0 ≤ ((y : S65536.Idx → BitVec 32) (ix1 e)).toInt) :
    ReadP.val_main_v17 (F := Ideal) y (ix2 e (0 : Fin 1)) = (y : S65536.Idx → BitVec 32) (ix1 e) := by
  rw [ReadP.val_main_v17_apply, col_v17, ReadP.val_main_v16_apply, ReadP.val_main_v13_apply, ReadP.val_main_v12_apply,
    ReadP.val_main_c_apply, ReadP.val_main_v15_apply, ReadP.val_main_v14_apply, ReadP.val_main_c_3_apply]
  exact select_label _ h0
/-- The same for the second lookup. -/
private theorem word_v31 (y : (⟨S65536, .i32⟩ : BufTy).Contents (Elt Ideal)) (e : Fin 65536) (h0 : 0 ≤ ((y : S65536.Idx → BitVec 32) (ix1 e)).toInt) :
    ReadP.val_main_v31 (F := Ideal) y (ix2 e (0 : Fin 1)) = (y : S65536.Idx → BitVec 32) (ix1 e) := by
  rw [ReadP.val_main_v31_apply, col_v31, ReadP.val_main_v30_apply, ReadP.val_main_v27_apply, ReadP.val_main_v26_apply,
    ReadP.val_main_c_5_apply, ReadP.val_main_v29_apply, ReadP.val_main_v28_apply, ReadP.val_main_c_6_apply]
  exact select_label _ h0
/-- The same for the third lookup. -/
private theorem word_v46 (y : (⟨S65536, .i32⟩ : BufTy).Contents (Elt Ideal)) (e : Fin 65536) (h0 : 0 ≤ ((y : S65536.Idx → BitVec 32) (ix1 e)).toInt) :
    ReadP.val_main_v46 (F := Ideal) y (ix2 e (0 : Fin 1)) = (y : S65536.Idx → BitVec 32) (ix1 e) := by
  rw [ReadP.val_main_v46_apply, col_v46, ReadP.val_main_v45_apply, ReadP.val_main_v42_apply, ReadP.val_main_v41_apply,
    ReadP.val_main_c_8_apply, ReadP.val_main_v44_apply, ReadP.val_main_v43_apply, ReadP.val_main_c_9_apply]
  exact select_label _ h0

/-- A label in range names a domain. -/
private theorem label_dom (y : (⟨S65536, .i32⟩ : BufTy).Contents (Elt Ideal)) (hy : ∀ e : Fin 65536, 0 ≤ ((y : S65536.Idx → BitVec 32) (ix1 e)).toInt ∧ ((y : S65536.Idx → BitVec 32) (ix1 e)).toInt < 8) (e : Fin 65536) :
    ∃ d : Fin 8, ((y : S65536.Idx → BitVec 32) (ix1 e)).toInt = (d.val : ℤ) := by
  obtain ⟨h0, h8⟩ := hy e
  exact ⟨⟨((y : S65536.Idx → BitVec 32) (ix1 e)).toInt.toNat, by omega⟩, by show _ = ((Int.toNat _ : ℕ) : ℤ); omega⟩

/-! ## The three scatter-adds into zeros are the sums over a domain's rows -/

/-- The row counts: the scatter-add of ones into zeros, at domain `n`, is `0 +` the number of rows labelled `n`. -/
private theorem count_value (y : (⟨S65536, .i32⟩ : BufTy).Contents (Elt Ideal)) (n : Fin 8) :
    (Cert.ReferenceIdeal.ReadP.val_main_v3 (F := Ideal) y : S8.Idx → EReal) (ix1 n)
      = 0 + cntOf (fun e' : Fin 65536 => ((y : S65536.Idx → BitVec 32) (ix1 e')).toInt) (n.val : ℤ) := by
  unfold Cert.ReferenceIdeal.ReadP.val_main_v3
  rw [Cert.Rgcn.Lib.scatterAdd_vec_apply scatter_S8_S65536x1_S65536_n_0_0_1
    Cert.ReferenceIdeal.Facts₀.scatter_S8_S65536x1_S65536_n_0_0_1_wf (by unfold scatter_S8_S65536x1_S65536_n_0_0_1; rfl)]
  simp only [ReadP.val_main_v1_apply, ReadP.val_main_cst_0_apply, ReadP.val_main_v2_apply, col_v2,
    ReadP.val_main_v0_apply, ReadP.val_main_cst_apply, Ideal.ofBits_def, Ideal.ofBits_zero_f32, ofBits_one_f32, cntOf]

/-- The column sums: the scatter-add of the rows of `x` into zeros, at `(n, f)`, is `0 +` the sum of column `f` over the rows labelled `n`. -/
private theorem sum_value (x : (⟨S65536x1024, .f32⟩ : BufTy).Contents (Elt Ideal)) (y : (⟨S65536, .i32⟩ : BufTy).Contents (Elt Ideal)) (n : Fin 8) (f : Fin 1024) :
    (Cert.ReferenceIdeal.ReadP.val_main_v9 (F := Ideal) x y : S8x1024.Idx → EReal) (ix2 n f)
      = 0 + sumOf (fun e' : Fin 65536 => ((y : S65536.Idx → BitVec 32) (ix1 e')).toInt) (fun e' : Fin 65536 => (x : S65536x1024.Idx → EReal) (ix2 e' f)) (n.val : ℤ) := by
  unfold Cert.ReferenceIdeal.ReadP.val_main_v9
  rw [Cert.Rgcn.Lib.scatterAdd_rows_apply scatter_S8x1024_S65536x1_S65536x1024_1_0_0_1
    Cert.ReferenceIdeal.Facts₀.scatter_S8x1024_S65536x1_S65536x1024_1_0_0_1_wf (by unfold scatter_S8x1024_S65536x1_S65536x1024_1_0_0_1; rfl)]
  simp only [ReadP.val_main_v7_apply, ReadP.val_main_cst_2_apply, ReadP.val_main_v8_apply, col_v8,
    Ideal.ofBits_def, Ideal.ofBits_zero_f32, sumOf]

/-- The divisor of domain `n`: its row count, at least one. -/
private theorem safe_count_value (y : (⟨S65536, .i32⟩ : BufTy).Contents (Elt Ideal)) (n : Fin 8) :
    (Cert.ReferenceIdeal.ReadP.val_main_v6 (F := Ideal) y : S8x1.Idx → EReal) (ix2 n (0 : Fin 1))
      = max (0 + cntOf (fun e' : Fin 65536 => ((y : S65536.Idx → BitVec 32) (ix1 e')).toInt) (n.val : ℤ)) 1 := by
  rw [ReadP.val_main_v6_apply, col_v6, ReadP.val_main_v5_apply, count_value, ReadP.val_main_v4_apply, ReadP.val_main_cst_1_apply,
    Ideal.maximumf_def, Ideal.ofBits_def, ofBits_one_f32]

/-- The mean table at `(n, f)` is the two-pass mean of column `f` over domain `n`. -/
private theorem mean_value (x : (⟨S65536x1024, .f32⟩ : BufTy).Contents (Elt Ideal)) (y : (⟨S65536, .i32⟩ : BufTy).Contents (Elt Ideal)) (n : Fin 8) (f : Fin 1024) :
    (Cert.ReferenceIdeal.ReadP.val_main_v11 (F := Ideal) x y : S8x1024.Idx → EReal) (ix2 n f)
      = refMean (fun e' : Fin 65536 => ((y : S65536.Idx → BitVec 32) (ix1 e')).toInt) (fun e' : Fin 65536 => (x : S65536x1024.Idx → EReal) (ix2 e' f)) (n.val : ℤ) := by
  rw [ReadP.val_main_v11_apply, sum_value, ReadP.val_main_v10_apply, tab_v10, safe_count_value, Ideal.hostDivf_def]
  rfl

/-- The first lookup: row `e` reads the mean of its own domain. -/
private theorem row_mean_value (x : (⟨S65536x1024, .f32⟩ : BufTy).Contents (Elt Ideal)) (y : (⟨S65536, .i32⟩ : BufTy).Contents (Elt Ideal)) (hy : ∀ e : Fin 65536, 0 ≤ ((y : S65536.Idx → BitVec 32) (ix1 e)).toInt ∧ ((y : S65536.Idx → BitVec 32) (ix1 e)).toInt < 8) (e : Fin 65536) (f : Fin 1024) :
    (Cert.ReferenceIdeal.ReadP.val_main_v18 (F := Ideal) x y : S65536x1024.Idx → EReal) (ix2 e f)
      = refMean (fun e' : Fin 65536 => ((y : S65536.Idx → BitVec 32) (ix1 e')).toInt) (fun e' : Fin 65536 => (x : S65536x1024.Idx → EReal) (ix2 e' f)) (((y : S65536.Idx → BitVec 32) (ix1 e)).toInt) := by
  obtain ⟨d, hd⟩ := label_dom y hy e
  unfold Cert.ReferenceIdeal.ReadP.val_main_v18
  rw [lookup_rows _ _ e f d (by rw [word_v17 y e (hy e).1]; exact hd), mean_value, hd]

/-- The centred entry of row `e`. -/
private theorem diff_value (x : (⟨S65536x1024, .f32⟩ : BufTy).Contents (Elt Ideal)) (y : (⟨S65536, .i32⟩ : BufTy).Contents (Elt Ideal)) (hy : ∀ e : Fin 65536, 0 ≤ ((y : S65536.Idx → BitVec 32) (ix1 e)).toInt ∧ ((y : S65536.Idx → BitVec 32) (ix1 e)).toInt < 8) (e : Fin 65536) (f : Fin 1024) :
    (Cert.ReferenceIdeal.ReadP.val_main_v19 (F := Ideal) x y : S65536x1024.Idx → EReal) (ix2 e f)
      = (x : S65536x1024.Idx → EReal) (ix2 e f) - refMean (fun e' : Fin 65536 => ((y : S65536.Idx → BitVec 32) (ix1 e')).toInt) (fun e' : Fin 65536 => (x : S65536x1024.Idx → EReal) (ix2 e' f)) (((y : S65536.Idx → BitVec 32) (ix1 e)).toInt) := by
  rw [ReadP.val_main_v19_apply, row_mean_value x y hy, Ideal.subf_def]

/-- The sums of squared centred entries: the third scatter-add into zeros. -/
private theorem sqsum_value (x : (⟨S65536x1024, .f32⟩ : BufTy).Contents (Elt Ideal)) (y : (⟨S65536, .i32⟩ : BufTy).Contents (Elt Ideal)) (hy : ∀ e : Fin 65536, 0 ≤ ((y : S65536.Idx → BitVec 32) (ix1 e)).toInt ∧ ((y : S65536.Idx → BitVec 32) (ix1 e)).toInt < 8) (n : Fin 8) (f : Fin 1024) :
    (Cert.ReferenceIdeal.ReadP.val_main_v23 (F := Ideal) x y : S8x1024.Idx → EReal) (ix2 n f)
      = 0 + sumOf (fun e' : Fin 65536 => ((y : S65536.Idx → BitVec 32) (ix1 e')).toInt) (fun e' : Fin 65536 => ((x : S65536x1024.Idx → EReal) (ix2 e' f) - refMean (fun e' : Fin 65536 => ((y : S65536.Idx → BitVec 32) (ix1 e')).toInt) (fun e' : Fin 65536 => (x : S65536x1024.Idx → EReal) (ix2 e' f)) ((fun e' : Fin 65536 => ((y : S65536.Idx → BitVec 32) (ix1 e')).toInt) e')) * ((x : S65536x1024.Idx → EReal) (ix2 e' f) - refMean (fun e' : Fin 65536 => ((y : S65536.Idx → BitVec 32) (ix1 e')).toInt) (fun e' : Fin 65536 => (x : S65536x1024.Idx → EReal) (ix2 e' f)) ((fun e' : Fin 65536 => ((y : S65536.Idx → BitVec 32) (ix1 e')).toInt) e'))) (n.val : ℤ) := by
  unfold Cert.ReferenceIdeal.ReadP.val_main_v23
  rw [Cert.Rgcn.Lib.scatterAdd_rows_apply scatter_S8x1024_S65536x1_S65536x1024_1_0_0_1
    Cert.ReferenceIdeal.Facts₀.scatter_S8x1024_S65536x1_S65536x1024_1_0_0_1_wf (by unfold scatter_S8x1024_S65536x1_S65536x1024_1_0_0_1; rfl)]
  simp only [ReadP.val_main_v21_apply, ReadP.val_main_cst_4_apply, ReadP.val_main_v22_apply, col_v22,
    ReadP.val_main_v20_apply, diff_value x y hy, Ideal.mulf_def, Ideal.ofBits_def, Ideal.ofBits_zero_f32, sumOf]

/-- The variance table at `(n, f)` is the two-pass variance of column `f` over domain `n`. -/
private theorem var_value (x : (⟨S65536x1024, .f32⟩ : BufTy).Contents (Elt Ideal)) (y : (⟨S65536, .i32⟩ : BufTy).Contents (Elt Ideal)) (hy : ∀ e : Fin 65536, 0 ≤ ((y : S65536.Idx → BitVec 32) (ix1 e)).toInt ∧ ((y : S65536.Idx → BitVec 32) (ix1 e)).toInt < 8) (n : Fin 8) (f : Fin 1024) :
    (Cert.ReferenceIdeal.ReadP.val_main_v25 (F := Ideal) x y : S8x1024.Idx → EReal) (ix2 n f)
      = refVar (fun e' : Fin 65536 => ((y : S65536.Idx → BitVec 32) (ix1 e')).toInt) (fun e' : Fin 65536 => (x : S65536x1024.Idx → EReal) (ix2 e' f)) (n.val : ℤ) := by
  rw [ReadP.val_main_v25_apply, sqsum_value x y hy, ReadP.val_main_v24_apply, tab_v24, safe_count_value, Ideal.hostDivf_def]
  rfl

/-- The second lookup: row `e` reads the variance of its own domain. -/
private theorem row_var_value (x : (⟨S65536x1024, .f32⟩ : BufTy).Contents (Elt Ideal)) (y : (⟨S65536, .i32⟩ : BufTy).Contents (Elt Ideal)) (hy : ∀ e : Fin 65536, 0 ≤ ((y : S65536.Idx → BitVec 32) (ix1 e)).toInt ∧ ((y : S65536.Idx → BitVec 32) (ix1 e)).toInt < 8) (e : Fin 65536) (f : Fin 1024) :
    (Cert.ReferenceIdeal.ReadP.val_main_v32 (F := Ideal) x y : S65536x1024.Idx → EReal) (ix2 e f)
      = refVar (fun e' : Fin 65536 => ((y : S65536.Idx → BitVec 32) (ix1 e')).toInt) (fun e' : Fin 65536 => (x : S65536x1024.Idx → EReal) (ix2 e' f)) (((y : S65536.Idx → BitVec 32) (ix1 e)).toInt) := by
  obtain ⟨d, hd⟩ := label_dom y hy e
  unfold Cert.ReferenceIdeal.ReadP.val_main_v32
  rw [lookup_rows _ _ e f d (by rw [word_v31 y e (hy e).1]; exact hd), var_value x y hy, hd]

/-- The third lookup: row `e` reads the row count of its own domain. -/
private theorem row_count_value (y : (⟨S65536, .i32⟩ : BufTy).Contents (Elt Ideal)) (hy : ∀ e : Fin 65536, 0 ≤ ((y : S65536.Idx → BitVec 32) (ix1 e)).toInt ∧ ((y : S65536.Idx → BitVec 32) (ix1 e)).toInt < 8) (e : Fin 65536) :
    (Cert.ReferenceIdeal.ReadP.val_main_v48 (F := Ideal) y : S65536x1.Idx → EReal) (ix2 e (0 : Fin 1))
      = 0 + cntOf (fun e' : Fin 65536 => ((y : S65536.Idx → BitVec 32) (ix1 e')).toInt) (((y : S65536.Idx → BitVec 32) (ix1 e)).toInt) := by
  obtain ⟨d, hd⟩ := label_dom y hy e
  rw [ReadP.val_main_v48_apply, col_v48]
  unfold Cert.ReferenceIdeal.ReadP.val_main_v47
  rw [lookup_vec _ _ e d (by rw [word_v46 y e (hy e).1]; exact hd), count_value, hd]

/-- The reference's result at row `e`, feature `f`, is the two-pass normalised entry of column `f`. -/
theorem ref_value (x : (⟨S65536x1024, .f32⟩ : BufTy).Contents (Elt Ideal)) (y : (⟨S65536, .i32⟩ : BufTy).Contents (Elt Ideal))
    (γ β : (⟨S1x1024, .f32⟩ : BufTy).Contents (Elt Ideal))
    (hy : ∀ e : Fin 65536, 0 ≤ ((y : S65536.Idx → BitVec 32) (ix1 e)).toInt ∧ ((y : S65536.Idx → BitVec 32) (ix1 e)).toInt < 8)
    (e : Fin 65536) (f : Fin 1024) :
    (Cert.ReferenceIdeal.ReadP.val_main_v54 (F := Ideal) x y γ β : S65536x1024.Idx → EReal) (ix2 e f)
      = refVal eps (fun e' => ((y : S65536.Idx → BitVec 32) (ix1 e')).toInt)
          (fun e' => (x : S65536x1024.Idx → EReal) (ix2 e' f))
          ((γ : S1x1024.Idx → EReal) (ix2 0 f)) ((β : S1x1024.Idx → EReal) (ix2 0 f)) e := by
  -- the outer choice on "more than one row", its normalised branch, then the inner choice on "exactly one row"
  rw [ReadP.val_main_v54_apply, ReadP.val_main_call1_v0_apply, feat_call1_v0, ReadP.val_main_v50_apply,
    row_count_value y hy, ReadP.val_main_v49_apply, ReadP.val_main_cst_10_apply,
    ReadP.val_main_v40_apply, ReadP.val_main_v38_apply, ReadP.val_main_v37_apply, row_v37, ReadP.val_main_v36_apply,
    diff_value x y hy, ReadP.val_main_v35_apply, ReadP.val_main_v34_apply, row_var_value x y hy,
    ReadP.val_main_v33_apply, ReadP.val_main_cst_7_apply, ReadP.val_main_v39_apply, row_v39,
    ReadP.val_main_v53_apply, ReadP.val_main_call0_v1_apply, feat_call0_v1, ReadP.val_main_v52_apply,
    row_count_value y hy, ReadP.val_main_v51_apply, ReadP.val_main_cst_11_apply,
    ReadP.val_main_call0_v2_apply, ReadP.val_main_call0_v0_apply, ReadP.val_main_cst_12_apply]
  simp only [Ideal.cmpf_def, Ideal.cmp, select_decide, Ideal.addf_def, Ideal.mulf_def, Ideal.hostDivf_def,
    Ideal.hostUnary_sqrt_def, Ideal.ofBits_def, ofBits_one_f32, Ideal.ofBits_zero_f32, refVal, eps]

end Cert.ReferenceIdeal.RefValue

end
-- ==== Proof.PreFacts.lean ====
/-
  What the precondition says, decoded: every entry of the rows' values, of the gains and of the offsets is a real
  number (its absolute value is below +inf), and every label word is a domain index, `0 ≤ · < 8` as a signed number.
-/
import proofs.«414652_j38087769981102_3_alg».proof.Pre_finite_inputs
import proofs.«414652_j38087769981102_3_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

set_option maxRecDepth 16384

noncomputable section

namespace Cert.PreFacts

open Cert.Pre_finite_inputs Idealize.ShloMosaic Idealize.ShloMosaic.ValueIdx Finset

/-- The scalar shape has one index. -/
private instance subsingleton_scalar_idx : Subsingleton S_.Idx := ⟨fun a b => funext fun d => d.elim0⟩

/-- An extended real whose absolute value `max x (-x)` is below `+∞` (the f32 word `0x7F800000`) is a real number:
    `|⊥| = |⊤| = ⊤` is not below `⊤`. -/
private theorem real_of_abs_lt_inf (x : Ideal .f32)
    (h : FloatOps.cmpf .olt (FloatOps.hostAbsf x) (FloatOps.ofBits (F := Ideal) .f32 0x7F800000#32) = 1#1) :
    ∃ r : ℝ, (x : EReal) = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  induction x using EReal.rec with
  | bot => simp at h
  | coe r => exact ⟨r, rfl⟩
  | top => simp at h

/-- The precondition, all ones, read entry by entry. -/
theorem decode [Cert.Pre_finite_inputs.Facts] (x : FVec Ideal S65536x1024 .f32) (y : IVec S65536 32)
    (γ β : FVec Ideal S1x1024 .f32)
    (h : Cert.Pre_finite_inputs.fn (F := Ideal) x y γ β = fun _ => 1#1) :
    (∀ i : S65536x1024.Idx, ∃ r : ℝ, (x i : EReal) = (r : EReal))
      ∧ (∀ i : S1x1024.Idx, ∃ r : ℝ, (γ i : EReal) = (r : EReal))
      ∧ (∀ i : S1x1024.Idx, ∃ r : ℝ, (β i : EReal) = (r : EReal))
      ∧ (∀ e : Fin 65536, 0 ≤ (y (ix1 e)).toInt ∧ (y (ix1 e)).toInt < 8) := by
  have h0 := congrFun h ValueIdx.ix0
  dsimp only [fn, fn_part1] at h0
  simp only [andi, IntOp.andi_eq_one] at h0
  obtain ⟨⟨⟨⟨hx, hγ⟩, hβ⟩, hge⟩, hlt⟩ := h0
  have z0 : (0#32 : BitVec 32).toInt = 0 := by decide
  have z8 : (8#32 : BitVec 32).toInt = 8 := by decide
  refine ⟨fun i => ?_, fun i => ?_, fun i => ?_, fun e => ⟨?_, ?_⟩⟩
  · exact real_of_abs_lt_inf (x i) (Host.reduce_andi_all _ _ _ _ _ hx i)
  · exact real_of_abs_lt_inf (γ i) (Host.reduce_andi_all _ _ _ _ _ hγ i)
  · exact real_of_abs_lt_inf (β i) (Host.reduce_andi_all _ _ _ _ _ hβ i)
  · -- the signed compare `y ≥ 0` at position `e`
    have hc : IntOp.cmpi .sge (y (ix1 e)) (0#32) = 1#1 := Host.reduce_andi_all _ _ _ _ _ hge (ix1 e)
    have := IntOp.cmpi_sge.1 hc
    rwa [z0] at this
  · -- the signed compare `y < 8` at position `e`
    have hc : IntOp.cmpi .slt (y (ix1 e)) (8#32) = 1#1 := Host.reduce_andi_all _ _ _ _ _ hlt (ix1 e)
    have := IntOp.cmpi_slt.1 hc
    rwa [z8] at this

end Cert.PreFacts

end
-- ==== Proof.DomainNormLaw.lean ====
/-
  The one-pass and the two-pass normalised entries agree wherever every entry is a real number.
-/
import proofs.«414652_j38087769981102_3_alg».proof.Proof.DomainStats

noncomputable section

namespace Cert.DomainNorm

open Idealize.ShloMosaic Finset

/-- The variance floor is a positive real number. -/
theorem eps_pos : ∃ r : ℝ, 0 < r ∧ eps = (r : EReal) := by
  -- the word has sign 0, exponent field 110 and fraction 2606508: (2^23 + 2606508) · 2^(110 − 127 − 23)
  refine ⟨(10995116 : ℝ) * (2 : ℝ) ^ (-40 : ℤ), by positivity, ?_⟩
  simp [eps, Ideal.ofBits, Ideal.ieee, -EReal.coe_mul]

/-! ### Over the reals -/

/-- The variance identity: over a set of `c` rows, `Σ (x − μ)² / c = Σ x² / c − μ²` for `μ = Σ x / c`. -/
private theorem var_two_pass {α : Type} (D : Finset α) (f : α → ℝ) (hD : D.card ≠ 0) :
    (∑ i ∈ D, (f i - (∑ j ∈ D, f j) * (1 / (D.card : ℝ))) * (f i - (∑ j ∈ D, f j) * (1 / (D.card : ℝ))))
        * (1 / (D.card : ℝ))
      = (∑ i ∈ D, f i * f i) * (1 / (D.card : ℝ))
        - (∑ j ∈ D, f j) * (1 / (D.card : ℝ)) * ((∑ j ∈ D, f j) * (1 / (D.card : ℝ))) := by
  have hc : (D.card : ℝ) ≠ 0 := by exact_mod_cast hD
  generalize hS : ∑ j ∈ D, f j = S
  have h : ∀ i ∈ D, (f i - S * (1 / (D.card : ℝ))) * (f i - S * (1 / (D.card : ℝ)))
      = f i * f i - 2 * (S * (1 / (D.card : ℝ))) * f i + S * (1 / (D.card : ℝ)) * (S * (1 / (D.card : ℝ))) :=
    fun i _ => by ring
  rw [Finset.sum_congr rfl h, Finset.sum_add_distrib, Finset.sum_sub_distrib, ← Finset.mul_sum, hS, Finset.sum_const,
    nsmul_eq_mul]
  field_simp
  ring

/-- A sum of squares over a positive count is not negative. -/
private theorem sq_sum_div_nonneg {α : Type} (D : Finset α) (g : α → ℝ) (c : ℝ) (hc : 0 ≤ c) :
    0 ≤ (∑ i ∈ D, g i * g i) * (1 / c) :=
  mul_nonneg (Finset.sum_nonneg fun i _ => mul_self_nonneg (g i)) (by positivity)

/-! ### Sums, counts and quotients of coerced reals -/

/-- A finite sum of coerced reals is the coerced real sum. -/
private theorem coe_sum {α : Type} (D : Finset α) (f : α → ℝ) :
    ∑ i ∈ D, ((f i : ℝ) : EReal) = ((∑ i ∈ D, f i : ℝ) : EReal) := by
  classical
  refine Finset.induction_on D (by simp) ?_
  intro a s ha ih
  rw [Finset.sum_insert ha, Finset.sum_insert ha, ih, EReal.coe_add]

section Transport

variable {ι : Type} [Fintype ι]

/-- The sum of a real column over a domain. -/
private theorem sumOf_coe (lab : ι → ℤ) (f : ι → ℝ) (d : ℤ) :
    sumOf lab (fun e => ((f e : ℝ) : EReal)) d
      = ((∑ e ∈ univ.filter (fun e => lab e = d), f e : ℝ) : EReal) := by
  unfold sumOf
  exact coe_sum _ _

/-- The row count of a domain is its cardinality: a sum of ones. -/
private theorem cntOf_coe (lab : ι → ℤ) (d : ℤ) :
    cntOf lab d = ((((univ.filter (fun e => lab e = d)).card : ℕ) : ℝ) : EReal) := by
  unfold cntOf
  rw [← EReal.coe_one, coe_sum]
  simp

end Transport

/-- A real count of at least one row is its own maximum with 1. -/
private theorem max_coe_one {c : ℝ} (hc : 1 ≤ c) : max (c : EReal) 1 = (c : EReal) :=
  max_eq_left (by rw [← EReal.coe_one]; exact EReal.coe_le_coe_iff.2 hc)

/-- Dividing a real by a count of at least one row is the real product with the reciprocal. -/
private theorem div_max_coe {c : ℝ} (hc : 1 ≤ c) (a : ℝ) :
    Ideal.div (a : EReal) (max (c : EReal) 1) = ((a * (1 / c) : ℝ) : EReal) := by
  rw [max_coe_one hc, Ideal.div_coe (ne_of_gt (by linarith)), ← EReal.coe_mul]

/-- The scale of a domain of more than one row whose one-pass variance is not negative. -/
private theorem scaleTab_coe {r S Q c g : ℝ} (hr : 0 < r) (hc : 1 < c)
    (hv : 0 ≤ Q * (1 / c) - S * (1 / c) * (S * (1 / c))) :
    scaleTab (r : EReal) (S : EReal) (Q : EReal) (c : EReal) (g : EReal)
      = ((g * (Real.sqrt (Q * (1 / c) - S * (1 / c) * (S * (1 / c)) + r))⁻¹ : ℝ) : EReal) := by
  have h1 : (1 : EReal) < (c : EReal) := by rw [← EReal.coe_one]; exact EReal.coe_lt_coe_iff.2 hc
  rw [scaleTab, if_pos h1, div_max_coe hc.le, div_max_coe hc.le, ← EReal.coe_mul, ← EReal.coe_sub,
    max_eq_left (by rw [← EReal.coe_zero]; exact EReal.coe_le_coe_iff.2 hv), ← EReal.coe_add, Ideal.rsqrt_coe,
    if_neg (not_lt.2 (by linarith)), if_neg (ne_of_gt (by linarith)), ← EReal.coe_mul]

/-- The shift of a domain of more than one row whose one-pass variance is not negative. -/
private theorem shiftTab_coe {r S Q c g b : ℝ} (hr : 0 < r) (hc : 1 < c)
    (hv : 0 ≤ Q * (1 / c) - S * (1 / c) * (S * (1 / c))) :
    shiftTab (r : EReal) (S : EReal) (Q : EReal) (c : EReal) (g : EReal) (b : EReal)
      = ((b - S * (1 / c) * (g * (Real.sqrt (Q * (1 / c) - S * (1 / c) * (S * (1 / c)) + r))⁻¹) : ℝ) : EReal) := by
  have h1 : (1 : EReal) < (c : EReal) := by rw [← EReal.coe_one]; exact EReal.coe_lt_coe_iff.2 hc
  rw [shiftTab, if_pos h1, scaleTab_coe hr hc hv, div_max_coe hc.le, ← EReal.coe_mul, ← EReal.coe_sub]

/-- A single-row domain has scale 1. -/
private theorem scaleTab_one (ε S Q γ : EReal) : scaleTab ε S Q 1 γ = 1 := by
  rw [scaleTab, if_neg (lt_irrefl _), if_pos rfl]

/-- A single-row domain has shift 0. -/
private theorem shiftTab_one (ε S Q γ β : EReal) : shiftTab ε S Q 1 γ β = 0 := by
  rw [shiftTab, if_neg (lt_irrefl _)]

section Passes

variable {ι : Type} [Fintype ι]

/-- The two-pass mean of a domain of at least one row, for a real column. -/
private theorem refMean_coe (lab : ι → ℤ) (f : ι → ℝ) (d : ℤ)
    (hc : 1 ≤ (univ.filter (fun e => lab e = d)).card) :
    refMean lab (fun e => ((f e : ℝ) : EReal)) d
      = (((∑ e ∈ univ.filter (fun e => lab e = d), f e)
          * (1 / (((univ.filter (fun e => lab e = d)).card : ℕ) : ℝ)) : ℝ) : EReal) := by
  rw [refMean, sumOf_coe, cntOf_coe, zero_add, zero_add, div_max_coe (by exact_mod_cast hc)]

/-- The two-pass variance of a domain of at least one row, for a real column: every row of the domain carries the
    domain's label, so the mean subtracted inside the sum is the one mean of the domain. -/
private theorem refVar_coe (lab : ι → ℤ) (f : ι → ℝ) (d : ℤ)
    (hc : 1 ≤ (univ.filter (fun e => lab e = d)).card) :
    refVar lab (fun e => ((f e : ℝ) : EReal)) d
      = (((∑ e' ∈ univ.filter (fun e => lab e = d),
            (f e' - (∑ e ∈ univ.filter (fun e => lab e = d), f e)
                * (1 / (((univ.filter (fun e => lab e = d)).card : ℕ) : ℝ)))
            * (f e' - (∑ e ∈ univ.filter (fun e => lab e = d), f e)
                * (1 / (((univ.filter (fun e => lab e = d)).card : ℕ) : ℝ))))
          * (1 / (((univ.filter (fun e => lab e = d)).card : ℕ) : ℝ)) : ℝ) : EReal) := by
  have hterm : ∀ e' ∈ univ.filter (fun e => lab e = d),
      (((f e' : ℝ) : EReal) - refMean lab (fun e => ((f e : ℝ) : EReal)) (lab e'))
          * (((f e' : ℝ) : EReal) - refMean lab (fun e => ((f e : ℝ) : EReal)) (lab e'))
        = (((f e' - (∑ e ∈ univ.filter (fun e => lab e = d), f e)
                * (1 / (((univ.filter (fun e => lab e = d)).card : ℕ) : ℝ)))
            * (f e' - (∑ e ∈ univ.filter (fun e => lab e = d), f e)
                * (1 / (((univ.filter (fun e => lab e = d)).card : ℕ) : ℝ))) : ℝ) : EReal) := by
    intro e' he'
    have hl : lab e' = d := (Finset.mem_filter.1 he').2
    rw [hl, refMean_coe lab f d hc, ← EReal.coe_sub, ← EReal.coe_mul]
  rw [refVar, sumOf, Finset.sum_congr rfl hterm, coe_sum, cntOf_coe, zero_add, zero_add,
    div_max_coe (by exact_mod_cast hc)]

end Passes

/-- THE LAW. For real entries, a real `γ` and `β` and a positive real floor, the one-pass entry of row `e` is its
    two-pass entry. -/
theorem kerVal_eq_refVal {ι : Type} [Fintype ι] (ε : EReal) (hε : ∃ r : ℝ, 0 < r ∧ ε = (r : EReal))
    (lab : ι → ℤ) (x : ι → EReal) (hx : ∀ e, ∃ r : ℝ, x e = (r : EReal))
    (γ β : EReal) (hγ : ∃ r : ℝ, γ = (r : EReal)) (hβ : ∃ r : ℝ, β = (r : EReal)) (e : ι) :
    kerVal ε lab x γ β e = refVal ε lab x γ β e := by
  obtain ⟨r, hr, rfl⟩ := hε
  obtain ⟨g, rfl⟩ := hγ
  obtain ⟨b, rfl⟩ := hβ
  choose xr hxr using hx
  obtain rfl : x = fun e => ((xr e : ℝ) : EReal) := funext hxr
  -- the domain of row `e` holds `e`
  have hmem : e ∈ univ.filter (fun e' => lab e' = lab e) := by simp
  have hcard : 1 ≤ (univ.filter (fun e' => lab e' = lab e)).card := Finset.card_pos.2 ⟨e, hmem⟩
  have hsq : (fun e' => ((xr e' : ℝ) : EReal) * ((xr e' : ℝ) : EReal)) = fun e' => ((xr e' * xr e' : ℝ) : EReal) := by
    funext e'; rw [EReal.coe_mul]
  simp only [kerVal, refVal]
  rw [hsq, sumOf_coe, sumOf_coe]
  rw [refMean_coe lab xr (lab e) hcard, refVar_coe lab xr (lab e) hcard, cntOf_coe, zero_add]
  -- the variance identity on the domain, and the sign of the two-pass variance
  have hvar := var_two_pass (univ.filter (fun e' => lab e' = lab e)) xr (by omega)
  have hnn := sq_sum_div_nonneg (univ.filter (fun e' => lab e' = lab e))
    (fun e' => xr e' - (∑ e'' ∈ univ.filter (fun e' => lab e' = lab e), xr e'')
      * (1 / (((univ.filter (fun e' => lab e' = lab e)).card : ℕ) : ℝ)))
    (((univ.filter (fun e' => lab e' = lab e)).card : ℕ) : ℝ) (Nat.cast_nonneg _)
  rw [hvar] at hnn
  rw [hvar]
  generalize (∑ e' ∈ univ.filter (fun e' => lab e' = lab e), xr e') = S at hnn ⊢
  generalize (∑ e' ∈ univ.filter (fun e' => lab e' = lab e), xr e' * xr e') = Q at hnn ⊢
  generalize xr e = a
  rcases Nat.eq_or_lt_of_le hcard with h1 | h2
  · -- a single row: scale 1 and shift 0 on one side, the row itself on the other
    rw [← h1, Nat.cast_one, EReal.coe_one, scaleTab_one, shiftTab_one, if_neg (lt_irrefl _), if_pos rfl]
    rw [← EReal.coe_one, ← EReal.coe_zero]
    simp only [← EReal.coe_sub, ← EReal.coe_add, ← EReal.coe_mul]
    rw [EReal.coe_eq_coe_iff]
    ring
  · have hc : (1 : ℝ) < (((univ.filter (fun e' => lab e' = lab e)).card : ℕ) : ℝ) := by exact_mod_cast h2
    generalize (((univ.filter (fun e' => lab e' = lab e)).card : ℕ) : ℝ) = c at hnn hc ⊢
    have h1c : (1 : EReal) < (c : EReal) := by rw [← EReal.coe_one]; exact EReal.coe_lt_coe_iff.2 hc
    rw [scaleTab_coe hr hc hnn, shiftTab_coe hr hc hnn, if_pos h1c, ← EReal.coe_add, Ideal.sqrt_coe,
      if_neg (not_lt.2 (by linarith)), ← EReal.coe_sub,
      Ideal.div_coe (ne_of_gt (Real.sqrt_pos.2 (by linarith)))]
    simp only [← EReal.coe_sub, ← EReal.coe_add, ← EReal.coe_mul]
    rw [EReal.coe_eq_coe_iff]
    -- a · (γ s⁻¹) + (β − μ · (γ s⁻¹)) = γ · ((a − μ) · (1 / s)) + β
    ring

end Cert.DomainNorm

end
-- ==== Proof.lean ====
/-
  Domain-grouped batch normalisation: a two-pass Pallas kernel against its jnp reference, equal over the extended reals.

  Inputs: values `x : [65536, 1024]`, a domain label per row `y : [65536]` (a signed 32-bit word), gains and offsets
  `γ, β : [1, 1024]`. Precondition: every float entry is a real number and every label is a domain index, `0 ≤ y < 8`.

  THE REFERENCE counts each domain's rows, takes the per-domain mean of every feature, subtracts the row's domain mean,
  takes the per-domain mean of the squared differences (the variance), and returns
  `γ · ((x − μ) / sqrt (v + ε)) + β` for a domain of more than one row, the row itself for a single-row domain.

  THE KERNEL's first pass accumulates, over two halves of 64 tiles of 512 rows, each domain's sum of values, sum of
  squared values and row count, as products of the tile's one-hot label matrix with the tile's values (a value being
  carried as a leading part and a remainder, which at exact arithmetic are the value and `x − x = 0`). The host then
  forms mean `μ = S / max(C, 1)`, variance `max (Q / max(C, 1) − μ²) 0`, `scale = γ · (v + ε)^(−1/2)` and
  `shift = β − μ · scale` per domain. The second pass returns `x · scale + shift` with the row's scale and shift picked by
  its one-hot label row.

  WHY THEY AGREE. A label in range picks exactly its own domain, whose count is at least 1 (the row itself). On real
  numbers `Σ (x − μ)² / c = Σ x² / c − μ²` for `μ = Σ x / c`, a sum of squares over `c > 0`, so the clamp at 0 is the
  identity; `a / sqrt s = a · s^(−1/2)` for `s > 0`; and `x · (γ r) + (β − μ · (γ r)) = γ · ((x − μ) · r) + β`. These laws
  need every entry real, which is what the precondition's finiteness gives; the label range is what makes the kernel's
  one-hot row and the reference's row lookup name the same domain.

  The kernel's run with its result named is the launch over the program's segments (Proof/KernelRun.lean); its value is
  read pass by pass (Proof/StatsRegion.lean, Proof/NormalizeRegion.lean, Proof/HostTables.lean, joined in
  Proof/KernelValue.lean); the reference's value is Proof/RefValue.lean over its run; the law is
  Proof/DomainNormLaw.lean.
-/
import proofs.«414652_j38087769981102_3_alg».proof.Defs
import proofs.«414652_j38087769981102_3_alg».proof.Proof.Gen.Kernel
import proofs.«414652_j38087769981102_3_alg».proof.Proof.Gen.Kernel.Frame
import proofs.«414652_j38087769981102_3_alg».proof.Proof.Gen.KernelIdeal
import proofs.«414652_j38087769981102_3_alg».proof.Proof.Gen.KernelIdeal.Frame
import proofs.«414652_j38087769981102_3_alg».proof.Proof.Gen.ReferenceIdeal
import proofs.«414652_j38087769981102_3_alg».proof.Proof.Gen.Pre_finite_inputs
import proofs.«414652_j38087769981102_3_alg».proof.Proof.KernelRun
import proofs.«414652_j38087769981102_3_alg».proof.Proof.KernelValue
import proofs.«414652_j38087769981102_3_alg».proof.Proof.RefRun
import proofs.«414652_j38087769981102_3_alg».proof.Proof.RefRead
import proofs.«414652_j38087769981102_3_alg».proof.Proof.RefValue
import proofs.«414652_j38087769981102_3_alg».proof.Proof.PreFacts
import proofs.«414652_j38087769981102_3_alg».proof.Proof.DomainNormLaw
import Idealize.ShloMosaic.Adequacy
import Idealize.ShloMosaic.Init

set_option maxRecDepth 16384

noncomputable section

namespace Cert.Proof

open Idealize.ShloMosaic Idealize.ShloMosaic.ValueIdx Idealize.ShloMosaic.TcCoe Idealize.SL.Sem Cert.DomainNorm

/-- The kernel as printed runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The two rewrites of the idealization: a value narrowed to bf16 and widened back is the value itself at exact
    arithmetic (once for the values, once for their squares). -/
theorem preserves : Cert.preserves_Kernel_KernelIdeal :=
  ⟨IdealRules.truncf_extf.statement _ .f32 .bf16, IdealRules.truncf_extf.statement _ .f32 .bf16⟩

/-- Both idealized programs end with the same result array: entry by entry the kernel's one-pass normalised entry is
    the reference's two-pass one. -/
theorem algebraic : Cert.algebraic_KernelIdeal_ReferenceIdeal := by
  intro m ρ m' ρ' hpre hagree
  refine ⟨fun c => Cert.KernelIdeal.Gen.W9 m ρ c (Proc.devRef .tc Cert.KernelIdeal.main_v56),
    Cert.KernelIdeal.Gen.run_value m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v54_eq, (hagree c).1, (hagree c).2.1, (hagree c).2.2.1, (hagree c).2.2.2]
  obtain ⟨hx, hγ, hβ, hy⟩ := Cert.PreFacts.decode _ _ _ _ (hpre c)
  funext i
  obtain ⟨e, f, rfl⟩ : ∃ (e : Fin 65536) (f : Fin 1024), i = ix2 e f := ⟨i 0, i 1, eq_ix2 i⟩
  refine (Cert.ReferenceIdeal.RefValue.ref_value _ _ _ _ hy e f).trans ?_
  refine Eq.trans ?_ (Cert.KernelIdeal.KernelValue.kernel_value m ρ c hx hy e f).symm
  exact (kerVal_eq_refVal eps eps_pos _ _ (fun e' => hx _) _ _ (hγ _) (hβ _) e).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
